-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x16 : Shape := ⟨2, ![256, 16]⟩
abbrev S16 : Shape := ⟨1, ![16]⟩
abbrev S16x3 : Shape := ⟨2, ![16, 3]⟩
abbrev S3 : Shape := ⟨1, ![3]⟩
abbrev S2x6400000 : Shape := ⟨2, ![2, 6400000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S16 .f32) (main_arg5 : FVec F S16x3 .f32) (main_arg6 : FVec F S3 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x3 .f32 := Host.absf main_arg5
  let main_cst_8 : FVec F S_ .f32 := constant S_ .f32 0x7F800000#32
  let main_v25 : FVec F S16x3 .f32 := broadcastInDim S16x3 ![] bcast_S_S16x3 main_cst_8
  let main_v26 : IVec S16x3 1 := cmpf .olt main_v24 main_v25
  let main_c_9 : IVec S_ 1 := constantI S_ 1 1#1
  let main_v27 : IVec S_ 1 := (fun x v => Host.reduce IntOp.andi x v reducesTo_S16x3_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S200000x256 .f32) (main_arg1 : FVec F S256x16 .f32) (main_arg2 : FVec F S16 .f32) (main_arg3 : FVec F S16 .f32) (main_arg4 : FVec F S16 .f32) (main_arg5 : FVec F S16x3 .f32) (main_arg6 : FVec F S3 .f32) (main_arg7 : IVec S2x6400000 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_v13 main_v16
-- ==== Kernel.lean ====
abbrev S200000x256 : Shape := ⟨2, ![200000, 256]⟩
abbrev S256x16 : Shape := ⟨2, ![256, 16]⟩
abbrev S16 : Shape := ⟨1, ![16]⟩
abbrev S16x3 : Shape := ⟨2, ![16, 3]⟩
abbrev S3 : Shape := ⟨1, ![3]⟩
abbrev S2x6400000 : Shape := ⟨2, ![2, 6400000]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S1x16 : Shape := ⟨2, ![1, 16]⟩
abbrev S1x3 : Shape := ⟨2, ![1, 3]⟩
abbrev S200000x16 : Shape := ⟨2, ![200000, 16]⟩
abbrev S10000x256 : Shape := ⟨2, ![10000, 256]⟩
abbrev S10000x16 : Shape := ⟨2, ![10000, 16]⟩
abbrev S6600000x16 : Shape := ⟨2, ![6600000, 16]⟩
abbrev S200000x3 : Shape := ⟨2, ![200000, 3]⟩
abbrev S10000x3 : Shape := ⟨2, ![10000, 3]⟩
abbrev S6600000x3 : Shape := ⟨2, ![6600000, 3]⟩
abbrev S10000 : Shape := ⟨1, ![10000]⟩
abbrev S10000x1 : Shape := ⟨2, ![10000, 1]⟩

abbrev nBuf : Space → Nat
  | .hbm => 89
  | .vmem => 25
  | .smem => 0
  | _ => 0

abbrev bufTy : (tb : Table) → Fin (tcTables nBuf tb) → BufTy
  | .hbm, ⟨0, _⟩ => ⟨S200000x256, .f32⟩
  | .hbm, ⟨1, _⟩ => ⟨S256x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16x3, .f32⟩
  | .hbm, ⟨6, _⟩ => ⟨S3, .f32⟩
  | .hbm, ⟨7, _⟩ => ⟨S2x6400000, .i32⟩
  | .hbm, ⟨8, _⟩ => ⟨S200000, .i32⟩
  | .hbm, ⟨9, _⟩ => ⟨S1x6400000, .i32⟩
  | .hbm, ⟨10, _⟩ => ⟨S6400000, .i32⟩
  | .hbm, ⟨11, _⟩ => ⟨S1x6400000, .i32⟩
  | .hbm, ⟨12, _⟩ => ⟨S6400000, .i32⟩
  | .hbm, ⟨13, _⟩ => ⟨S6600000, .i32⟩
  | .hbm, ⟨14, _⟩ => ⟨S6600000, .i32⟩
  | .hbm, ⟨15, _⟩ => ⟨S_, .f32⟩
  | .hbm, ⟨16, _⟩ => ⟨S6600000, .f32⟩
  | .hbm, ⟨17, _⟩ => ⟨S_, .f32⟩
  | .hbm, ⟨18, _⟩ => ⟨S200000, .f32⟩
  | .hbm, ⟨19, _⟩ => ⟨S6600000x1, .i32⟩
  | .hbm, ⟨20, _⟩ => ⟨S200000, .f32⟩
  | .hbm, ⟨21, _⟩ => ⟨S200000, .f32⟩
  | .hbm, ⟨22, _⟩ => ⟨S_, .i32⟩
  | .hbm, ⟨23, _⟩ => ⟨S6600000, .i32⟩
  | .hbm, ⟨24, _⟩ => ⟨S6600000, .i1⟩
  | .hbm, ⟨25, _⟩ => ⟨S_, .i32⟩
  | .hbm, ⟨26, _⟩ => ⟨S6600000, .i32⟩
  | .hbm, ⟨27, _⟩ => ⟨S6600000, .i32⟩
  | .hbm, ⟨28, _⟩ => ⟨S6600000, .i32⟩
  | .hbm, ⟨29, _⟩ => ⟨S6600000x1, .i32⟩
  | .hbm, ⟨30, _⟩ => ⟨S6600000, .f32⟩
  | .hbm, ⟨31, _⟩ => ⟨S_, .i32⟩
  | .hbm, ⟨32, _⟩ => ⟨S6600000, .i32⟩
  | .hbm, ⟨33, _⟩ => ⟨S6600000, .i1⟩
  | .hbm, ⟨34, _⟩ => ⟨S_, .i32⟩
  | .hbm, ⟨35, _⟩ => ⟨S6600000, .i32⟩
  | .hbm, ⟨36, _⟩ => ⟨S6600000, .i32⟩
  | .hbm, ⟨37, _⟩ => ⟨S6600000, .i32⟩
  | .hbm, ⟨38, _⟩ => ⟨S6600000x1, .i32⟩
  | .hbm, ⟨39, _⟩ => ⟨S6600000, .f32⟩
  | .hbm, ⟨40, _⟩ => ⟨S6600000, .f32⟩
  | .hbm, ⟨41, _⟩ => ⟨S6600000x1, .f32⟩
  | .hbm, ⟨42, _⟩ => ⟨S1x16, .f32⟩
  | .hbm, ⟨43, _⟩ => ⟨S1x16, .f32⟩
  | .hbm, ⟨44, _⟩ => ⟨S1x16, .f32⟩
  | .hbm, ⟨45, _⟩ => ⟨S1x3, .f32⟩
  | .hbm, ⟨46, _⟩ => ⟨S200000x16, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x16, .f32⟩
  | .hbm, ⟨56, _⟩ => ⟨S6600000x16, .f32⟩
  | .hbm, ⟨57, _⟩ => ⟨S6600000x16, .f32⟩
  | .hbm, ⟨58, _⟩ => ⟨S_, .f32⟩
  | .hbm, ⟨59, _⟩ => ⟨S200000x16, .f32⟩
  | .hbm, ⟨60, _⟩ => ⟨S6600000x1, .i32⟩
  | .hbm, ⟨61, _⟩ => ⟨S200000x16, .f32⟩
  | .hbm, ⟨62, _⟩ => ⟨S1x16, .f32⟩
  | .hbm, ⟨63, _⟩ => ⟨S1x16, .f32⟩
  | .hbm, ⟨64, _⟩ => ⟨S_, .f32⟩
  | .hbm, ⟨65, _⟩ => ⟨S1x16, .f32⟩
  | .hbm, ⟨66, _⟩ => ⟨S1x16, .f32⟩
  | .hbm, ⟨67, _⟩ => ⟨S_, .f32⟩
  | .hbm, ⟨68, _⟩ => ⟨S1x16, .f32⟩
  | .hbm, ⟨69, _⟩ => ⟨S1x16, .f32⟩
  | .hbm, ⟨70, _⟩ => ⟨S1x16, .f32⟩
  | .hbm, ⟨71, _⟩ => ⟨S1x16, .f32⟩
  | .hbm, ⟨72, _⟩ => ⟨S200000x3, .f32⟩
  | .hbm, ⟨73, _⟩ => ⟨S_, .i32⟩
  | .hbm, ⟨74, _⟩ => ⟨S6600000, .i32⟩
  | .hbm, ⟨75, _⟩ => ⟨S6600000, .i1⟩
  | .hbm, ⟨76, _⟩ => ⟨S_, .i32⟩
  | .hbm, ⟨77, _⟩ => ⟨S6600000, .i32⟩
  | .hbm, ⟨78, _⟩ => ⟨S6600000, .i32⟩
  | .hbm, ⟨79, _⟩ => ⟨S6600000, .i32⟩
  | .hbm, ⟨80, _⟩ => ⟨S6600000x1, .i32⟩
  | .hbm, ⟨81, _⟩ => ⟨S6600000x3, .f32⟩
  | .hbm, ⟨82, _⟩ => ⟨S6600000x3, .f32⟩
  | .hbm, ⟨83, _⟩ => ⟨S6600000x3, .f32⟩
  | .hbm, ⟨84, _⟩ => ⟨S_, .f32⟩
  | .hbm, ⟨85, _⟩ => ⟨S200000x3, .f32⟩
  | .hbm, ⟨86, _⟩ => ⟨S6600000x1, .i32⟩
  | .hbm, ⟨87, _⟩ => ⟨S200000x3, .f32⟩
  | .hbm, ⟨88, _⟩ => ⟨S200000x3, .f32⟩
  | .local _ .vmem, ⟨0, _⟩ => ⟨S10000x256, .f32⟩
  | .local _ .vmem, ⟨1, _⟩ => ⟨S10000x256, .f32⟩
  | .local _ .vmem, ⟨2, _⟩ => ⟨S256x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S10000x16, .f32⟩
  | .local _ .vmem, ⟨11, _⟩ => ⟨S10000x16, .f32⟩
  | .local _ .vmem, ⟨12, _⟩ => ⟨S1x16, .f32⟩
  | .local _ .vmem, ⟨13, _⟩ => ⟨S1x16, .f32⟩
  | .local _ .vmem, ⟨14, _⟩ => ⟨S1x16, .f32⟩
  | .local _ .vmem, ⟨15, _⟩ => ⟨S1x16, .f32⟩
  | .local _ .vmem, ⟨16, _⟩ => ⟨S1x16, .f32⟩
  | .local _ .vmem, ⟨17, _⟩ => ⟨S16x3, .f32⟩
  | .local _ .vmem, ⟨18, _⟩ => ⟨S10000x3, .f32⟩
  | .local _ .vmem, ⟨19, _⟩ => ⟨S10000x3, .f32⟩
  | .local _ .vmem, ⟨20, _⟩ => ⟨S10000x3, .f32⟩
  | .local _ .vmem, ⟨21, _⟩ => ⟨S10000x3, .f32⟩
  | .local _ .vmem, ⟨22, _⟩ => ⟨S1x3, .f32⟩
  | .local _ .vmem, ⟨23, _⟩ => ⟨S10000x3, .f32⟩
  | .local _ .vmem, ⟨24, _⟩ => ⟨S10000x3, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45_0 : Ref sig .tc := ⟨.hbm, 62, rfl⟩
abbrev main_v45_1 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x3 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  shapeCasts_S16_S1x16 : S16.ShapeCasts S1x16
  shapeCasts_S3_S1x3 : S3.ShapeCasts S1x3
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S10000x16_S10000x16_0_0 : ∀ a, (![0, 0] : Fin 2 → Nat) a + S10000x16.size a ≤ S10000x16.size a
  h_S10000x16 : 0 < S10000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  inb_S1x16_S1x16_0_0 : ∀ a, (![0, 0] : Fin 2 → Nat) a + S1x16.size a ≤ S1x16.size a
  h_S1x16 : 0 < S1x16.numel
  shapeCasts_S10000x16_S10000x16 : S10000x16.ShapeCasts S10000x16
  shapeCasts_S1x16_S1x16 : S1x16.ShapeCasts S1x16
  broadcasts_S1x16_S10000x16 : S1x16.Broadcasts S10000x16
  reduces_S10000x16_S16 : S10000x16.Reduces [0] S16
  bcast_S_S1x16 : S_.BroadcastsInDim S1x16 (![] : Fin 0 → Fin S1x16.rank)
  inb_S16x3_S16x3_0_0 : ∀ a, (![0, 0] : Fin 2 → Nat) a + S16x3.size a ≤ S16x3.size a
  h_S16x3 : 0 < S16x3.numel
  inb_S10000x3_S10000x3_0_0 : ∀ a, (![0, 0] : Fin 2 → Nat) a + S10000x3.size a ≤ S10000x3.size a
  h_S10000x3 : 0 < S10000x3.numel
  bcast_S6600000x1_S6600000x3_0_1 : S6600000x1.BroadcastsInDim S6600000x3 (![0, 1] : Fin 2 → Fin S6600000x3.rank)
  bcast_S_S200000x3 : S_.BroadcastsInDim S200000x3 (![] : Fin 0 → Fin S200000x3.rank)
  shapeCasts_S10000x3_S10000x3 : S10000x3.ShapeCasts S10000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  reduces_S10000x3_S10000 : S10000x3.Reduces [1] S10000
  shapeCasts_S10000_S10000x1 : S10000.ShapeCasts S10000x1
  broadcasts_S10000x1_S10000x3 : S10000x1.Broadcasts S10000x3
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S10000x256_S256x16_S10000x16_1_0_0_1_n_n_wf : DotDims.WF S10000x256 S256x16 S10000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S10000x16_S16x3_S10000x3_1_0_0_1_n_n_wf : DotDims.WF S10000x16 S16x3 S10000x3 [1] [0] [0] [1] [] []
  gather_S200000x3_S6600000x1_S6600000x3_1_0_n_n_0_1_13_wf : GatherDims.WF S200000x3 S6600000x1 S6600000x3 [1] [0] [] [0] [] 1 ![1, 3]
  scatter_S200000x3_S6600000x1_S6600000x3_1_0_0_1_wf : ScatterDims.WF S200000x3 S6600000x1 S6600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S200000x256.size a
  hwx0_0 : ∀ i : grid0.Coords, EltTy.bits .f32 = 32 ∨ (Rect.block (s := S200000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S200000x16.size a
  hwx2_0 : ∀ i : grid2.Coords, EltTy.bits .f32 = 32 ∨ (Rect.block (s := S200000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16x3.size a ≤ S16x3.size a
  hwx2_6 : ∀ i : grid2.Coords, EltTy.bits .f32 = 32 ∨ (Rect.block (s := S16x3) S16x3.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x3.size a ≤ S200000x3.size a
  hwx2_7 : ∀ i : grid2.Coords, EltTy.bits .f32 = 32 ∨ (Rect.block (s := S200000x3) S10000x3.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x3.size a ≤ S200000x3.size a
  hwx3_0 : ∀ i : grid3.Coords, EltTy.bits .f32 = 32 ∨ (Rect.block (s := S200000x3) S10000x3.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x3.size a ≤ S1x3.size a
  hwx3_1 : ∀ i : grid3.Coords, EltTy.bits .f32 = 32 ∨ (Rect.block (s := S1x3) S1x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x3.size a ≤ S200000x3.size a
  hwx3_2 : ∀ i : grid3.Coords, EltTy.bits .f32 = 32 ∨ (Rect.block (s := S200000x3) S10000x3.size (cc3_transform_2 i) (hinb3_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S10000x256_S256x16_S10000x16_1_0_0_1_n_n : DotDims S10000x256 S256x16 S10000x16 where
  lhsContracting := [1]
  rhsContracting := [0]
  lhsNonContracting := [0]
  rhsNonContracting := [1]
  lhsBatch := []
  rhsBatch := []
  wf := dot_S10000x256_S256x16_S10000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S10000x16_S16x3_S10000x3_1_0_0_1_n_n : DotDims S10000x16 S16x3 S10000x3 where
  lhsContracting := [1]
  rhsContracting := [0]
  lhsNonContracting := [0]
  rhsNonContracting := [1]
  lhsBatch := []
  rhsBatch := []
  wf := dot_S10000x16_S16x3_S10000x3_1_0_0_1_n_n_wf
def gather_S200000x3_S6600000x1_S6600000x3_1_0_n_n_0_1_13 : GatherDims S200000x3 S6600000x1 S6600000x3 where
  offsetDims := [1]
  collapsedSliceDims := [0]
  operandBatchingDims := []
  startIndicesBatchingDims := []
  startIndexMap := [0]
  indexVectorDim := 1
  sliceSizes := ![1, 3]
  wf := gather_S200000x3_S6600000x1_S6600000x3_1_0_n_n_0_1_13_wf
def scatter_S200000x3_S6600000x1_S6600000x3_1_0_0_1 : ScatterDims S200000x3 S6600000x1 S6600000x3 where
  updateWindowDims := [1]
  insertedWindowDims := [0]
  scatterDimsToOperandDims := [0]
  indexVectorDim := 1
  wf := scatter_S200000x3_S6600000x1_S6600000x3_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S1x16.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x16.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg5) S16x3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S10000x3.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v64) S10000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S10000x3.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x256 : Shape := ⟨2, ![200000, 256]⟩
abbrev S256x16 : Shape := ⟨2, ![256, 16]⟩
abbrev S16 : Shape := ⟨1, ![16]⟩
abbrev S16x3 : Shape := ⟨2, ![16, 3]⟩
abbrev S3 : Shape := ⟨1, ![3]⟩
abbrev S2x6400000 : Shape := ⟨2, ![2, 6400000]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S6600000x16 : Shape := ⟨2, ![6600000, 16]⟩
abbrev S1x16 : Shape := ⟨2, ![1, 16]⟩
abbrev S200000x3 : Shape := ⟨2, ![200000, 3]⟩
abbrev S6600000x3 : Shape := ⟨2, ![6600000, 3]⟩
abbrev S1x3 : Shape := ⟨2, ![1, 3]⟩
abbrev S200000x1 : Shape := ⟨2, ![200000, 1]⟩

abbrev nBuf : Space → Nat
  | .hbm => 142
  | .vmem => 0
  | .smem => 0
  | _ => 0

abbrev hbmTy0_0 (i : Nat) : BufTy := match i % 128 with
  | 0 => ⟨S200000x256, .f32⟩
  | 1 => ⟨S256x16, .f32⟩
  | 2 => ⟨S16, .f32⟩
  | 3 => ⟨S16, .f32⟩
  | 4 => ⟨S16, .f32⟩
  | 5 => ⟨S16x3, .f32⟩
  | 6 => ⟨S3, .f32⟩
  | 7 => ⟨S2x6400000, .i32⟩
  | 8 => ⟨S200000, .i32⟩
  | 9 => ⟨S1x6400000, .i32⟩
  | 10 => ⟨S6400000, .i32⟩
  | 11 => ⟨S6600000, .i32⟩
  | 12 => ⟨S1x6400000, .i32⟩
  | 13 => ⟨S6400000, .i32⟩
  | 14 => ⟨S6600000, .i32⟩
  | 15 => ⟨S_, .f32⟩
  | 16 => ⟨S6600000, .f32⟩
  | 17 => ⟨S_, .f32⟩
  | 18 => ⟨S200000, .f32⟩
  | 19 => ⟨S6600000x1, .i32⟩
  | 20 => ⟨S200000, .f32⟩
  | 21 => ⟨S200000, .f32⟩
  | 22 => ⟨S_, .i32⟩
  | 23 => ⟨S6600000, .i32⟩
  | 24 => ⟨S6600000, .i1⟩
  | 25 => ⟨S_, .i32⟩
  | 26 => ⟨S6600000, .i32⟩
  | 27 => ⟨S6600000, .i32⟩
  | 28 => ⟨S6600000, .i32⟩
  | 29 => ⟨S6600000x1, .i32⟩
  | 30 => ⟨S6600000, .f32⟩
  | 31 => ⟨S_, .i32⟩
  | 32 => ⟨S6600000, .i32⟩
  | 33 => ⟨S6600000, .i1⟩
  | 34 => ⟨S_, .i32⟩
  | 35 => ⟨S6600000, .i32⟩
  | 36 => ⟨S6600000, .i32⟩
  | 37 => ⟨S6600000, .i32⟩
  | 38 => ⟨S6600000x1, .i32⟩
  | 39 => ⟨S6600000, .f32⟩
  | 40 => ⟨S6600000, .f32⟩
  | 41 => ⟨S6600000x1, .f32⟩
  | 42 => ⟨S200000x16, .f32⟩
  | 43 => ⟨S_, .i32⟩
  | 44 => ⟨S6600000, .i32⟩
  | 45 => ⟨S6600000, .i1⟩
  | 46 => ⟨S_, .i32⟩
  | 47 => ⟨S6600000, .i32⟩
  | 48 => ⟨S6600000, .i32⟩
  | 49 => ⟨S6600000, .i32⟩
  | 50 => ⟨S6600000x1, .i32⟩
  | 51 => ⟨S6600000x16, .f32⟩
  | 52 => ⟨S6600000x16, .f32⟩
  | 53 => ⟨S6600000x16, .f32⟩
  | 54 => ⟨S_, .f32⟩
  | 55 => ⟨S200000x16, .f32⟩
  | 56 => ⟨S6600000x1, .i32⟩
  | 57 => ⟨S200000x16, .f32⟩
  | 58 => ⟨S1x16, .f32⟩
  | 59 => ⟨S200000x16, .f32⟩
  | 60 => ⟨S200000x16, .f32⟩
  | 61 => ⟨S_, .f32⟩
  | 62 => ⟨S16, .f32⟩
  | 63 => ⟨S_, .f32⟩
  | 64 => ⟨S16, .f32⟩
  | 65 => ⟨S16, .f32⟩
  | 66 => ⟨S_, .i32⟩
  | 67 => ⟨S_, .f32⟩
  | 68 => ⟨S16, .f32⟩
  | 69 => ⟨S1x16, .f32⟩
  | 70 => ⟨S_, .f32⟩
  | 71 => ⟨S1x16, .f32⟩
  | 72 => ⟨S1x16, .f32⟩
  | 73 => ⟨S200000x16, .f32⟩
  | 74 => ⟨S200000x16, .f32⟩
  | 75 => ⟨S200000x16, .f32⟩
  | 76 => ⟨S_, .f32⟩
  | 77 => ⟨S_, .f32⟩
  | 78 => ⟨S_, .f32⟩
  | 79 => ⟨S_, .f32⟩
  | 80 => ⟨S16, .f32⟩
  | 81 => ⟨S16, .f32⟩
  | 82 => ⟨S16, .f32⟩
  | 83 => ⟨S_, .f32⟩
  | 84 => ⟨S_, .i1⟩
  | 85 => ⟨S_, .f32⟩
  | 86 => ⟨S_, .f32⟩
  | 87 => ⟨S16, .f32⟩
  | 88 => ⟨S16, .f32⟩
  | 89 => ⟨S1x16, .f32⟩
  | 90 => ⟨S200000x16, .f32⟩
  | 91 => ⟨S200000x16, .f32⟩
  | 92 => ⟨S_, .f32⟩
  | 93 => ⟨S16, .f32⟩
  | 94 => ⟨S16, .f32⟩
  | 95 => ⟨S16, .f32⟩
  | 96 => ⟨S1x16, .f32⟩
  | 97 => ⟨S200000x16, .f32⟩
  | 98 => ⟨S200000x16, .f32⟩
  | 99 => ⟨S1x16, .f32⟩
  | 100 => ⟨S200000x16, .f32⟩
  | 101 => ⟨S200000x16, .f32⟩
  | 102 => ⟨S1x16, .f32⟩
  | 103 => ⟨S200000x16, .f32⟩
  | 104 => ⟨S200000x16, .f32⟩
  | 105 => ⟨S_, .f32⟩
  | 106 => ⟨S200000x16, .f32⟩
  | 107 => ⟨S200000x16, .f32⟩
  | 108 => ⟨S200000x3, .f32⟩
  | 109 => ⟨S_, .i32⟩
  | 110 => ⟨S6600000, .i32⟩
  | 111 => ⟨S6600000, .i1⟩
  | 112 => ⟨S_, .i32⟩
  | 113 => ⟨S6600000, .i32⟩
  | 114 => ⟨S6600000, .i32⟩
  | 115 => ⟨S6600000, .i32⟩
  | 116 => ⟨S6600000x1, .i32⟩
  | 117 => ⟨S6600000x3, .f32⟩
  | 118 => ⟨S6600000x3, .f32⟩
  | 119 => ⟨S6600000x3, .f32⟩
  | 120 => ⟨S_, .f32⟩
  | 121 => ⟨S200000x3, .f32⟩
  | 122 => ⟨S6600000x1, .i32⟩
  | 123 => ⟨S200000x3, .f32⟩
  | 124 => ⟨S1x3, .f32⟩
  | 125 => ⟨S200000x3, .f32⟩
  | 126 => ⟨S200000x3, .f32⟩
  | 127 => ⟨S_, .f32⟩
  | _ => ⟨S200000x256, .f32⟩

abbrev hbmTy0_1 (i : Nat) : BufTy := match i % 128 with
  | 0 => ⟨S200000, .f32⟩
  | 1 => ⟨S_, .f32⟩
  | 2 => ⟨S200000, .f32⟩
  | 3 => ⟨S200000, .f32⟩
  | 4 => ⟨S200000x1, .f32⟩
  | 5 => ⟨S200000x3, .f32⟩
  | 6 => ⟨S200000x3, .f32⟩
  | 7 => ⟨S200000x3, .f32⟩
  | 8 => ⟨S_, .f32⟩
  | 9 => ⟨S200000, .f32⟩
  | 10 => ⟨S200000x1, .f32⟩
  | 11 => ⟨S200000x1, .f32⟩
  | 12 => ⟨S200000x3, .f32⟩
  | 13 => ⟨S200000x3, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_cst_3 : Ref sig .tc := ⟨.hbm, 83, rfl⟩
abbrev main_call0_v12 : Ref sig .tc := ⟨.hbm, 84, rfl⟩
abbrev main_call0_cst_4 : Ref sig .tc := ⟨.hbm, 85, rfl⟩
abbrev main_call0_call0_v0 : Ref sig .tc := ⟨.hbm, 86, rfl⟩
abbrev main_call0_call0_v1 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_10 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_call1_cst : Ref sig .tc := ⟨.hbm, 105, rfl⟩
abbrev main_call1_v0 : Ref sig .tc := ⟨.hbm, 106, rfl⟩
abbrev main_v63 : Ref sig .tc := ⟨.hbm, 107, rfl⟩
abbrev main_v64 : Ref sig .tc := ⟨.hbm, 108, rfl⟩
abbrev main_c_11 : Ref sig .tc := ⟨.hbm, 109, rfl⟩
abbrev main_v65 : Ref sig .tc := ⟨.hbm, 110, rfl⟩
abbrev main_v66 : Ref sig .tc := ⟨.hbm, 111, rfl⟩
abbrev main_c_12 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_13 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_call2_cst : Ref sig .tc := ⟨.hbm, 127, rfl⟩
abbrev main_call2_v0 : Ref sig .tc := ⟨.hbm, 128, rfl⟩
abbrev main_call2_cst_0 : Ref sig .tc := ⟨.hbm, 129, rfl⟩
abbrev main_call2_v1 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_v6 : Ref sig .tc := ⟨.hbm, 135, rfl⟩
abbrev main_call2_cst_1 : Ref sig .tc := ⟨.hbm, 136, rfl⟩
abbrev main_call2_v7 : Ref sig .tc := ⟨.hbm, 137, rfl⟩
abbrev main_call2_v8 : Ref sig .tc := ⟨.hbm, 138, rfl⟩
abbrev main_call2_v9 : Ref sig .tc := ⟨.hbm, 139, rfl⟩
abbrev main_call2_v10 : Ref sig .tc := ⟨.hbm, 140, rfl⟩
abbrev main_v80 : Ref sig .tc := ⟨.hbm, 141, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  reducesTo_S200000x16_S16_d0 : S200000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S6600000x1_S6600000x3_0_1 : S6600000x1.BroadcastsInDim S6600000x3 (![0, 1] : Fin 2 → Fin S6600000x3.rank)
  bcast_S_S200000x3 : S_.BroadcastsInDim S200000x3 (![] : Fin 0 → Fin S200000x3.rank)
  bcast_S3_S1x3_1 : S3.BroadcastsInDim S1x3 (![1] : Fin 1 → Fin S1x3.rank)
  bcast_S1x3_S200000x3_0_1 : S1x3.BroadcastsInDim S200000x3 (![0, 1] : Fin 2 → Fin S200000x3.rank)
  reducesTo_S200000x3_S200000_d1 : S200000x3.ReducesTo [1] S200000
  bcast_S200000_S200000x1_0 : S200000.BroadcastsInDim S200000x1 (![0] : Fin 1 → Fin S200000x1.rank)
  bcast_S200000x1_S200000x3_0_1 : S200000x1.BroadcastsInDim S200000x3 (![0, 1] : Fin 2 → Fin S200000x3.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x256_S256x16_S200000x16_1_0_0_1_n_n_wf : DotDims.WF S200000x256 S256x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x3_S200000x3_1_0_0_1_n_n_wf : DotDims.WF S200000x16 S16x3 S200000x3 [1] [0] [0] [1] [] []
  gather_S200000x3_S6600000x1_S6600000x3_1_0_n_n_0_1_13_wf : GatherDims.WF S200000x3 S6600000x1 S6600000x3 [1] [0] [] [0] [] 1 ![1, 3]
  scatter_S200000x3_S6600000x1_S6600000x3_1_0_0_1_wf : ScatterDims.WF S200000x3 S6600000x1 S6600000x3 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x256_S256x16_S200000x16_1_0_0_1_n_n : DotDims S200000x256 S256x16 S200000x16 where
  lhsContracting := [1]
  rhsContracting := [0]
  lhsNonContracting := [0]
  rhsNonContracting := [1]
  lhsBatch := []
  rhsBatch := []
  wf := dot_S200000x256_S256x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x3_S200000x3_1_0_0_1_n_n : DotDims S200000x16 S16x3 S200000x3 where
  lhsContracting := [1]
  rhsContracting := [0]
  lhsNonContracting := [0]
  rhsNonContracting := [1]
  lhsBatch := []
  rhsBatch := []
  wf := dot_S200000x16_S16x3_S200000x3_1_0_0_1_n_n_wf
def gather_S200000x3_S6600000x1_S6600000x3_1_0_n_n_0_1_13 : GatherDims S200000x3 S6600000x1 S6600000x3 where
  offsetDims := [1]
  collapsedSliceDims := [0]
  operandBatchingDims := []
  startIndicesBatchingDims := []
  startIndexMap := [0]
  indexVectorDim := 1
  sliceSizes := ![1, 3]
  wf := gather_S200000x3_S6600000x1_S6600000x3_1_0_n_n_0_1_13_wf
def scatter_S200000x3_S6600000x1_S6600000x3_1_0_0_1 : ScatterDims S200000x3 S6600000x1 S6600000x3 where
  updateWindowDims := [1]
  insertedWindowDims := [0]
  scatterDimsToOperandDims := [0]
  indexVectorDim := 1
  wf := scatter_S200000x3_S6600000x1_S6600000x3_1_0_0_1_wf

class Facts : Prop extends Facts₀ where

variable [Facts]
-- ==== Proof.Spec.lean ====
/-
  The mathematics of the two-layer graph convolution, entry by entry on the extended reals.

  A node-feature matrix is an array indexed by (node, feature). The pieces below are the dense stages both programs
  compute around the sparse neighbour aggregation: a matrix product, the column sums and column sums of squares of
  (A + bias row), the batch normalisation followed by the positive part, and the row-wise log-softmax over three
  classes. Each is stated as one function of whole arrays, so that a tiled computation and a whole-array one can be
  compared against the same term.
-/
import Idealize.ShloMosaic.PureOps.Ideal
import Idealize.ShloMosaic.Lib.ValueIdx

noncomputable section

open scoped BigOperators

namespace Cert.Gcn

open Idealize.ShloMosaic Idealize.ShloMosaic.ValueIdx

/-- The row coordinate of a rank-2 index, at the literal extent. -/
abbrev row {n h : Nat} (i : (⟨2, ![n, h]⟩ : Shape).Idx) : Fin n := ⟨(i 0).val, idx2_lt0 i⟩
/-- The column coordinate of a rank-2 index, at the literal extent. -/
abbrev col {n h : Nat} (i : (⟨2, ![n, h]⟩ : Shape).Idx) : Fin h := ⟨(i 1).val, idx2_lt1 i⟩

/-- Entry (p, q) of the product of an n×k matrix and a k×h matrix: Σ_j a(p, j) · b(j, q). -/
def matProd {n k h : Nat} (a : (⟨2, ![n, k]⟩ : Shape).Idx → EReal) (b : (⟨2, ![k, h]⟩ : Shape).Idx → EReal) :
    (⟨2, ![n, h]⟩ : Shape).Idx → EReal :=
  fun i => ∑ j : Fin k, a (ix2 (row i) j) * b (ix2 j (col i))

/-- The 1×h row of column sums of A + bias: entry (0, q) is Σ_r (A(r, q) + b(0, q)). -/
def colSum {n h : Nat} (A : (⟨2, ![n, h]⟩ : Shape).Idx → EReal) (b : (⟨2, ![1, h]⟩ : Shape).Idx → EReal) :
    (⟨2, ![1, h]⟩ : Shape).Idx → EReal :=
  fun j => ∑ r : Fin n, (A (ix2 r (col j)) + b (ix2 0 (col j)))

/-- The 1×h row of column sums of squares of A + bias: entry (0, q) is Σ_r (A(r, q) + b(0, q))². -/
def colSumSq {n h : Nat} (A : (⟨2, ![n, h]⟩ : Shape).Idx → EReal) (b : (⟨2, ![1, h]⟩ : Shape).Idx → EReal) :
    (⟨2, ![1, h]⟩ : Shape).Idx → EReal :=
  fun j => ∑ r : Fin n, (A (ix2 r (col j)) + b (ix2 0 (col j))) * (A (ix2 r (col j)) + b (ix2 0 (col j)))

/-- The stabiliser added to the variance before the reciprocal square root (the same binary word in both programs). -/
def eps : EReal := Ideal.ofBits .f32 0x3727C5AC#32

/-- Batch normalisation with an affine map, then the positive part:
    max(((A(p, q) + b(q)) − μ(q)) · rsqrt(σ²(q) + ε) · γ(q) + β(q), 0). -/
def normRelu {n h : Nat} (A : (⟨2, ![n, h]⟩ : Shape).Idx → EReal) (b mu var g be : (⟨2, ![1, h]⟩ : Shape).Idx → EReal) :
    (⟨2, ![n, h]⟩ : Shape).Idx → EReal :=
  fun i => max ((((A i + b (ix2 0 (col i))) - mu (ix2 0 (col i))) * Ideal.rsqrt (var (ix2 0 (col i)) + eps))
      * g (ix2 0 (col i)) + be (ix2 0 (col i))) 0

/-- Row p of A + bias, as a function of the class. -/
def biased {n : Nat} (A : (⟨2, ![n, 3]⟩ : Shape).Idx → EReal) (b : (⟨2, ![1, 3]⟩ : Shape).Idx → EReal) (p : Fin n) :
    Fin 3 → EReal :=
  fun o => A (ix2 p o) + b (ix2 0 o)

/-- The largest of three extended reals. -/
def max3 (a : Fin 3 → EReal) : EReal := max (max (a 0) (a 1)) (a 2)

/-- Row-wise log-softmax over three classes of A + bias: (a(q) − m) − log Σ_o exp(a(o) − m), m the row's maximum. -/
def logSoftmax3 {n : Nat} (A : (⟨2, ![n, 3]⟩ : Shape).Idx → EReal) (b : (⟨2, ![1, 3]⟩ : Shape).Idx → EReal) :
    (⟨2, ![n, 3]⟩ : Shape).Idx → EReal :=
  fun i => (biased A b (row i) (col i) - max3 (biased A b (row i)))
    - Ideal.log (∑ o : Fin 3, Ideal.exp (biased A b (row i) o - max3 (biased A b (row i))))

end Cert.Gcn

end
-- ==== Proof.KTerms.lean ====
/-
  The value the tiled program computes, as one term of its argument arrays.

  The sparse part (degrees, edge weights, the two neighbour aggregations) is the host's own operations, kept as they
  are printed; the dense stages between them are the whole-array functions of the specification.
-/
import proofs.«130263_j59150289600863_1_alg».proof.KernelIdeal
import proofs.«130263_j59150289600863_1_alg».proof.Proof.Gen.KernelIdeal
import proofs.«130263_j59150289600863_1_alg».proof.Proof.Spec

noncomputable section

namespace Cert.KernelIdeal.Terms

open Idealize.ShloMosaic Cert.KernelIdeal Cert.KernelIdeal.Facts₀ Cert.KernelIdeal.Facts

/-- The node ids 0 … 199999, the self-loops' endpoints. -/
def selfLoops : IVec S200000 32 := iotaInDim S200000 32 0
/-- Row r of the 2×E edge list, flattened. -/
def edgeRow0 (ei : IVec S2x6400000 32) : IVec S6400000 32 :=
  shapeCast S6400000 (extractStridedSlice S1x6400000 ![0, 0] ei slices_S2x6400000_S1x6400000_0_0) shapeCasts_S1x6400000_S6400000
def edgeRow1 (ei : IVec S2x6400000 32) : IVec S6400000 32 :=
  shapeCast S6400000 (extractStridedSlice S1x6400000 ![1, 0] ei slices_S2x6400000_S1x6400000_1_0) shapeCasts_S1x6400000_S6400000
/-- Sources and targets of all E + N edges: the given edges, then one self-loop per node. -/
def src (ei : IVec S2x6400000 32) : IVec S6600000 32 :=
  concatenate S6600000 0 [⟨S6400000, edgeRow0 ei⟩, ⟨S200000, selfLoops⟩] concatenates_S6400000_S200000_S6600000_d0
def dst (ei : IVec S2x6400000 32) : IVec S6600000 32 :=
  concatenate S6600000 0 [⟨S6400000, edgeRow1 ei⟩, ⟨S200000, selfLoops⟩] concatenates_S6400000_S200000_S6600000_d0
/-- An index vector as a column of start indices. -/
def asColumn (v : IVec S6600000 32) : IVec S6600000x1 32 := broadcastInDim S6600000x1 ![0] bcast_S6600000_S6600000x1_0 v
/-- Negative ids wrapped once by the node count (the gather's index normalisation), as a column of start indices. -/
def wrapped (v : IVec S6600000 32) : IVec S6600000x1 32 :=
  asColumn (select (cmpi .slt v (broadcastInDim S6600000 ![] bcast_S_S6600000 (constantI S_ 32 0#32)))
    (addi v (broadcastInDim S6600000 ![] bcast_S_S6600000 (constantI S_ 32 200000#32))) v)
/-- The in-degree of every node, self-loop included: one added per edge landing on it. -/
def deg (ei : IVec S2x6400000 32) : FVec Ideal S200000 .f32 :=
  Host.scatterAdd scatter_S200000_S6600000x1_S6600000_n_0_0_1
    (broadcastInDim S200000 ![] bcast_S_S200000 (constant S_ .f32 0x00000000#32)) (asColumn (dst ei))
    (broadcastInDim S6600000 ![] bcast_S_S6600000 (constant S_ .f32 0x3F800000#32))
/-- deg^(-1/2). -/
def dinv (ei : IVec S2x6400000 32) : FVec Ideal S200000 .f32 := Host.rsqrt (deg ei)
/-- The symmetric normalisation weight of every edge, dinv[src] · dinv[dst], as a column. -/
def edgeWeight (ei : IVec S2x6400000 32) : FVec Ideal S6600000x1 .f32 :=
  broadcastInDim S6600000x1 ![0] bcast_S6600000_S6600000x1_0
    (mulf (Host.gather gather_S200000_S6600000x1_S6600000_n_0_n_n_0_1_1 (dinv ei) (wrapped (src ei)))
      (Host.gather gather_S200000_S6600000x1_S6600000_n_0_n_n_0_1_1 (dinv ei) (wrapped (dst ei))))
/-- Neighbour aggregation of a 16-feature matrix: every edge carries its source's row, weighted, to its target. -/
def aggH (ei : IVec S2x6400000 32) (M : FVec Ideal S200000x16 .f32) : FVec Ideal S200000x16 .f32 :=
  Host.scatterAdd scatter_S200000x16_S6600000x1_S6600000x16_1_0_0_1
    (broadcastInDim S200000x16 ![] bcast_S_S200000x16 (constant S_ .f32 0x00000000#32)) (asColumn (dst ei))
    (mulf (Host.gather gather_S200000x16_S6600000x1_S6600000x16_1_0_n_n_0_1_116 M (wrapped (src ei)))
      (broadcastInDim S6600000x16 ![0, 1] bcast_S6600000x1_S6600000x16_0_1 (edgeWeight ei)))
/-- Neighbour aggregation of a 3-class matrix. -/
def aggO (ei : IVec S2x6400000 32) (M : FVec Ideal S200000x3 .f32) : FVec Ideal S200000x3 .f32 :=
  Host.scatterAdd scatter_S200000x3_S6600000x1_S6600000x3_1_0_0_1
    (broadcastInDim S200000x3 ![] bcast_S_S200000x3 (constant S_ .f32 0x00000000#32)) (asColumn (dst ei))
    (mulf (Host.gather gather_S200000x3_S6600000x1_S6600000x3_1_0_n_n_0_1_13 M (wrapped (src ei)))
      (broadcastInDim S6600000x3 ![0, 1] bcast_S6600000x1_S6600000x3_0_1 (edgeWeight ei)))

/-- A 16-vector as a 1×16 row; a 3-vector as a 1×3 row. -/
def rowH (v : FVec Ideal S16 .f32) : FVec Ideal S1x16 .f32 := shapeCast S1x16 v shapeCasts_S16_S1x16
def rowO (v : FVec Ideal S3 .f32) : FVec Ideal S1x3 .f32 := shapeCast S1x3 v shapeCasts_S3_S1x3
/-- The node count as a 1×16 row of floats. -/
def nodeCount : FVec Ideal S1x16 .f32 := broadcastInDim S1x16 ![] bcast_S_S1x16 (constant S_ .f32 0x48435000#32)

/-- The first layer's aggregated features (before the bias). -/
def layer1 (x : FVec Ideal S200000x256 .f32) (W1 : FVec Ideal S256x16 .f32) (ei : IVec S2x6400000 32) : FVec Ideal S200000x16 .f32 :=
  aggH ei (Cert.Gcn.matProd x W1)
/-- The batch mean, as a 1×16 row: column sums over the node count. -/
def mean (A1 : FVec Ideal S200000x16 .f32) (b1 : FVec Ideal S16 .f32) : FVec Ideal S1x16 .f32 :=
  Host.divf (Cert.Gcn.colSum A1 (rowH b1)) nodeCount
/-- The batch variance, one pass: mean of squares minus square of the mean. -/
def variance (A1 : FVec Ideal S200000x16 .f32) (b1 : FVec Ideal S16 .f32) : FVec Ideal S1x16 .f32 :=
  subf (Host.divf (Cert.Gcn.colSumSq A1 (rowH b1)) nodeCount) (mulf (mean A1 b1) (mean A1 b1))
/-- The second layer's dense transform of the normalised, rectified features. -/
def hidden (A1 : FVec Ideal S200000x16 .f32) (b1 g be : FVec Ideal S16 .f32) (W2 : FVec Ideal S16x3 .f32) : FVec Ideal S200000x3 .f32 :=
  Cert.Gcn.matProd (Cert.Gcn.normRelu A1 (rowH b1) (mean A1 b1) (variance A1 b1) (rowH g) (rowH be)) W2
/-- The program's result. -/
def value (x : FVec Ideal S200000x256 .f32) (W1 : FVec Ideal S256x16 .f32) (b1 g be : FVec Ideal S16 .f32)
    (W2 : FVec Ideal S16x3 .f32) (b2 : FVec Ideal S3 .f32) (ei : IVec S2x6400000 32) : FVec Ideal S200000x3 .f32 :=
  Cert.Gcn.logSoftmax3 (aggO ei (hidden (layer1 x W1 ei) b1 g be W2)) (rowO b2)

end Cert.KernelIdeal.Terms

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Region0.lean ====
/-
  The first dense transform, tile by tile, is one matrix product.

  The node axis is cut into 20 tiles of 10000 rows; at tile t the body multiplies rows 10000·t … 10000·t + 9999 of the
  feature matrix by the whole 256×16 weight matrix into a zero accumulator and writes the 10000×16 result back as
  block t of the output. The tiles cover the output, and every entry (p, q) is Σ_k x(p, k) · w(k, q) whatever tile it
  sits in: the output array after the region is the product of the two argument arrays.
-/
import proofs.«130263_j59150289600863_1_alg».proof.Proof.Gen.KernelIdeal.Frame
import proofs.«130263_j59150289600863_1_alg».proof.Proof.Spec
import proofs.«130263_j59150289600863_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.ValueIdx Idealize.ShloMosaic.TcCoe Idealize.SL.Sem
open Idealize.ShloMosaic.Pipeline (Dat Cfg Window)
open Cert.KernelIdeal Cert.KernelIdeal.Gen

/- The arrays as the region finds them, at the ideal instance: any contents. -/
variable (V : (c : Dev nD) → (b : Ref sig .tc) → Buf (Elt Ideal) ((c : Thread nD τ).loc b))

/-! ## The body's payload at an entry -/

/-- Entry (p, q) of the body's payload: Σ_k x(p, k) · w(k, q); the change of format is the identity on the
    extended reals and the accumulator is zero. -/
private theorem pay_apply (x0 : Vec Ideal S10000x256 .f32) (x1 : Vec Ideal S256x16 .f32) (p : Fin 10000) (q : Fin 16) :
    k0_pay1 x0 x1 (ix2 p q) = ∑ k : Fin 256, x0 (ix2 p k) * x1 (ix2 k q) := by
  unfold k0_pay1
  exact Idealize.ShloMosaic.PlainDot.matmul_zero_apply 10000 256 16
    (truncf .bf16 x0 bitsLt_bf16_f32) (truncf .bf16 x1 bitsLt_bf16_f32) p q

/-- The same at any index of the tile. -/
private theorem pay_apply_idx (x0 : Vec Ideal S10000x256 .f32) (x1 : Vec Ideal S256x16 .f32) (j : S10000x16.Idx) :
    k0_pay1 x0 x1 j = ∑ k : Fin 256, x0 (ix2 (Cert.Gcn.row j) k) * x1 (ix2 k (Cert.Gcn.col j)) := by
  have h := pay_apply x0 x1 (Cert.Gcn.row j) (Cert.Gcn.col j)
  have e : ix2 (Cert.Gcn.row j) (Cert.Gcn.col j) = j := by
    funext a; match a with | ⟨0, _⟩ => rfl | ⟨1, _⟩ => rfl
  rw [e] at h
  exact h

/-! ## The tiles -/

/-- The two argument arrays and the product, at their literal types. -/
private abbrev feat (c : Dev nD) : S200000x256.Idx → EReal := V c main_arg0
private abbrev weight (c : Dev nD) : S256x16.Idx → EReal := V c main_arg1
private abbrev product (c : Dev nD) : S200000x16.Idx → EReal :=
  Cert.Gcn.matProd (n := 200000) (k := 256) (h := 16) (feat V c) (weight V c)

private theorem hz : (![0, 0] : Fin 2 → Nat) = fun _ => 0 := funext fun a => by fin_cases a <;> rfl

/-- The index maps over the 20 tiles: the feature tile moves with the output tile down the node axis, the weight
    matrix stays whole, and tile t starts at row 10000·t. -/
private theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What tile t writes back is tile t of the product. -/
private theorem flushed_eq (c : Dev nD) (t : Fin cfg0.N) :
    (dat0 (F := Ideal) V c).flushed 2 t = ((cfg0.win 2).blk t).view.read (Elt Ideal) (product V c) := by
  show (cfg0.win 2).cut (grid0.coords t) ((dat0 (F := Ideal) V c).after 2 t) = _
  rw [after0_2]
  unfold out0_2
  rw [View.canon_unit_zero hz]
  simp only [View.ld_unit_zero (S := S10000x256) hz, View.ld_unit_zero (S := S256x16) hz]
  obtain ⟨e0, e1, e2, e3, e4, e5⟩ := idx_facts t
  funext j
  refine (pay_apply_idx (iblk0 (F := Ideal) V c 0 t) (iblk0 (F := Ideal) V c 1 t) j).trans ?_
  show _ = ∑ k : Fin 256, feat V c (ix2 (Cert.Gcn.row (((cfg0.win 2).blk t).view.emb j)) k)
      * weight V c (ix2 k (Cert.Gcn.col (((cfg0.win 2).blk t).view.emb j)))
  refine Finset.sum_congr rfl fun k _ => ?_
  have h0 : ((cfg0.win 0).blk t).view.emb (ix2 (Cert.Gcn.row j) k)
      = ix2 (Cert.Gcn.row (((cfg0.win 2).blk t).view.emb j)) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 256 + 1 * k.val = k.val; omega
  have h1 : ((cfg0.win 1).blk t).view.emb (ix2 k (Cert.Gcn.col j))
      = ix2 k (Cert.Gcn.col (((cfg0.win 2).blk t).view.emb j)) := by
    funext a; apply Fin.ext
    match a with
    | ⟨0, _⟩ => show win0_1.index t (0 : Fin 2) * 256 + 1 * k.val = k.val; omega
    | ⟨1, _⟩ => show win0_1.index t (1 : Fin 2) * 16 + 1 * (j 1).val = win0_2.index t (1 : Fin 2) * 16 + 1 * (j 1).val; omega
  show feat V c (((cfg0.win 0).blk t).view.emb (ix2 (Cert.Gcn.row j) k))
      * weight V c (((cfg0.win 1).blk t).view.emb (ix2 k (Cert.Gcn.col j))) = _
  rw [h0, h1]

/-- An index of the output array is in tile t iff each coordinate is in the tile's range on its axis. -/
private theorem mem_blk (t : Fin cfg0.N) (i : S200000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v32).slice (win0_2.rect t)).set ↔ _
  rw [View.set_slice_whole, Rect.mem_set_unit]
  exact Iff.rfl

/-- Row r sits in tile r / 10000: the 20 tiles cover the array. -/
private theorem cover (i : S200000x16.Idx) :
    ∃ t : Fin cfg0.N, (cfg0.win 2).flush t = true ∧ i ∈ ((cfg0.win 2).blk t).view.set := by
  have hi0 : (i 0).val < 200000 := (i 0).isLt
  have hi1 : (i 1).val < 16 := (i 1).isLt
  have ht : (i 0).val / 10000 < 20 := by omega
  obtain ⟨e0, e1, e2, e3, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000
    omega
  | ⟨1, _⟩ =>
    show win0_2.index ⟨(i 0).val / 10000, ht⟩ (1 : Fin 2) * 16 ≤ (i 1).val
      ∧ (i 1).val < win0_2.index ⟨(i 0).val / 10000, ht⟩ (1 : Fin 2) * 16 + 16
    rw [e5]; omega

/-- After the region the output array is the whole product x · W. -/
theorem region0_value (c : Dev nD) :
    ((dat0 (F := Ideal) V c).arrAt 2 cfg0.N : S200000x16.Idx → EReal)
      = Cert.Gcn.matProd (n := 200000) (k := 256) (h := 16) (V c main_arg0) (V c main_arg1) :=
  (dat0 (F := Ideal) V c).arrAt_eq_of_cover 2 (product V c) (fun t _ => flushed_eq V c t) cover

end Cert.KernelIdeal.Regions

end
-- ==== Proof.Region1.lean ====
/-
  The statistics pass: the two 1×16 outputs accumulate, over 20 tiles of 10000 rows, the column sums and the column
  sums of squares of (A + bias row).

  Both outputs keep ONE block (0, 0) for every tile, carried from tile to tile: tile 0 first resets them to zero, and
  every tile adds its own 10000 rows' column sums (of a = A + b, and of a · a) to what the tile before left. By induction
  on the tile, after tile t the outputs hold the sums over rows 0 … 10000·(t + 1) − 1; after the last tile, over all
  200000 rows (a sum over the rows regrouped as tile × row-in-tile; on the extended reals addition is associative and
  commutative, and 0 is neutral).
-/
import proofs.«130263_j59150289600863_1_alg».proof.Proof.Gen.KernelIdeal.Frame
import proofs.«130263_j59150289600863_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.ValueIdx Idealize.ShloMosaic.TcCoe Idealize.SL.Sem
open Idealize.ShloMosaic.Pipeline (Dat Cfg Window)
open Cert.KernelIdeal Cert.KernelIdeal.Gen

section Pieces
variable {F : FTy → Type} [FloatOps F]

theorem hz1 : (![0, 0] : Fin 2 → Nat) = fun _ => 0 := funext fun a => by fin_cases a <;> rfl

/-- Away from the first tile the body leaves in output 2 the old contents plus this tile's column sums. -/
theorem out_B_2 (c : Dev nD) (i : grid1.Coords) (a1 : Memref sig .tc .vmem S10000x16 .f32) (h1 : a1.IsWhole)
    (a2 : Memref sig .tc .vmem S1x16 .f32) (h2 : a2.IsWhole) (a3 : Memref sig .tc .vmem S1x16 .f32) (h3 : a3.IsWhole)
    (a4 : Memref sig .tc .vmem S1x16 .f32) (h4 : a4.IsWhole) (hc : ¬cond1_0 i)
    (x0 : Vec F S10000x16 .f32) (x1 xo2 xo3 : Vec F S1x16 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz1]
  simp only [View.readAt_eq_ld, h1.read_unread, h2.read_unread, h3.read_unread, h4.read_unread,
    View.ld_unit_zero (S := S10000x16) hz1, View.ld_unit_zero (S := S1x16) hz1]

/-- Away from the first tile the body leaves in output 3 the old contents plus this tile's column sums of squares. -/
theorem out_B_3 (c : Dev nD) (i : grid1.Coords) (a1 : Memref sig .tc .vmem S10000x16 .f32) (h1 : a1.IsWhole)
    (a2 : Memref sig .tc .vmem S1x16 .f32) (h2 : a2.IsWhole) (a3 : Memref sig .tc .vmem S1x16 .f32) (h3 : a3.IsWhole)
    (a4 : Memref sig .tc .vmem S1x16 .f32) (h4 : a4.IsWhole) (hc : ¬cond1_0 i)
    (x0 : Vec F S10000x16 .f32) (x1 xo2 xo3 : Vec F S1x16 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz1]
  simp only [View.readAt_eq_ld, h1.read_unread, h2.read_unread, h3.read_unread, h4.read_unread,
    View.ld_unit_zero (S := S10000x16) hz1, View.ld_unit_zero (S := S1x16) hz1]

/-- At the first tile the body resets output 2 to the zero row and then adds this tile's column sums. -/
theorem out_A_2 (c : Dev nD) (i : grid1.Coords) (a1 : Memref sig .tc .vmem S10000x16 .f32) (h1 : a1.IsWhole)
    (a2 : Memref sig .tc .vmem S1x16 .f32) (h2 : a2.IsWhole) (a3 : Memref sig .tc .vmem S1x16 .f32) (h3 : a3.IsWhole)
    (a4 : Memref sig .tc .vmem S1x16 .f32) (h4 : a4.IsWhole) (hc : cond1_0 i)
    (x0 : Vec F S10000x16 .f32) (x1 : Vec F S1x16 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x16) hz1]
  simp only [View.readAt_eq_ld, h1.read_unread, h2.read_unread,
    View.ld_unit_zero (S := S10000x16) hz1, View.ld_unit_zero (S := S1x16) hz1, View.readCov_unit_zero (S := S1x16) _ hz1]

/-- At the first tile the body resets output 3 to the zero row and then adds this tile's column sums of squares. -/
theorem out_A_3 (c : Dev nD) (i : grid1.Coords) (a1 : Memref sig .tc .vmem S10000x16 .f32) (h1 : a1.IsWhole)
    (a2 : Memref sig .tc .vmem S1x16 .f32) (h2 : a2.IsWhole) (a3 : Memref sig .tc .vmem S1x16 .f32) (h3 : a3.IsWhole)
    (a4 : Memref sig .tc .vmem S1x16 .f32) (h4 : a4.IsWhole) (hc : cond1_0 i)
    (x0 : Vec F S10000x16 .f32) (x1 : Vec F S1x16 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x16) hz1]
  simp only [View.readAt_eq_ld, h1.read_unread, h2.read_unread,
    View.ld_unit_zero (S := S10000x16) hz1, View.ld_unit_zero (S := S1x16) hz1, View.readCov_unit_zero (S := S1x16) _ hz1]
end Pieces

section Payloads

/-- The biased block at (p, q): the block's entry plus the bias row's entry of that column. -/
theorem pay3_apply (x0 : Vec Ideal S10000x16 .f32) (x1 : Vec Ideal S1x16 .f32) (p : Fin 10000) (q : Fin 16) :
    k1_pay3 x0 x1 (ix2 p q) = x0 (ix2 p q) + x1 (ix2 (0 : Fin 1) q) := by
  unfold k1_pay3
  refine (addf_apply _ _ _).trans ?_
  simp only [shapeCast_self]
  exact congrArg (x0 (ix2 p q) + ·) (broadcastTo_1b_ab_apply x1 _ p q)

/-- The index the row reduction inserts is (p, q). -/
theorem lift_eq (p : Fin 10000) (q : Fin 16) : reduces_S10000x16_S16.lift (ix1 q) p = ix2 p q := by
  funext a
  match a with
  | ⟨0, _⟩ => rfl
  | ⟨1, _⟩ => rfl

/-- The updated sums at (0, q): the old entry plus the sum over the tile's rows of the biased block. -/
theorem pay4_apply (x0 : Vec Ideal S10000x16 .f32) (x1 v9 : Vec Ideal S1x16 .f32) (q : Fin 16) :
    k1_pay4 x0 x1 v9 (ix2 (0 : Fin 1) q)
      = v9 (ix2 (0 : Fin 1) q) + ∑ p : Fin 10000, (x0 (ix2 p q) + x1 (ix2 (0 : Fin 1) q)) := by
  unfold k1_pay4
  refine (addf_apply _ _ _).trans ?_
  simp only [shapeCast_self]
  refine congrArg (v9 (ix2 (0 : Fin 1) q) + ·) ?_
  refine (shapeCast_a_1a_apply _ _ (0 : Fin 1) q).trans ?_
  refine (Ideal.multiReduction_add_single _ _ _ _ _ (ix1 q)).trans ?_
  show ∑ p : Fin 10000, k1_pay3 x0 x1 (reduces_S10000x16_S16.lift (ix1 q) p) = _
  refine Finset.sum_congr rfl fun p _ => ?_
  rw [lift_eq]
  exact pay3_apply x0 x1 p q

/-- The updated sums of squares at (0, q): the old entry plus the sum over the tile's rows of the biased block squared. -/
theorem pay5_apply (x0 : Vec Ideal S10000x16 .f32) (x1 v15 : Vec Ideal S1x16 .f32) (q : Fin 16) :
    k1_pay5 x0 x1 v15 (ix2 (0 : Fin 1) q)
      = v15 (ix2 (0 : Fin 1) q) + ∑ p : Fin 10000, (x0 (ix2 p q) + x1 (ix2 (0 : Fin 1) q)) * (x0 (ix2 p q) + x1 (ix2 (0 : Fin 1) q)) := by
  unfold k1_pay5
  refine (addf_apply _ _ _).trans ?_
  simp only [shapeCast_self]
  refine congrArg (v15 (ix2 (0 : Fin 1) q) + ·) ?_
  refine (shapeCast_a_1a_apply _ _ (0 : Fin 1) q).trans ?_
  refine (Ideal.multiReduction_add_single _ _ _ _ _ (ix1 q)).trans ?_
  show ∑ p : Fin 10000, mulf (k1_pay3 x0 x1) (k1_pay3 x0 x1) (reduces_S10000x16_S16.lift (ix1 q) p) = _
  refine Finset.sum_congr rfl fun p _ => ?_
  rw [lift_eq]
  refine (mulf_apply _ _ _).trans ?_
  rw [pay3_apply x0 x1 p q]

/-- The reset rows hold zero. -/
theorem pay1_apply (j : S1x16.Idx) : (k1_pay1 (F := Ideal)) j = 0 := Ideal.ofBits_zero_f32
theorem pay2_apply (j : S1x16.Idx) : (k1_pay2 (F := Ideal)) j = 0 := Ideal.ofBits_zero_f32

end Payloads

/- The arrays as the region finds them, at the ideal instance: any contents. -/
variable (V : (c : Dev nD) → (b : Ref sig .tc) → Buf (Elt Ideal) ((c : Thread nD τ).loc b))

section Blocks

/-- The 200000×16 array A and the 1×16 bias row, as functions of the index. -/
abbrev Aarr (c : Dev nD) : S200000x16.Idx → EReal := V c main_v44
abbrev barr (c : Dev nD) : S1x16.Idx → EReal := V c main_v28
/-- Tile t of A (rows 10000·t … 10000·t + 9999) and the bias row as the body loads them. -/
abbrev ablk (c : Dev nD) (t : Fin cfg1.N) : Vec Ideal S10000x16 .f32 := iblk1 V c 0 t
abbrev bblk (c : Dev nD) (t : Fin cfg1.N) : Vec Ideal S1x16 .f32 := iblk1 V c 1 t

/-- The block indices over the grid: A's tile moves with the point, the bias row and both outputs stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Entry (p, q) of tile t is entry (10000·t + p, q) of A. -/
theorem ablk_apply (c : Dev nD) (t : Fin cfg1.N) (p : Fin 10000) (q : Fin 16) (h : 10000 * t.val + p.val < 200000) :
    ablk V c t (ix2 p q) = Aarr V c (ix2 ⟨10000 * t.val + p.val, h⟩ q) := by
  obtain ⟨e0, e1, -⟩ := idx_facts t
  show V c main_v44 (((cfg1.win 0).blk t).view.emb (ix2 p q)) = V c main_v44 (ix2 ⟨10000 * t.val + p.val, h⟩ q)
  refine congrArg (V c main_v44) (funext fun a => Fin.ext ?_)
  match a with
  | ⟨0, _⟩ => show win1_0.index t (0 : Fin 2) * 10000 + 1 * p.val = 10000 * t.val + p.val; omega
  | ⟨1, _⟩ => show win1_0.index t (1 : Fin 2) * 16 + 1 * q.val = q.val; omega

/-- The bias block is the bias row. -/
theorem bblk_apply (c : Dev nD) (t : Fin cfg1.N) (q : Fin 16) :
    bblk V c t (ix2 (0 : Fin 1) q) = barr V c (ix2 (0 : Fin 1) q) := by
  obtain ⟨-, -, e2, e3, -⟩ := idx_facts t
  show V c main_v28 (((cfg1.win 1).blk t).view.emb (ix2 (0 : Fin 1) q)) = V c main_v28 (ix2 (0 : Fin 1) q)
  refine congrArg (V c main_v28) (funext fun a => Fin.ext ?_)
  match a with
  | ⟨0, _⟩ => show win1_1.index t (0 : Fin 2) * 1 + 1 * 0 = 0; omega
  | ⟨1, _⟩ => show win1_1.index t (1 : Fin 2) * 16 + 1 * q.val = q.val; omega

end Blocks

section Invariant

/-- Row r's term of column q: A(r, q) + b(0, q) (zero past the last row, which no sum below reaches). -/
def rowTerm (c : Dev nD) (q : Fin 16) (r : ℕ) : EReal :=
  if h : r < 200000 then Aarr V c (ix2 ⟨r, h⟩ q) + barr V c (ix2 (0 : Fin 1) q) else 0

theorem rowTerm_tile (c : Dev nD) (t : Fin cfg1.N) (q : Fin 16) (p : Fin 10000) :
    ablk V c t (ix2 p q) + bblk V c t (ix2 (0 : Fin 1) q) = rowTerm V c q (10000 * t.val + p.val) := by
  have hN : t.val < 20 := lt_of_lt_of_eq t.isLt (show cfg1.N = 20 from N_1)
  have h : 10000 * t.val + p.val < 200000 := by have := p.isLt; omega
  rw [ablk_apply V c t p q h, bblk_apply V c t q]
  unfold rowTerm
  rw [dif_pos h]

/-- Tile t's column sum is the sum of the row terms of its 10000 rows. -/
theorem tile_sum (c : Dev nD) (t : Fin cfg1.N) (q : Fin 16) :
    ∑ p : Fin 10000, (ablk V c t (ix2 p q) + bblk V c t (ix2 (0 : Fin 1) q))
      = ∑ p ∈ Finset.range 10000, rowTerm V c q (10000 * t.val + p) := by
  rw [← Fin.sum_univ_eq_sum_range (fun p => rowTerm V c q (10000 * t.val + p)) 10000]
  exact Finset.sum_congr rfl fun p _ => rowTerm_tile V c t q p

theorem tile_sumsq (c : Dev nD) (t : Fin cfg1.N) (q : Fin 16) :
    ∑ p : Fin 10000, (ablk V c t (ix2 p q) + bblk V c t (ix2 (0 : Fin 1) q)) * (ablk V c t (ix2 p q) + bblk V c t (ix2 (0 : Fin 1) q))
      = ∑ p ∈ Finset.range 10000, rowTerm V c q (10000 * t.val + p) * rowTerm V c q (10000 * t.val + p) := by
  rw [← Fin.sum_univ_eq_sum_range (fun p => rowTerm V c q (10000 * t.val + p) * rowTerm V c q (10000 * t.val + p)) 10000]
  exact Finset.sum_congr rfl fun p _ => by rw [rowTerm_tile V c t q p]

/-- The first tile: the outputs are reset, so they hold this tile's sums alone. -/
theorem step_A_2 (c : Dev nD) (t : Fin cfg1.N) (h0 : t.val % 20 = 0) (q : Fin 16) :
    (outsAt1 V c t.val t.isLt).1 (ix2 (0 : Fin 1) q) = ∑ p ∈ Finset.range 10000, rowTerm V c q (10000 * t.val + p) := by
  rw [outsAt1_A V c t h0]
  dsimp only
  refine (congrFun (out_A_2 (F := Ideal) c (grid1.coords t) (ms1_0 t) (hs1_0 t) (ms1_1 t) (hs1_1 t) (ms1_2 t) (hs1_2 t) (ms1_3 t) (hs1_3 t) ((hcond1_0 t).mpr h0) (ablk V c t) (bblk V c t)) (ix2 (0 : Fin 1) q)).trans ?_
  refine (pay4_apply (ablk V c t) (bblk V c t) (k1_pay1 (F := Ideal)) q).trans ?_
  rw [pay1_apply, zero_add, tile_sum V c t q]

theorem step_A_3 (c : Dev nD) (t : Fin cfg1.N) (h0 : t.val % 20 = 0) (q : Fin 16) :
    (outsAt1 V c t.val t.isLt).2 (ix2 (0 : Fin 1) q)
      = ∑ p ∈ Finset.range 10000, rowTerm V c q (10000 * t.val + p) * rowTerm V c q (10000 * t.val + p) := by
  rw [outsAt1_A V c t h0]
  dsimp only
  refine (congrFun (out_A_3 (F := Ideal) c (grid1.coords t) (ms1_0 t) (hs1_0 t) (ms1_1 t) (hs1_1 t) (ms1_2 t) (hs1_2 t) (ms1_3 t) (hs1_3 t) ((hcond1_0 t).mpr h0) (ablk V c t) (bblk V c t)) (ix2 (0 : Fin 1) q)).trans ?_
  refine (pay5_apply (ablk V c t) (bblk V c t) (k1_pay2 (F := Ideal)) q).trans ?_
  rw [pay2_apply, zero_add, tile_sumsq V c t q]

/-- Every later tile: this tile's sums are added to what the tile before left. -/
theorem step_B_2 (c : Dev nD) (t : Fin cfg1.N) (h0 : ¬t.val % 20 = 0) (q : Fin 16) :
    (outsAt1 V c t.val t.isLt).1 (ix2 (0 : Fin 1) q)
      = (outsAt1 V c (t.val - 1) (Nat.lt_of_le_of_lt (Nat.sub_le _ _) t.isLt)).1 (ix2 (0 : Fin 1) q)
        + ∑ p ∈ Finset.range 10000, rowTerm V c q (10000 * t.val + p) := by
  rw [outsAt1_B V c t h0]
  dsimp only
  refine (congrFun (out_B_2 (F := Ideal) c (grid1.coords t) (ms1_0 t) (hs1_0 t) (ms1_1 t) (hs1_1 t) (ms1_2 t) (hs1_2 t) (ms1_3 t) (hs1_3 t) (fun h => h0 ((hcond1_0 t).mp h)) (ablk V c t) (bblk V c t) (outsAt1 V c (t.val - 1) (Nat.lt_of_le_of_lt (Nat.sub_le _ _) t.isLt)).1 (outsAt1 V c (t.val - 1) (Nat.lt_of_le_of_lt (Nat.sub_le _ _) t.isLt)).2) (ix2 (0 : Fin 1) q)).trans ?_
  refine (pay4_apply (ablk V c t) (bblk V c t) _ q).trans ?_
  rw [tile_sum V c t q]

theorem step_B_3 (c : Dev nD) (t : Fin cfg1.N) (h0 : ¬t.val % 20 = 0) (q : Fin 16) :
    (outsAt1 V c t.val t.isLt).2 (ix2 (0 : Fin 1) q)
      = (outsAt1 V c (t.val - 1) (Nat.lt_of_le_of_lt (Nat.sub_le _ _) t.isLt)).2 (ix2 (0 : Fin 1) q)
        + ∑ p ∈ Finset.range 10000, rowTerm V c q (10000 * t.val + p) * rowTerm V c q (10000 * t.val + p) := by
  rw [outsAt1_B V c t h0]
  dsimp only
  refine (congrFun (out_B_3 (F := Ideal) c (grid1.coords t) (ms1_0 t) (hs1_0 t) (ms1_1 t) (hs1_1 t) (ms1_2 t) (hs1_2 t) (ms1_3 t) (hs1_3 t) (fun h => h0 ((hcond1_0 t).mp h)) (ablk V c t) (bblk V c t) (outsAt1 V c (t.val - 1) (Nat.lt_of_le_of_lt (Nat.sub_le _ _) t.isLt)).1 (outsAt1 V c (t.val - 1) (Nat.lt_of_le_of_lt (Nat.sub_le _ _) t.isLt)).2) (ix2 (0 : Fin 1) q)).trans ?_
  refine (pay5_apply (ablk V c t) (bblk V c t) _ q).trans ?_
  rw [tile_sumsq V c t q]

/-- THE INVARIANT: after tile n output 2 at (0, q) is the sum of the row terms of rows 0 … 10000·(n + 1) − 1. -/
theorem inv_sum (c : Dev nD) (q : Fin 16) : ∀ (n : ℕ) (hn : n < cfg1.N),
    (outsAt1 V c n hn).1 (ix2 (0 : Fin 1) q) = ∑ r ∈ Finset.range (10000 * (n + 1)), rowTerm V c q r
  | 0, hn => by
    refine (step_A_2 V c ⟨0, hn⟩ rfl q).trans ?_
    exact Finset.sum_congr rfl fun p _ => by show rowTerm V c q (10000 * 0 + p) = _; rw [Nat.mul_zero, Nat.zero_add]
  | n + 1, hn => by
    have hN : n + 1 < 20 := lt_of_lt_of_eq hn (show cfg1.N = 20 from N_1)
    refine (step_B_2 V c ⟨n + 1, hn⟩ (by dsimp only; omega) q).trans ?_
    rw [show 10000 * (n + 1 + 1) = 10000 * (n + 1) + 10000 from by omega, Finset.sum_range_add,
      ← inv_sum c q n (Nat.lt_of_succ_lt hn)]
    rfl

/-- Likewise output 3 is the sum of the squared row terms. -/
theorem inv_sumsq (c : Dev nD) (q : Fin 16) : ∀ (n : ℕ) (hn : n < cfg1.N),
    (outsAt1 V c n hn).2 (ix2 (0 : Fin 1) q) = ∑ r ∈ Finset.range (10000 * (n + 1)), rowTerm V c q r * rowTerm V c q r
  | 0, hn => by
    refine (step_A_3 V c ⟨0, hn⟩ rfl q).trans ?_
    exact Finset.sum_congr rfl fun p _ => by
      show rowTerm V c q (10000 * 0 + p) * rowTerm V c q (10000 * 0 + p) = _; rw [Nat.mul_zero, Nat.zero_add]
  | n + 1, hn => by
    have hN : n + 1 < 20 := lt_of_lt_of_eq hn (show cfg1.N = 20 from N_1)
    refine (step_B_3 V c ⟨n + 1, hn⟩ (by dsimp only; omega) q).trans ?_
    rw [show 10000 * (n + 1 + 1) = 10000 * (n + 1) + 10000 from by omega,
      Finset.sum_range_add (fun r => rowTerm V c q r * rowTerm V c q r),
      ← inv_sumsq c q n (Nat.lt_of_succ_lt hn)]
    rfl

/-- Over all 200000 rows the row terms are the entries of A + b. -/
theorem total_sum (c : Dev nD) (q : Fin 16) :
    ∑ r ∈ Finset.range 200000, rowTerm V c q r = ∑ r : Fin 200000, (Aarr V c (ix2 r q) + barr V c (ix2 (0 : Fin 1) q)) := by
  rw [← Fin.sum_univ_eq_sum_range (fun r => rowTerm V c q r) 200000]
  refine Finset.sum_congr rfl fun r _ => ?_
  unfold rowTerm
  rw [dif_pos r.isLt]

theorem total_sumsq (c : Dev nD) (q : Fin 16) :
    ∑ r ∈ Finset.range 200000, rowTerm V c q r * rowTerm V c q r
      = ∑ r : Fin 200000, (Aarr V c (ix2 r q) + barr V c (ix2 (0 : Fin 1) q)) * (Aarr V c (ix2 r q) + barr V c (ix2 (0 : Fin 1) q)) := by
  rw [← Fin.sum_univ_eq_sum_range (fun r => rowTerm V c q r * rowTerm V c q r) 200000]
  refine Finset.sum_congr rfl fun r _ => ?_
  unfold rowTerm
  rw [dif_pos r.isLt]

end Invariant

section Final

/-- A 1×16 index is (0, its column). -/
theorem idx_eq (j : S1x16.Idx) : j = ix2 (0 : Fin 1) (j 1) := by
  funext a
  match a with
  | ⟨0, _⟩ => exact Fin.ext (by have := idx2_lt0 j; show (j 0).val = 0; omega)
  | ⟨1, _⟩ => rfl

/-- The last point. -/
abbrev tLast : Fin cfg1.N := ⟨19, lt_of_lt_of_eq (by decide : 19 < 20) (show cfg1.N = 20 from N_1).symm⟩

/-- Block (0, 0) of a 1×16 array is the array: the block's index (u, q) is the array's. -/
theorem emb_2 (t : Fin cfg1.N) (j : S1x16.Idx) : ((cfg1.win 2).blk t).view.emb j = j := by
  obtain ⟨-, -, -, -, e4, e5, -⟩ := idx_facts t
  funext a; apply Fin.ext
  match a with
  | ⟨0, _⟩ => show win1_2.index t (0 : Fin 2) * 1 + 1 * (j 0).val = (j 0).val; omega
  | ⟨1, _⟩ => show win1_2.index t (1 : Fin 2) * 16 + 1 * (j 1).val = (j 1).val; omega

theorem emb_3 (t : Fin cfg1.N) (j : S1x16.Idx) : ((cfg1.win 3).blk t).view.emb j = j := by
  obtain ⟨-, -, -, -, -, -, e6, e7⟩ := idx_facts t
  funext a; apply Fin.ext
  match a with
  | ⟨0, _⟩ => show win1_3.index t (0 : Fin 2) * 1 + 1 * (j 0).val = (j 0).val; omega
  | ⟨1, _⟩ => show win1_3.index t (1 : Fin 2) * 16 + 1 * (j 1).val = (j 1).val; omega

/-- What a point writes back of output 2 is its block of any row G that agrees with the buffer at every column. -/
theorem flushed_of_2 (c : Dev nD) (t : Fin cfg1.N) (G : S1x16.Idx → EReal)
    (h : ∀ q : Fin 16, (outsAt1 V c t.val t.isLt).1 (ix2 (0 : Fin 1) q) = G (ix2 (0 : Fin 1) q)) :
    (dat1 V c).flushed 2 t = ((cfg1.win 2).blk t).view.read (Elt Ideal) G := by
  show (cfg1.win 2).cut (grid1.coords t) ((dat1 V c).after 2 t) = _
  rw [after1_2]
  funext j
  show (outsAt1 V c t.val t.isLt).1 j = G (((cfg1.win 2).blk t).view.emb j)
  rw [emb_2 t j, idx_eq j]
  exact h (j 1)

theorem flushed_of_3 (c : Dev nD) (t : Fin cfg1.N) (G : S1x16.Idx → EReal)
    (h : ∀ q : Fin 16, (outsAt1 V c t.val t.isLt).2 (ix2 (0 : Fin 1) q) = G (ix2 (0 : Fin 1) q)) :
    (dat1 V c).flushed 3 t = ((cfg1.win 3).blk t).view.read (Elt Ideal) G := by
  show (cfg1.win 3).cut (grid1.coords t) ((dat1 V c).after 3 t) = _
  rw [after1_3]
  funext j
  show (outsAt1 V c t.val t.isLt).2 j = G (((cfg1.win 3).blk t).view.emb j)
  rw [emb_3 t j, idx_eq j]
  exact h (j 1)

/-- The column sums at (0, q). -/
theorem colSum_apply (A : S200000x16.Idx → EReal) (b : S1x16.Idx → EReal) (q : Fin 16) :
    Cert.Gcn.colSum (n := 200000) (h := 16) A b (ix2 (0 : Fin 1) q)
      = ∑ r : Fin 200000, (A (ix2 r q) + b (ix2 (0 : Fin 1) q)) := rfl

theorem colSumSq_apply (A : S200000x16.Idx → EReal) (b : S1x16.Idx → EReal) (q : Fin 16) :
    Cert.Gcn.colSumSq (n := 200000) (h := 16) A b (ix2 (0 : Fin 1) q)
      = ∑ r : Fin 200000, (A (ix2 r q) + b (ix2 (0 : Fin 1) q)) * (A (ix2 r q) + b (ix2 (0 : Fin 1) q)) := rfl

/-- The one write-back of output 2, after the last tile, writes the column sums over all rows. -/
theorem flushed_eq_2 (c : Dev nD) (t : Fin cfg1.N) (hf : (cfg1.win 2).flush t = true) :
    (dat1 V c).flushed 2 t = ((cfg1.win 2).blk t).view.read (Elt Ideal)
      (Cert.Gcn.colSum (n := 200000) (h := 16) (Aarr V c) (barr V c)) := by
  have hN : t.val < 20 := lt_of_lt_of_eq t.isLt (show cfg1.N = 20 from N_1)
  have h19 : t.val = 19 := by have := (flush1_2 t).mp hf; omega
  refine flushed_of_2 V c t _ fun q => ?_
  refine (inv_sum V c q t.val t.isLt).trans ?_
  rw [show 10000 * (t.val + 1) = 200000 from by omega, total_sum, colSum_apply]

theorem flushed_eq_3 (c : Dev nD) (t : Fin cfg1.N) (hf : (cfg1.win 3).flush t = true) :
    (dat1 V c).flushed 3 t = ((cfg1.win 3).blk t).view.read (Elt Ideal)
      (Cert.Gcn.colSumSq (n := 200000) (h := 16) (Aarr V c) (barr V c)) := by
  have hN : t.val < 20 := lt_of_lt_of_eq t.isLt (show cfg1.N = 20 from N_1)
  have h19 : t.val = 19 := by have := (flush1_3 t).mp hf; omega
  refine flushed_of_3 V c t _ fun q => ?_
  refine (inv_sumsq V c q t.val t.isLt).trans ?_
  rw [show 10000 * (t.val + 1) = 200000 from by omega, total_sumsq, colSumSq_apply]
/-- An index of the 1×16 array is in point t's block iff each coordinate is in the block's range. -/
theorem mem_blk_2 (t : Fin cfg1.N) (i : S1x16.Idx) :
    i ∈ ((cfg1.win 2).blk t).view.set ↔ ∀ a : Fin 2, win1_2.index t a * S1x16.size a ≤ (i a).val ∧ (i a).val < win1_2.index t a * S1x16.size a + S1x16.size a := by
  show i ∈ ((View.whole main_v45_0).slice (win1_2.rect t)).set ↔ _
  rw [View.set_slice_whole, Rect.mem_set_unit]
  exact Iff.rfl

theorem mem_blk_3 (t : Fin cfg1.N) (i : S1x16.Idx) :
    i ∈ ((cfg1.win 3).blk t).view.set ↔ ∀ a : Fin 2, win1_3.index t a * S1x16.size a ≤ (i a).val ∧ (i a).val < win1_3.index t a * S1x16.size a + S1x16.size a := by
  show i ∈ ((View.whole main_v45_1).slice (win1_3.rect t)).set ↔ _
  rw [View.set_slice_whole, Rect.mem_set_unit]
  exact Iff.rfl

/-- The last point's block covers the whole 1×16 array. -/
theorem cover_2 (i : S1x16.Idx) : ∃ t : Fin cfg1.N, (cfg1.win 2).flush t = true ∧ i ∈ ((cfg1.win 2).blk t).view.set := by
  refine ⟨tLast, (flush1_2 tLast).mpr rfl, ?_⟩
  rw [mem_blk_2]
  obtain ⟨-, -, -, -, e4, e5, -⟩ := idx_facts tLast
  have h0 := idx2_lt0 i
  have h1 := idx2_lt1 i
  intro a
  match a with
  | ⟨0, _⟩ => show win1_2.index tLast (0 : Fin 2) * 1 ≤ (i 0).val ∧ (i 0).val < win1_2.index tLast (0 : Fin 2) * 1 + 1; omega
  | ⟨1, _⟩ => show win1_2.index tLast (1 : Fin 2) * 16 ≤ (i 1).val ∧ (i 1).val < win1_2.index tLast (1 : Fin 2) * 16 + 16; omega

theorem cover_3 (i : S1x16.Idx) : ∃ t : Fin cfg1.N, (cfg1.win 3).flush t = true ∧ i ∈ ((cfg1.win 3).blk t).view.set := by
  refine ⟨tLast, (flush1_3 tLast).mpr rfl, ?_⟩
  rw [mem_blk_3]
  obtain ⟨-, -, -, -, -, -, e6, e7⟩ := idx_facts tLast
  have h0 := idx2_lt0 i
  have h1 := idx2_lt1 i
  intro a
  match a with
  | ⟨0, _⟩ => show win1_3.index tLast (0 : Fin 2) * 1 ≤ (i 0).val ∧ (i 0).val < win1_3.index tLast (0 : Fin 2) * 1 + 1; omega
  | ⟨1, _⟩ => show win1_3.index tLast (1 : Fin 2) * 16 ≤ (i 1).val ∧ (i 1).val < win1_3.index tLast (1 : Fin 2) * 16 + 16; omega

end Final

/-- After the region output 2 holds the column sums of A + b over all rows. -/
theorem region1_sum (c : Dev nD) :
    ((dat1 (F := Ideal) V c).arrAt 2 cfg1.N : S1x16.Idx → EReal)
      = Cert.Gcn.colSum (n := 200000) (h := 16) (V c main_v44) (V c main_v28) :=
  (dat1 V c).arrAt_eq_of_cover 2 (Cert.Gcn.colSum (n := 200000) (h := 16) (Aarr V c) (barr V c))
    (fun t hf => flushed_eq_2 V c t hf) cover_2

/-- After the region output 3 holds the column sums of (A + b)² over all rows. -/
theorem region1_sumsq (c : Dev nD) :
    ((dat1 (F := Ideal) V c).arrAt 3 cfg1.N : S1x16.Idx → EReal)
      = Cert.Gcn.colSumSq (n := 200000) (h := 16) (V c main_v44) (V c main_v28) :=
  (dat1 V c).arrAt_eq_of_cover 3 (Cert.Gcn.colSumSq (n := 200000) (h := 16) (Aarr V c) (barr V c))
    (fun t hf => flushed_eq_3 V c t hf) cover_3

end Cert.KernelIdeal.Regions

end
-- ==== Proof.Region2.lean ====
/-
  Normalise, rectify, transform: tile by tile, the second dense stage is one whole-array function.

  At tile t the body takes rows 10000·t … of the aggregated features A, adds the bias row, subtracts the mean row,
  multiplies by rsqrt(variance row + ε), by the scale row, adds the shift row, takes the positive part, and multiplies
  the 10000×16 result by the whole 16×3 weight matrix into a zero accumulator. Every step acts on a row by itself, so
  entry (p, q) of the output is Σ_k h(p, k) · w(k, q) with h the normalised, rectified features of the WHOLE array,
  whatever tile p sits in; the tiles cover the output.
-/
import proofs.«130263_j59150289600863_1_alg».proof.Proof.Gen.KernelIdeal.Frame
import proofs.«130263_j59150289600863_1_alg».proof.Proof.Spec
import proofs.«130263_j59150289600863_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.ValueIdx Idealize.ShloMosaic.TcCoe Idealize.SL.Sem
open Idealize.ShloMosaic.Pipeline (Dat Cfg Window)
open Cert.KernelIdeal Cert.KernelIdeal.Gen

/-- A 1×16 row spread over the 10000 rows of a tile reads, at (p, k), the row's entry k. -/
private theorem row_over_tile {α : Type} (v : S1x16.Idx → α) (p : Fin 10000) (k : Fin 16) :
    broadcastTo S10000x16 v broadcasts_S1x16_S10000x16 (ix2 p k) = v (ix2 0 k) :=
  broadcastTo_1b_ab_apply v _ p k

/-- Entry (p, q) of the tile's payload: Σ_k h(p, k) · w(k, q), h the normalised, rectified row p of the tile. The
    product into a zero accumulator is the plain sum of products; every other step acts entry by entry, the five rows
    read at column k whatever the row p. -/
private theorem normTile_entry (x0 : Vec Ideal S10000x16 .f32) (b var mu g be : Vec Ideal S1x16 .f32) (w : Vec Ideal S16x3 .f32)
    (p : Fin 10000) (q : Fin 3) :
    k2_pay1 (F := Ideal) x0 b var mu g be w (ix2 p q)
      = ∑ k : Fin 16, max (((((x0 (ix2 p k) + b (ix2 0 k)) - mu (ix2 0 k)) * Ideal.rsqrt (var (ix2 0 k) + Cert.Gcn.eps))
          * g (ix2 0 k)) + be (ix2 0 k)) 0 * w (ix2 k q) := by
  unfold k2_pay1
  refine (Idealize.ShloMosaic.PlainDot.matmul_zero_apply 10000 16 3 _ _ p q).trans ?_
  refine Finset.sum_congr rfl fun k _ => ?_
  simp only [truncf_apply, maximumf_apply, addf_apply, mulf_apply, subf_apply, broadcast_apply, shapeCast_self,
    Ideal.ofBits_def, row_over_tile, Ideal.ofBits_zero_f32]
  rfl

/- The arrays as the region finds them, at the ideal instance: any contents. -/
variable (V : (c : Dev nD) → (b : Ref sig .tc) → Buf (Elt Ideal) ((c : Thread nD τ).loc b))

/-- The entry arrays at their literal types: the aggregated features, the bias, mean, variance, scale and shift rows,
    the weights. -/
private abbrev nFeat (c : Dev nD) : S200000x16.Idx → EReal := V c main_v44
private abbrev nBias (c : Dev nD) : S1x16.Idx → EReal := V c main_v28
private abbrev nMean (c : Dev nD) : S1x16.Idx → EReal := V c main_v47
private abbrev nVar (c : Dev nD) : S1x16.Idx → EReal := V c main_v51
private abbrev nScale (c : Dev nD) : S1x16.Idx → EReal := V c main_v29
private abbrev nShift (c : Dev nD) : S1x16.Idx → EReal := V c main_v30
private abbrev nWeights (c : Dev nD) : S16x3.Idx → EReal := V c main_arg5

/-- The whole output array as one function of the entry arrays: (normalised, rectified A + b) · W2. -/
private abbrev normOut (c : Dev nD) : S200000x3.Idx → EReal :=
  Cert.Gcn.matProd (n := 200000) (k := 16) (h := 3)
    (Cert.Gcn.normRelu (n := 200000) (h := 16) (nFeat V c) (nBias V c) (nMean V c) (nVar V c) (nScale V c) (nShift V c))
    (nWeights V c)

private theorem normTile_zero_offsets : (![0, 0] : Fin 2 → Nat) = fun _ => 0 := funext fun a => by fin_cases a <;> rfl

/-- The printed index maps over the grid: the features' block and the output's block are block t along the rows
    and block 0 along the columns; the five rows and the weights are block (0, 0) at every point. -/
private theorem normTile_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- What point t writes back is block t of the whole-array function: entry (p, q) of the tile is entry
    (10000·t + p, q) of the array, its row of features is row 10000·t + p of A, and the rows and the weights are
    read whole. -/
private theorem normTile_flushed (c : Dev nD) (t : Fin cfg2.N) :
    (dat2 (F := Ideal) V c).flushed 7 t = ((cfg2.win 7).blk t).view.read (Elt Ideal) (normOut V c) := by
  show (cfg2.win 7).cut (grid2.coords t) ((dat2 (F := Ideal) V c).after 7 t) = _
  rw [after2_7]
  unfold out2_7
  rw [View.canon_unit_zero normTile_zero_offsets]
  simp only [View.ld_unit_zero (S := S10000x16) normTile_zero_offsets, View.ld_unit_zero (S := S1x16) normTile_zero_offsets,
    View.ld_unit_zero (S := S16x3) normTile_zero_offsets]
  obtain ⟨a0, a1, b0, b1, m0, m1, v0, v1, g0, g1, s0, s1, w0, w1, o0, o1⟩ := normTile_indices t
  refine funext fun (j : S10000x3.Idx) => ?_
  obtain ⟨p, q, rfl⟩ : ∃ (p : Fin 10000) (q : Fin 3), j = ix2 p q := ⟨j 0, j 1, eq_ix2 j⟩
  refine (normTile_entry (iblk2 V c 0 t) (iblk2 V c 1 t) (iblk2 V c 3 t) (iblk2 V c 2 t) (iblk2 V c 4 t) (iblk2 V c 5 t)
    (iblk2 V c 6 t) p q).trans ?_
  obtain ⟨i, hi⟩ : ∃ i : S200000x3.Idx, i = ((cfg2.win 7).blk t).view.emb (ix2 p q) := ⟨_, rfl⟩
  have hr : (i 0).val = t.val * 10000 + p.val := by
    rw [hi]; show win2_7.index t (0 : Fin 2) * 10000 + 1 * p.val = _; rw [o0]; omega
  have hc : (i 1).val = q.val := by
    rw [hi]; show win2_7.index t (1 : Fin 2) * 3 + 1 * q.val = _; rw [o1]; omega
  show _ = normOut V c (((cfg2.win 7).blk t).view.emb (ix2 p q))
  rw [← hi]
  show _ = ∑ k : Fin 16, Cert.Gcn.normRelu (n := 200000) (h := 16) (nFeat V c) (nBias V c) (nMean V c) (nVar V c)
      (nScale V c) (nShift V c) (ix2 (Cert.Gcn.row i) k) * nWeights V c (ix2 k (Cert.Gcn.col i))
  refine Finset.sum_congr rfl fun k _ => ?_
  have e0 : (iblk2 V c 0 t : Vec Ideal S10000x16 .f32) (ix2 p k) = nFeat V c (ix2 (Cert.Gcn.row i) k) := by
    show nFeat V c (((cfg2.win 0).blk t).view.emb (ix2 p k)) = _
    refine congrArg (nFeat V c) (funext fun a => Fin.ext ?_)
    match a with
    | ⟨0, _⟩ => show win2_0.index t (0 : Fin 2) * 10000 + 1 * p.val = (i 0).val; rw [a0, hr]; omega
    | ⟨1, _⟩ => show win2_0.index t (1 : Fin 2) * 16 + 1 * k.val = k.val; rw [a1]; omega
  have e1 : (iblk2 V c 1 t : Vec Ideal S1x16 .f32) (ix2 0 k) = nBias V c (ix2 0 k) := by
    show nBias V c (((cfg2.win 1).blk t).view.emb (ix2 0 k)) = _
    refine congrArg (nBias V c) (funext fun a => Fin.ext ?_)
    match a with
    | ⟨0, _⟩ => show win2_1.index t (0 : Fin 2) * 1 + 1 * 0 = 0; rw [b0]
    | ⟨1, _⟩ => show win2_1.index t (1 : Fin 2) * 16 + 1 * k.val = k.val; rw [b1]; omega
  have e2 : (iblk2 V c 2 t : Vec Ideal S1x16 .f32) (ix2 0 k) = nMean V c (ix2 0 k) := by
    show nMean V c (((cfg2.win 2).blk t).view.emb (ix2 0 k)) = _
    refine congrArg (nMean V c) (funext fun a => Fin.ext ?_)
    match a with
    | ⟨0, _⟩ => show win2_2.index t (0 : Fin 2) * 1 + 1 * 0 = 0; rw [m0]
    | ⟨1, _⟩ => show win2_2.index t (1 : Fin 2) * 16 + 1 * k.val = k.val; rw [m1]; omega
  have e3 : (iblk2 V c 3 t : Vec Ideal S1x16 .f32) (ix2 0 k) = nVar V c (ix2 0 k) := by
    show nVar V c (((cfg2.win 3).blk t).view.emb (ix2 0 k)) = _
    refine congrArg (nVar V c) (funext fun a => Fin.ext ?_)
    match a with
    | ⟨0, _⟩ => show win2_3.index t (0 : Fin 2) * 1 + 1 * 0 = 0; rw [v0]
    | ⟨1, _⟩ => show win2_3.index t (1 : Fin 2) * 16 + 1 * k.val = k.val; rw [v1]; omega
  have e4 : (iblk2 V c 4 t : Vec Ideal S1x16 .f32) (ix2 0 k) = nScale V c (ix2 0 k) := by
    show nScale V c (((cfg2.win 4).blk t).view.emb (ix2 0 k)) = _
    refine congrArg (nScale V c) (funext fun a => Fin.ext ?_)
    match a with
    | ⟨0, _⟩ => show win2_4.index t (0 : Fin 2) * 1 + 1 * 0 = 0; rw [g0]
    | ⟨1, _⟩ => show win2_4.index t (1 : Fin 2) * 16 + 1 * k.val = k.val; rw [g1]; omega
  have e5 : (iblk2 V c 5 t : Vec Ideal S1x16 .f32) (ix2 0 k) = nShift V c (ix2 0 k) := by
    show nShift V c (((cfg2.win 5).blk t).view.emb (ix2 0 k)) = _
    refine congrArg (nShift V c) (funext fun a => Fin.ext ?_)
    match a with
    | ⟨0, _⟩ => show win2_5.index t (0 : Fin 2) * 1 + 1 * 0 = 0; rw [s0]
    | ⟨1, _⟩ => show win2_5.index t (1 : Fin 2) * 16 + 1 * k.val = k.val; rw [s1]; omega
  have e6 : (iblk2 V c 6 t : Vec Ideal S16x3 .f32) (ix2 k q) = nWeights V c (ix2 k (Cert.Gcn.col i)) := by
    show nWeights V c (((cfg2.win 6).blk t).view.emb (ix2 k q)) = _
    refine congrArg (nWeights V c) (funext fun a => Fin.ext ?_)
    match a with
    | ⟨0, _⟩ => show win2_6.index t (0 : Fin 2) * 16 + 1 * k.val = k.val; rw [w0]; omega
    | ⟨1, _⟩ => show win2_6.index t (1 : Fin 2) * 3 + 1 * q.val = (i 1).val; rw [w1, hc]; omega
  rw [e0, e1, e2, e3, e4, e5, e6]
  rfl

/-- An index of the output array is in point t's block iff each coordinate is in the block's range on its axis. -/
private theorem normTile_mem (t : Fin cfg2.N) (i : S200000x3.Idx) :
    i ∈ ((cfg2.win 7).blk t).view.set ↔ ∀ a : Fin 2, win2_7.index t a * S10000x3.size a ≤ (i a).val
      ∧ (i a).val < win2_7.index t a * S10000x3.size a + S10000x3.size a := by
  show i ∈ ((View.whole main_v52).slice (win2_7.rect t)).set ↔ _
  rw [View.set_slice_whole, Rect.mem_set_unit]
  exact Iff.rfl

/-- The tiles cover the output: row r is in tile r / 10000, and every tile is written back. -/
private theorem normTiles_cover (i : S200000x3.Idx) :
    ∃ t : Fin cfg2.N, (cfg2.win 7).flush t = true ∧ i ∈ ((cfg2.win 7).blk t).view.set := by
  have hi0 : (i 0).val < 200000 := idx2_lt0 i
  have hi1 : (i 1).val < 3 := idx2_lt1 i
  have hN : cfg2.N = 20 := N_2
  obtain ⟨t, ht⟩ : ∃ t : Fin cfg2.N, t.val = (i 0).val / 10000 := ⟨⟨(i 0).val / 10000, by rw [hN]; omega⟩, rfl⟩
  obtain ⟨-, -, -, -, -, -, -, -, -, -, -, -, -, -, o0, o1⟩ := normTile_indices t
  refine ⟨t, flush2_7 t, ?_⟩
  rw [normTile_mem]
  intro a
  match a with
  | ⟨0, _⟩ =>
    show win2_7.index t (0 : Fin 2) * 10000 ≤ (i 0).val ∧ (i 0).val < win2_7.index t (0 : Fin 2) * 10000 + 10000
    rw [o0, ht]; omega
  | ⟨1, _⟩ =>
    show win2_7.index t (1 : Fin 2) * 3 ≤ (i 1).val ∧ (i 1).val < win2_7.index t (1 : Fin 2) * 3 + 3
    rw [o1]; omega

/-- After the region the output array is (normalised, rectified A + b) · W2. Window order: 0 the features A, 1 the bias
    row, 2 the mean row, 3 the variance row, 4 the scale row, 5 the shift row, 6 the weights. -/
theorem region2_value (c : Dev nD) :
    ((dat2 (F := Ideal) V c).arrAt 7 cfg2.N : S200000x3.Idx → EReal)
      = Cert.Gcn.matProd (n := 200000) (k := 16) (h := 3)
          (Cert.Gcn.normRelu (n := 200000) (h := 16) (V c main_v44) (V c main_v28) (V c main_v47) (V c main_v51) (V c main_v29) (V c main_v30))
          (V c main_arg5) :=
  (dat2 (F := Ideal) V c).arrAt_eq_of_cover 7 (normOut V c) (fun t _ => normTile_flushed V c t) normTiles_cover

end Cert.KernelIdeal.Regions

end
-- ==== Proof.Region3.lean ====
/-
  The closing log-softmax, tile by tile, is the row-wise log-softmax of the whole array.

  At tile t the body adds the 1×3 bias row to rows 10000·t … of the 200000×3 logits, takes each row's maximum m (a
  maximum over three entries started from −∞), and writes a − m − log Σ_o exp(a(o) − m). Every step acts on a row by
  itself; the tiles cover the output.
-/
import proofs.«130263_j59150289600863_1_alg».proof.Proof.Gen.KernelIdeal.Frame
import proofs.«130263_j59150289600863_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.ValueIdx Idealize.ShloMosaic.TcCoe Idealize.SL.Sem
open Idealize.ShloMosaic.Pipeline (Dat Cfg Window)
open Cert.KernelIdeal Cert.KernelIdeal.Gen

/-! ## The body's arithmetic at an index -/

/-- The word 0xFF800000 is −∞, the least extended real. -/
private theorem negInf_eq_bot : Ideal.ofBits .f32 0xFF800000#32 = (⊥ : EReal) := by
  simp [Ideal.ofBits, Ideal.ieee]

/-- A fold of max over the three lanes, started from −∞, is the largest of the three. -/
private theorem fold_max_three (f : Fin 3 → EReal) :
    (Finset.univ : Finset (Fin 3)).fold max (⊥ : EReal) f = max (max (f 0) (f 1)) (f 2) := by
  rw [show (Finset.univ : Finset (Fin 3)) = {0, 1, 2} from by decide]
  rw [Finset.fold_insert (by decide), Finset.fold_insert (by decide), Finset.fold_singleton]
  rw [max_bot_right, max_assoc]

/-- The index a lane reduction of a 10000×3 block reads: row p, lane k. -/
private theorem lift_eq (h : S10000x3.Reduces [1] S10000) (p : Fin 10000) (k : Fin 3) :
    h.lift (ix1 p) k = ix2 p k := by
  funext a; apply Fin.ext
  match a with
  | ⟨0, _⟩ => rfl
  | ⟨1, _⟩ => rfl

/-- The row maximum of a 10000×3 block, read at row p. -/
private theorem rowMax_apply (a : FVec Ideal S10000x3 .f32) (h : S10000x3.Reduces [1] S10000)
    (hφ : FKind.Formats .f32) (hacc : (0xFF800000#32 : BitVec 32) = FKind.maximumf.neutral .f32 hφ) (p : Fin 10000) :
    multiReduction .maximumf [1] S10000 a 0xFF800000#32 h hφ hacc (ix1 p)
      = max (max (a (ix2 p 0)) (a (ix2 p 1))) (a (ix2 p 2)) := by
  refine (Ideal.multiReduction_maximumf_single a 0xFF800000#32 h hφ hacc (ix1 p)).trans ?_
  show (Finset.univ : Finset (Fin 3)).fold max (Ideal.ofBits .f32 0xFF800000#32) (fun k => a (h.lift (ix1 p) k)) = _
  rw [negInf_eq_bot]
  refine (fold_max_three (fun k => a (h.lift (ix1 p) k))).trans ?_
  show max (max (a (h.lift (ix1 p) (0 : Fin 3))) (a (h.lift (ix1 p) (1 : Fin 3)))) (a (h.lift (ix1 p) (2 : Fin 3))) = _
  rw [lift_eq h p 0, lift_eq h p 1, lift_eq h p 2]

/-- The row sum of a 10000×3 block, read at row p. -/
private theorem rowSum_apply (a : FVec Ideal S10000x3 .f32) (h : S10000x3.Reduces [1] S10000)
    (hφ : FKind.Formats .f32) (hacc : (0x00000000#32 : BitVec 32) = FKind.add.neutral .f32 hφ) (p : Fin 10000) :
    multiReduction .add [1] S10000 a 0x00000000#32 h hφ hacc (ix1 p) = ∑ o : Fin 3, a (ix2 p o) := by
  refine (Ideal.multiReduction_add_single a 0x00000000#32 h hφ hacc (ix1 p)).trans ?_
  show ∑ k : Fin 3, a (h.lift (ix1 p) k) = _
  exact Finset.sum_congr rfl fun k _ => congrArg a (lift_eq h p k)

/-- A column [10000] cast to [10000, 1] reads, at (p, u), the operand at p. -/
private theorem shapeCast_col_apply {α : Type} (x : S10000.Idx → α) (h : S10000.ShapeCasts S10000x1) (p : Fin 10000) (u : Fin 1) :
    shapeCast S10000x1 x h (ix2 p u) = x (ix1 p) :=
  shapeCast_apply x h _ _ (by
    have hu : u.val = 0 := by omega
    rw [Shape.rowMajor_val_two, Shape.rowMajor_val_one]
    show p.val = p.val * 1 + u.val
    omega)

/-- A column [10000, 1] broadcast to [10000, 3] reads, at (p, q), the operand at (p, 0). -/
private theorem broadcast_col_apply {α : Type} (x : S10000x1.Idx → α) (h : S10000x1.Broadcasts S10000x3) (p : Fin 10000) (q : Fin 3) :
    broadcastTo S10000x3 x h (ix2 p q) = x (ix2 p (0 : Fin 1)) := by
  refine broadcastTo_apply x h (ix2 p q) (ix2 p (0 : Fin 1)) fun ax => ?_
  match ax with
  | ⟨0, _⟩ => rfl
  | ⟨1, _⟩ => rfl

/-- The body's arithmetic on one row: with a the row (as a block), m its maximum broadcast back over the lanes, the
    result at (p, q) is (a(q) − m) − log Σ_o exp(a(o) − m). -/
private theorem logSoftmaxRow_apply (a : FVec Ideal S10000x3 .f32) (hred : S10000x3.Reduces [1] S10000)
    (hsc : S10000.ShapeCasts S10000x1) (hbc : S10000x1.Broadcasts S10000x3)
    (hφ : FKind.Formats .f32) (hmax : (0xFF800000#32 : BitVec 32) = FKind.maximumf.neutral .f32 hφ)
    (hadd : (0x00000000#32 : BitVec 32) = FKind.add.neutral .f32 hφ)
    (p : Fin 10000) (q : Fin 3) (r : Fin 3 → EReal) (ha : ∀ o, a (ix2 p o) = r o) :
    subf (subf a (broadcastTo S10000x3 (shapeCast S10000x1 (multiReduction .maximumf [1] S10000 a 0xFF800000#32 hred hφ hmax) hsc) hbc))
      (broadcastTo S10000x3 (log (shapeCast S10000x1 (multiReduction .add [1] S10000
        (exp (subf a (broadcastTo S10000x3 (shapeCast S10000x1 (multiReduction .maximumf [1] S10000 a 0xFF800000#32 hred hφ hmax) hsc) hbc)))
        0x00000000#32 hred hφ hadd) hsc)) hbc) (ix2 p q)
    = (r q - Cert.Gcn.max3 r) - Ideal.log (∑ o : Fin 3, Ideal.exp (r o - Cert.Gcn.max3 r)) := by
  have hm : ∀ o : Fin 3, broadcastTo S10000x3 (shapeCast S10000x1 (multiReduction .maximumf [1] S10000 a 0xFF800000#32 hred hφ hmax) hsc) hbc (ix2 p o)
      = Cert.Gcn.max3 r := by
    intro o
    rw [broadcast_col_apply, shapeCast_col_apply, rowMax_apply, ha 0, ha 1, ha 2]
    rfl
  generalize broadcastTo S10000x3 (shapeCast S10000x1 (multiReduction .maximumf [1] S10000 a 0xFF800000#32 hred hφ hmax) hsc) hbc = M at hm ⊢
  show (a (ix2 p q) - M (ix2 p q))
      - broadcastTo S10000x3 (log (shapeCast S10000x1 (multiReduction .add [1] S10000 (exp (subf a M)) 0x00000000#32 hred hφ hadd) hsc)) hbc (ix2 p q) = _
  rw [broadcast_col_apply]
  show (a (ix2 p q) - M (ix2 p q))
      - Ideal.log (shapeCast S10000x1 (multiReduction .add [1] S10000 (exp (subf a M)) 0x00000000#32 hred hφ hadd) hsc (ix2 p (0 : Fin 1))) = _
  rw [shapeCast_col_apply, rowSum_apply, hm q, ha q]
  refine congrArg (fun s => (r q - Cert.Gcn.max3 r) - Ideal.log s) (Finset.sum_congr rfl fun o _ => ?_)
  show Ideal.exp (a (ix2 p o) - M (ix2 p o)) = _
  rw [hm o, ha o]

/-- The block plus the bias row, read at (p, o): row p of (block + bias) at class o. -/
private theorem biasedBlock_apply (x0 : Vec Ideal S10000x3 .f32) (x1 : Vec Ideal S1x3 .f32)
    (h0 : S10000x3.ShapeCasts S10000x3) (h1 : S1x3.ShapeCasts S1x3) (hb : S1x3.Broadcasts S10000x3) (p : Fin 10000) (o : Fin 3) :
    addf (F := Ideal) (φ := .f32) (shapeCast S10000x3 x0 h0) (broadcastTo S10000x3 (shapeCast S1x3 x1 h1) hb) (ix2 p o)
      = Cert.Gcn.biased (n := 10000) x0 x1 p o := by
  show shapeCast S10000x3 x0 h0 (ix2 p o) + broadcastTo S10000x3 (shapeCast S1x3 x1 h1) hb (ix2 p o) = x0 (ix2 p o) + x1 (ix2 0 o)
  rw [shapeCast_self, shapeCast_self, broadcastTo_1b_ab_apply]

/-- THE PAYLOAD AT AN INDEX: what the body stores at (p, q) of its tile is the log-softmax of row p of (block + bias). -/
private theorem pay_apply (x0 : Vec Ideal S10000x3 .f32) (x1 : Vec Ideal S1x3 .f32) (p : Fin 10000) (q : Fin 3) :
    k3_pay1 (F := Ideal) x0 x1 (ix2 p q)
      = (Cert.Gcn.biased (n := 10000) x0 x1 p q - Cert.Gcn.max3 (Cert.Gcn.biased (n := 10000) x0 x1 p))
        - Ideal.log (∑ o : Fin 3, Ideal.exp (Cert.Gcn.biased (n := 10000) x0 x1 p o - Cert.Gcn.max3 (Cert.Gcn.biased (n := 10000) x0 x1 p))) := by
  unfold k3_pay1
  exact logSoftmaxRow_apply
    (addf (shapeCast S10000x3 x0 shapeCasts_S10000x3_S10000x3) (broadcastTo S10000x3 (shapeCast S1x3 x1 shapeCasts_S1x3_S1x3) broadcasts_S1x3_S10000x3))
    reduces_S10000x3_S10000 shapeCasts_S10000_S10000x1 broadcasts_S10000x1_S10000x3 (.inl rfl) rfl rfl p q
    (Cert.Gcn.biased (n := 10000) x0 x1 p)
    (fun o => biasedBlock_apply x0 x1 shapeCasts_S10000x3_S10000x3 shapeCasts_S1x3_S1x3 broadcasts_S1x3_S10000x3 p o)

/-! ## From tiles to the array -/

/-- The payload at any index of the tile, by its row and column. -/
private theorem pay_at (x0 : Vec Ideal S10000x3 .f32) (x1 : Vec Ideal S1x3 .f32) (j : S10000x3.Idx) :
    k3_pay1 (F := Ideal) x0 x1 j
      = (Cert.Gcn.biased (n := 10000) x0 x1 (Cert.Gcn.row j) (Cert.Gcn.col j) - Cert.Gcn.max3 (Cert.Gcn.biased (n := 10000) x0 x1 (Cert.Gcn.row j)))
        - Ideal.log (∑ o : Fin 3, Ideal.exp (Cert.Gcn.biased (n := 10000) x0 x1 (Cert.Gcn.row j) o
            - Cert.Gcn.max3 (Cert.Gcn.biased (n := 10000) x0 x1 (Cert.Gcn.row j)))) :=
  (congrArg (k3_pay1 (F := Ideal) x0 x1) (eq_ix2 j)).trans (pay_apply x0 x1 (Cert.Gcn.row j) (Cert.Gcn.col j))

/-- The zero offsets, however spelt. -/
private theorem off_zero : (![0, 0] : Fin 2 → Nat) = fun _ => 0 := funext fun a => by fin_cases a <;> rfl

/-- The index maps over the grid: at point t the logits' tile and the output's tile are both tile t of the rows over
    all three columns, and the bias row is its one block. -/
private theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/- The arrays as the region finds them, at the ideal instance: any contents. -/
variable (V : (c : Dev nD) → (b : Ref sig .tc) → Buf (Elt Ideal) ((c : Thread nD τ).loc b))

/-- The logits' tile at point t, at its literal type. -/
private abbrev logitsTile (c : Dev nD) (t : Fin cfg3.N) : Vec Ideal S10000x3 .f32 := iblk3 V c 0 t
/-- The bias row as the body loads it at point t, at its literal type. -/
private abbrev biasTile (c : Dev nD) (t : Fin cfg3.N) : Vec Ideal S1x3 .f32 := iblk3 V c 1 t

/-- The logits' tile at (p, o) is the logits at row 10000·t + p, class o. -/
private theorem logitsTile_apply (c : Dev nD) (t : Fin cfg3.N) (p : Fin 10000) (o : Fin 3) (P : Fin 200000)
    (hP : P.val = t.val * 10000 + p.val) :
    logitsTile V c t (ix2 p o) = (V c main_v64 : S200000x3.Idx → EReal) (ix2 P o) := by
  obtain ⟨e0, e1, e2, e3, e4, e5⟩ := index_facts t
  show V c main_v64 (((cfg3.win 0).blk t).view.emb (ix2 p o : S10000x3.Idx)) = V c main_v64 (ix2 P o)
  refine congrArg (V c main_v64) (funext fun a => Fin.ext ?_)
  match a with
  | ⟨0, _⟩ => show win3_0.index t (0 : Fin 2) * 10000 + 1 * p.val = P.val; omega
  | ⟨1, _⟩ => show win3_0.index t (1 : Fin 2) * 3 + 1 * o.val = o.val; omega

/-- The loaded bias row at (0, o) is the bias at class o. -/
private theorem biasTile_apply (c : Dev nD) (t : Fin cfg3.N) (o : Fin 3) :
    biasTile V c t (ix2 (0 : Fin 1) o) = (V c main_v31 : S1x3.Idx → EReal) (ix2 (0 : Fin 1) o) := by
  obtain ⟨e0, e1, e2, e3, e4, e5⟩ := index_facts t
  show V c main_v31 (((cfg3.win 1).blk t).view.emb (ix2 (0 : Fin 1) o : S1x3.Idx)) = V c main_v31 (ix2 (0 : Fin 1) o)
  refine congrArg (V c main_v31) (funext fun a => Fin.ext ?_)
  match a with
  | ⟨0, _⟩ => show win3_1.index t (0 : Fin 2) * 1 + 1 * 0 = 0; omega
  | ⟨1, _⟩ => show win3_1.index t (1 : Fin 2) * 3 + 1 * o.val = o.val; omega

/-- WHAT POINT t WRITES BACK is tile t of the row-wise log-softmax of the whole arrays. -/
private theorem flushed_eq (c : Dev nD) (t : Fin cfg3.N) :
    (dat3 (F := Ideal) V c).flushed 2 t
      = ((cfg3.win 2).blk t).view.read (Elt Ideal) (Cert.Gcn.logSoftmax3 (n := 200000) (V c main_v64) (V c main_v31)) := by
  show (cfg3.win 2).cut (grid3.coords t) ((dat3 (F := Ideal) V c).after 2 t) = _
  rw [after3_2]
  unfold out3_2
  rw [View.canon_unit_zero off_zero]
  simp only [View.ld_unit_zero (S := S10000x3) off_zero, View.ld_unit_zero (S := S1x3) off_zero]
  obtain ⟨e0, e1, e2, e3, e4, e5⟩ := index_facts t
  funext j
  show k3_pay1 (F := Ideal) (logitsTile V c t) (biasTile V c t) j
    = Cert.Gcn.logSoftmax3 (n := 200000) (V c main_v64) (V c main_v31) (((cfg3.win 2).blk t).view.emb j)
  refine (pay_at (logitsTile V c t) (biasTile V c t) j).trans ?_
  unfold Cert.Gcn.logSoftmax3
  have hrow : (Cert.Gcn.row (((cfg3.win 2).blk t).view.emb j : S200000x3.Idx)).val = t.val * 10000 + (Cert.Gcn.row (j : S10000x3.Idx)).val := by
    show win3_2.index t (0 : Fin 2) * 10000 + 1 * (j 0).val = t.val * 10000 + (j 0).val
    omega
  have hcol : Cert.Gcn.col (j : S10000x3.Idx) = Cert.Gcn.col (((cfg3.win 2).blk t).view.emb j : S200000x3.Idx) := by
    apply Fin.ext
    show (j 1).val = win3_2.index t (1 : Fin 2) * 3 + 1 * (j 1).val
    omega
  have hb : Cert.Gcn.biased (n := 10000) (logitsTile V c t) (biasTile V c t) (Cert.Gcn.row (j : S10000x3.Idx))
      = Cert.Gcn.biased (n := 200000) (V c main_v64) (V c main_v31) (Cert.Gcn.row (((cfg3.win 2).blk t).view.emb j : S200000x3.Idx)) := by
    funext o
    show logitsTile V c t (ix2 (Cert.Gcn.row (j : S10000x3.Idx)) o) + biasTile V c t (ix2 (0 : Fin 1) o) = _
    rw [logitsTile_apply V c t _ o _ hrow, biasTile_apply V c t o]
    rfl
  rw [hb, hcol]

/-- An index of the array is in point t's tile iff each coordinate is in the tile's range on its axis. -/
private theorem mem_tile (t : Fin cfg3.N) (i : S200000x3.Idx) :
    i ∈ ((cfg3.win 2).blk t).view.set ↔ ∀ a : Fin 2, win3_2.index t a * S10000x3.size a ≤ (i a).val ∧ (i a).val < win3_2.index t a * S10000x3.size a + S10000x3.size a := by
  show i ∈ ((View.whole main_v65).slice (win3_2.rect t)).set ↔ _
  rw [View.set_slice_whole, Rect.mem_set_unit]
  exact Iff.rfl

/-- Every index of the output is in some point's tile: row r is in tile r / 10000. -/
private theorem cover (i : S200000x3.Idx) :
    ∃ t : Fin cfg3.N, (cfg3.win 2).flush t = true ∧ i ∈ ((cfg3.win 2).blk t).view.set := by
  have hi0 : (i 0).val < 200000 := (i 0).isLt
  have hi1 : (i 1).val < 3 := (i 1).isLt
  have hlt : (i 0).val / 10000 < grid3.N := by rw [N_3]; omega
  obtain ⟨t, ht⟩ : ∃ t : Fin cfg3.N, t.val = (i 0).val / 10000 := ⟨⟨_, hlt⟩, rfl⟩
  obtain ⟨e0, e1, e2, e3, e4, e5⟩ := index_facts t
  refine ⟨t, flush3_2 t, ?_⟩
  rw [mem_tile]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 3 ≤ (i 1).val ∧ (i 1).val < win3_2.index t (1 : Fin 2) * 3 + 3; omega

/-- After the region the output array is the row-wise log-softmax of A + b. -/
theorem region3_value (c : Dev nD) :
    ((dat3 (F := Ideal) V c).arrAt 2 cfg3.N : S200000x3.Idx → EReal)
      = Cert.Gcn.logSoftmax3 (n := 200000) (V c main_v64) (V c main_v31) :=
  (dat3 (F := Ideal) V c).arrAt_eq_of_cover 2 (Cert.Gcn.logSoftmax3 (n := 200000) (V c main_v64) (V c main_v31))
    (fun t _ => flushed_eq V c t) cover

end Cert.KernelIdeal.Regions

end
-- ==== Proof.KernelValue.lean ====
/-
  The tiled program's result array, read back through the run.

  The last boundary's contents of the result array are region 3's write-backs; region 3 reads what the fourth host
  stretch left, which reads region 2's write-backs, and so on back to the launch. Each region's output array is the
  whole-array function of its entry arrays (the four region lemmas), each host stretch's buffers are its operations'
  composed term of the buffers before it, and no stretch or region overwrites a buffer a later one still reads: the
  result is the specification's term of the argument arrays.
-/
import proofs.«130263_j59150289600863_1_alg».proof.Proof.Gen.KernelIdeal.Frame
import proofs.«130263_j59150289600863_1_alg».proof.Proof.KTerms
import proofs.«130263_j59150289600863_1_alg».proof.Proof.Region0
import proofs.«130263_j59150289600863_1_alg».proof.Proof.Region1
import proofs.«130263_j59150289600863_1_alg».proof.Proof.Region2
import proofs.«130263_j59150289600863_1_alg».proof.Proof.Region3
import Idealize.ShloMosaic.Lib.StableHlo.Run

set_option maxRecDepth 16384

noncomputable section

namespace Cert.KernelIdeal.Regions

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result array at the last boundary is the row-wise log-softmax of what region 3 read. -/
private theorem W8_v65 (c : Dev nD) :
    (W8 (F := Ideal) m ρ c (Proc.devRef .tc main_v65) : S200000x3.Idx → EReal)
      = Cert.Gcn.logSoftmax3 (n := 200000) (V7 (F := Ideal) m ρ c main_v64) (V7 (F := Ideal) m ρ c main_v31) :=
  (W8_arr (F := Ideal) m ρ c 2).trans (region3_value (V7 (F := Ideal) m ρ) c)

/-- The aggregated logits region 3 reads: the fourth host stretch's scatter of the weighted gathered rows. -/
private theorem W7_v64 (c : Dev nD) :
    (W7 (F := Ideal) m ρ c (Proc.devRef .tc main_v64) : FVec Ideal S200000x3 .f32)
      = Host.scatterAdd scatter_S200000x3_S6600000x1_S6600000x3_1_0_0_1
          (broadcastInDim S200000x3 ![] bcast_S_S200000x3 (constant (F := Ideal) S_ .f32 0x00000000#32))
          (Terms.asColumn (W6 (F := Ideal) m ρ c (Proc.devRef .tc main_v6)))
          (mulf (Host.gather gather_S200000x3_S6600000x1_S6600000x3_1_0_n_n_0_1_13 (W6 (F := Ideal) m ρ c (Proc.devRef .tc main_v52))
                  (Terms.wrapped (W6 (F := Ideal) m ρ c (Proc.devRef .tc main_v5))))
            (broadcastInDim S6600000x3 ![0, 1] bcast_S6600000x1_S6600000x3_0_1 (W6 (F := Ideal) m ρ c (Proc.devRef .tc main_v27)))) := by
  show StableHlo.after hostOps3 (W6 (F := Ideal) m ρ c) (Proc.devRef .tc main_v64) = _
  after_results_simp
  rfl

/-! ## What each host stretch writes, and that it leaves every other buffer as it was -/

/-- The references host stretch 0 writes. -/
private abbrev wr0 : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27, main_v28, main_v29, main_v30, main_v31]
private theorem writes0 : (hostOps0 (F := Ideal)).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))
/-- A buffer host stretch 0 does not write is after it what it was before. -/
private theorem keep1 (c : Dev nD) (r : Ref sig .tc) (h : r ∉ wr0) :
    W1 (F := Ideal) m ρ c (Proc.devRef .tc r) = W0 (F := Ideal) m ρ c (Proc.devRef .tc r) :=
  StableHlo.after_of_writes_sub hostOps0 _ writes0 h

/-- The references host stretch 1 writes. -/
private abbrev wr1 : List (Ref sig .tc) := [main_c_4, main_v33, main_v34, main_c_5, main_v35, main_v36, main_v37, main_v38, main_v39, main_v40, main_v41, main_cst_6, main_v42, main_v43, main_v44]
private theorem writes1 : (hostOps1 (F := Ideal)).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))
/-- A buffer host stretch 1 does not write is after it what it was before. -/
private theorem keep3 (c : Dev nD) (r : Ref sig .tc) (h : r ∉ wr1) :
    W3 (F := Ideal) m ρ c (Proc.devRef .tc r) = W2 (F := Ideal) m ρ c (Proc.devRef .tc r) :=
  StableHlo.after_of_writes_sub hostOps1 _ writes1 h

/-- The references host stretch 2 writes. -/
private abbrev wr2 : List (Ref sig .tc) := [main_cst_7, main_v46, main_v47, main_cst_8, main_v48, main_v49, main_v50, main_v51]
private theorem writes2 : (hostOps2 (F := Ideal)).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))
/-- A buffer host stretch 2 does not write is after it what it was before. -/
private theorem keep5 (c : Dev nD) (r : Ref sig .tc) (h : r ∉ wr2) :
    W5 (F := Ideal) m ρ c (Proc.devRef .tc r) = W4 (F := Ideal) m ρ c (Proc.devRef .tc r) :=
  StableHlo.after_of_writes_sub hostOps2 _ writes2 h

/-- The references host stretch 3 writes. -/
private abbrev wr3 : List (Ref sig .tc) := [main_c_9, main_v53, main_v54, main_c_10, main_v55, main_v56, main_v57, main_v58, main_v59, main_v60, main_v61, main_cst_11, main_v62, main_v63, main_v64]
private theorem writes3 : (hostOps3 (F := Ideal)).Forall fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))
/-- A buffer host stretch 3 does not write is after it what it was before. -/
private theorem keep7 (c : Dev nD) (r : Ref sig .tc) (h : r ∉ wr3) :
    W7 (F := Ideal) m ρ c (Proc.devRef .tc r) = W6 (F := Ideal) m ρ c (Proc.devRef .tc r) :=
  StableHlo.after_of_writes_sub hostOps3 _ writes3 h

/-! ## The first host stretch's outputs, as terms of the launch contents -/

private theorem W1_v28 (c : Dev nD) :
    (W1 (F := Ideal) m ρ c (Proc.devRef .tc main_v28) : FVec Ideal S1x16 .f32)
      = Terms.rowH (m ((c.tc : Thread nD τ).loc main_arg2)) := by
  show StableHlo.after hostOps0 (W0 (F := Ideal) m ρ c) (Proc.devRef .tc main_v28) = _
  after_results_simp
  rfl

private theorem W1_v29 (c : Dev nD) :
    (W1 (F := Ideal) m ρ c (Proc.devRef .tc main_v29) : FVec Ideal S1x16 .f32)
      = Terms.rowH (m ((c.tc : Thread nD τ).loc main_arg3)) := by
  show StableHlo.after hostOps0 (W0 (F := Ideal) m ρ c) (Proc.devRef .tc main_v29) = _
  after_results_simp
  rfl

private theorem W1_v30 (c : Dev nD) :
    (W1 (F := Ideal) m ρ c (Proc.devRef .tc main_v30) : FVec Ideal S1x16 .f32)
      = Terms.rowH (m ((c.tc : Thread nD τ).loc main_arg4)) := by
  show StableHlo.after hostOps0 (W0 (F := Ideal) m ρ c) (Proc.devRef .tc main_v30) = _
  after_results_simp
  rfl

private theorem W1_v31 (c : Dev nD) :
    (W1 (F := Ideal) m ρ c (Proc.devRef .tc main_v31) : FVec Ideal S1x3 .f32)
      = Terms.rowO (m ((c.tc : Thread nD τ).loc main_arg6)) := by
  show StableHlo.after hostOps0 (W0 (F := Ideal) m ρ c) (Proc.devRef .tc main_v31) = _
  after_results_simp
  rfl

private theorem W1_arg0 (c : Dev nD) : W1 (F := Ideal) m ρ c (Proc.devRef .tc main_arg0) = m ((c.tc : Thread nD τ).loc main_arg0) :=
  keep1 m ρ c main_arg0 (by decide)
private theorem W1_arg1 (c : Dev nD) : W1 (F := Ideal) m ρ c (Proc.devRef .tc main_arg1) = m ((c.tc : Thread nD τ).loc main_arg1) :=
  keep1 m ρ c main_arg1 (by decide)
private theorem W1_arg5 (c : Dev nD) : W1 (F := Ideal) m ρ c (Proc.devRef .tc main_arg5) = m ((c.tc : Thread nD τ).loc main_arg5) :=
  keep1 m ρ c main_arg5 (by decide)

private theorem W1_v5 (c : Dev nD) :
    (W1 (F := Ideal) m ρ c (Proc.devRef .tc main_v5) : IVec S6600000 32)
      = Terms.src (m ((c.tc : Thread nD τ).loc main_arg7)) := by
  show StableHlo.after hostOps0 (W0 (F := Ideal) m ρ c) (Proc.devRef .tc main_v5) = _
  after_results_simp
  rfl
private theorem W1_v6 (c : Dev nD) :
    (W1 (F := Ideal) m ρ c (Proc.devRef .tc main_v6) : IVec S6600000 32)
      = Terms.dst (m ((c.tc : Thread nD τ).loc main_arg7)) := by
  show StableHlo.after hostOps0 (W0 (F := Ideal) m ρ c) (Proc.devRef .tc main_v6) = _
  after_results_simp
  rfl

private theorem W1_v27 (c : Dev nD) :
    (W1 (F := Ideal) m ρ c (Proc.devRef .tc main_v27) : FVec Ideal S6600000x1 .f32)
      = Terms.edgeWeight (m ((c.tc : Thread nD τ).loc main_arg7)) := by
  show StableHlo.after hostOps0 (W0 (F := Ideal) m ρ c) (Proc.devRef .tc main_v27) = _
  after_results_simp
  rfl

/-! ## Which window of each region is which buffer -/
example : Pipeline.arrRef spec0 2 = main_v32 := rfl
example : Pipeline.arrRef spec1 0 = main_v44 := rfl
example : Pipeline.arrRef spec1 1 = main_v28 := rfl
example : Pipeline.arrRef spec1 2 = main_v45_0 := rfl
example : Pipeline.arrRef spec1 3 = main_v45_1 := rfl
example : Pipeline.arrRef spec2 0 = main_v44 := rfl
example : Pipeline.arrRef spec2 1 = main_v28 := rfl
example : Pipeline.arrRef spec2 2 = main_v47 := rfl
example : Pipeline.arrRef spec2 3 = main_v51 := rfl
example : Pipeline.arrRef spec2 4 = main_v29 := rfl
example : Pipeline.arrRef spec2 5 = main_v30 := rfl
example : Pipeline.arrRef spec2 6 = main_arg5 := rfl
example : Pipeline.arrRef spec2 7 = main_v52 := rfl
example : Pipeline.arrRef spec3 0 = main_v64 := rfl
example : Pipeline.arrRef spec3 1 = main_v31 := rfl

/-! ## Region 0's exit -/

/-- Region 0 leaves the product of the features and the first weight matrix. -/
private theorem W2_v32 (c : Dev nD) :
    (W2 (F := Ideal) m ρ c (Proc.devRef .tc main_v32) : S200000x16.Idx → EReal)
      = Cert.Gcn.matProd (n := 200000) (k := 256) (h := 16) (m ((c.tc : Thread nD τ).loc main_arg0)) (m ((c.tc : Thread nD τ).loc main_arg1)) :=
  (W2_arr (F := Ideal) m ρ c 2).trans ((region0_value (V1 (F := Ideal) m ρ) c).trans
    (congrArg₂ (fun a b => Cert.Gcn.matProd (n := 200000) (k := 256) (h := 16) a b) (W1_arg0 m ρ c) (W1_arg1 m ρ c)))

/-- A buffer that is no window of region 0 is after it what the first host stretch left. -/
private theorem W2_keep (c : Dev nD) (r : Ref sig .tc) (h : ∀ w, Pipeline.arrRef spec0 w ≠ r) :
    W2 (F := Ideal) m ρ c (Proc.devRef .tc r) = W1 (F := Ideal) m ρ c (Proc.devRef .tc r) := W2_of_ne m ρ c r h

/-! ## Buffers carried unchanged from the first host stretch to later boundaries -/

/-- No window of regions 0, 1, no result of host stretches 1, 2: at region 2's entry what the first stretch left. -/
private theorem carry5 (c : Dev nD) (r : Ref sig .tc) (h0 : ∀ w, Pipeline.arrRef spec0 w ≠ r) (h1 : r ∉ wr1)
    (h2 : ∀ w, Pipeline.arrRef spec1 w ≠ r) (h3 : r ∉ wr2) :
    W5 (F := Ideal) m ρ c (Proc.devRef .tc r) = W1 (F := Ideal) m ρ c (Proc.devRef .tc r) :=
  (keep5 m ρ c r h3).trans ((W4_of_ne m ρ c r h2).trans ((keep3 m ρ c r h1).trans (W2_of_ne m ρ c r h0)))
/-- And no window of region 2 either: at region 2's exit what the first stretch left. -/
private theorem carry6 (c : Dev nD) (r : Ref sig .tc) (h0 : ∀ w, Pipeline.arrRef spec0 w ≠ r) (h1 : r ∉ wr1)
    (h2 : ∀ w, Pipeline.arrRef spec1 w ≠ r) (h3 : r ∉ wr2) (h4 : ∀ w, Pipeline.arrRef spec2 w ≠ r) :
    W6 (F := Ideal) m ρ c (Proc.devRef .tc r) = W1 (F := Ideal) m ρ c (Proc.devRef .tc r) :=
  (W6_of_ne m ρ c r h4).trans (carry5 m ρ c r h0 h1 h2 h3)

/-! ## The second host stretch: the first neighbour aggregation -/

private theorem W3_v44_raw (c : Dev nD) :
    (W3 (F := Ideal) m ρ c (Proc.devRef .tc main_v44) : FVec Ideal S200000x16 .f32)
      = Host.scatterAdd scatter_S200000x16_S6600000x1_S6600000x16_1_0_0_1
          (broadcastInDim S200000x16 ![] bcast_S_S200000x16 (constant (F := Ideal) S_ .f32 0x00000000#32))
          (Terms.asColumn (W2 (F := Ideal) m ρ c (Proc.devRef .tc main_v6)))
          (mulf (Host.gather gather_S200000x16_S6600000x1_S6600000x16_1_0_n_n_0_1_116 (W2 (F := Ideal) m ρ c (Proc.devRef .tc main_v32))
                  (Terms.wrapped (W2 (F := Ideal) m ρ c (Proc.devRef .tc main_v5))))
            (broadcastInDim S6600000x16 ![0, 1] bcast_S6600000x1_S6600000x16_0_1 (W2 (F := Ideal) m ρ c (Proc.devRef .tc main_v27)))) := by
  show StableHlo.after hostOps1 (W2 (F := Ideal) m ρ c) (Proc.devRef .tc main_v44) = _
  after_results_simp
  rfl

/-- Region 1 reads the first layer's aggregated features. -/
private theorem W3_v44 (c : Dev nD) :
    (W3 (F := Ideal) m ρ c (Proc.devRef .tc main_v44) : FVec Ideal S200000x16 .f32) = (Terms.layer1 (m ((c.tc : Thread nD τ).loc main_arg0)) (m ((c.tc : Thread nD τ).loc main_arg1)) (m ((c.tc : Thread nD τ).loc main_arg7))) := by
  rw [W3_v44_raw, W2_keep m ρ c main_v6 (by decide), W1_v6, W2_keep m ρ c main_v5 (by decide), W1_v5,
    W2_keep m ρ c main_v27 (by decide), W1_v27, W2_v32]
  rfl
private theorem W3_v28 (c : Dev nD) :
    (W3 (F := Ideal) m ρ c (Proc.devRef .tc main_v28) : FVec Ideal S1x16 .f32) = Terms.rowH (m ((c.tc : Thread nD τ).loc main_arg2)) :=
  (keep3 m ρ c main_v28 (by decide)).trans ((W2_keep m ρ c main_v28 (by decide)).trans (W1_v28 m ρ c))

/-! ## Region 1's exit -/

private theorem W4_v44 (c : Dev nD) : W4 (F := Ideal) m ρ c (Proc.devRef .tc main_v44) = W3 (F := Ideal) m ρ c (Proc.devRef .tc main_v44) :=
  (W4_arr (F := Ideal) m ρ c 0).trans (((dat1 (V3 (F := Ideal) m ρ) c).arrAt_in 0 rfl _).trans (A_eq1 (V3 (F := Ideal) m ρ) c 0))
private theorem W4_v28 (c : Dev nD) : W4 (F := Ideal) m ρ c (Proc.devRef .tc main_v28) = W3 (F := Ideal) m ρ c (Proc.devRef .tc main_v28) :=
  (W4_arr (F := Ideal) m ρ c 1).trans (((dat1 (V3 (F := Ideal) m ρ) c).arrAt_in 1 rfl _).trans (A_eq1 (V3 (F := Ideal) m ρ) c 1))
/-- The column sums and the column sums of squares of the biased first-layer features. -/
private theorem W4_v45_0 (c : Dev nD) :
    (W4 (F := Ideal) m ρ c (Proc.devRef .tc main_v45_0) : S1x16.Idx → EReal)
      = Cert.Gcn.colSum (n := 200000) (h := 16) (Terms.layer1 (m ((c.tc : Thread nD τ).loc main_arg0)) (m ((c.tc : Thread nD τ).loc main_arg1)) (m ((c.tc : Thread nD τ).loc main_arg7))) (Terms.rowH (m ((c.tc : Thread nD τ).loc main_arg2))) :=
  (W4_arr (F := Ideal) m ρ c 2).trans ((region1_sum (V3 (F := Ideal) m ρ) c).trans
    (congrArg₂ (fun a b => Cert.Gcn.colSum (n := 200000) (h := 16) a b) (W3_v44 m ρ c) (W3_v28 m ρ c)))
private theorem W4_v45_1 (c : Dev nD) :
    (W4 (F := Ideal) m ρ c (Proc.devRef .tc main_v45_1) : S1x16.Idx → EReal)
      = Cert.Gcn.colSumSq (n := 200000) (h := 16) (Terms.layer1 (m ((c.tc : Thread nD τ).loc main_arg0)) (m ((c.tc : Thread nD τ).loc main_arg1)) (m ((c.tc : Thread nD τ).loc main_arg7))) (Terms.rowH (m ((c.tc : Thread nD τ).loc main_arg2))) :=
  (W4_arr (F := Ideal) m ρ c 3).trans ((region1_sumsq (V3 (F := Ideal) m ρ) c).trans
    (congrArg₂ (fun a b => Cert.Gcn.colSumSq (n := 200000) (h := 16) a b) (W3_v44 m ρ c) (W3_v28 m ρ c)))

/-! ## The third host stretch: the batch mean and variance -/

private theorem W5_v47_raw (c : Dev nD) :
    (W5 (F := Ideal) m ρ c (Proc.devRef .tc main_v47) : FVec Ideal S1x16 .f32) = Host.divf (W4 (F := Ideal) m ρ c (Proc.devRef .tc main_v45_0)) Terms.nodeCount := by
  show StableHlo.after hostOps2 (W4 (F := Ideal) m ρ c) (Proc.devRef .tc main_v47) = _
  after_results_simp
  rfl
private theorem W5_v51_raw (c : Dev nD) :
    (W5 (F := Ideal) m ρ c (Proc.devRef .tc main_v51) : FVec Ideal S1x16 .f32)
      = subf (Host.divf (W4 (F := Ideal) m ρ c (Proc.devRef .tc main_v45_1)) Terms.nodeCount)
          (mulf (Host.divf (W4 (F := Ideal) m ρ c (Proc.devRef .tc main_v45_0)) Terms.nodeCount) (Host.divf (W4 (F := Ideal) m ρ c (Proc.devRef .tc main_v45_0)) Terms.nodeCount)) := by
  show StableHlo.after hostOps2 (W4 (F := Ideal) m ρ c) (Proc.devRef .tc main_v51) = _
  after_results_simp
  rfl
private theorem W5_v47 (c : Dev nD) :
    (W5 (F := Ideal) m ρ c (Proc.devRef .tc main_v47) : FVec Ideal S1x16 .f32) = Terms.mean (Terms.layer1 (m ((c.tc : Thread nD τ).loc main_arg0)) (m ((c.tc : Thread nD τ).loc main_arg1)) (m ((c.tc : Thread nD τ).loc main_arg7))) (m ((c.tc : Thread nD τ).loc main_arg2)) := by
  rw [W5_v47_raw, W4_v45_0]; rfl
private theorem W5_v51 (c : Dev nD) :
    (W5 (F := Ideal) m ρ c (Proc.devRef .tc main_v51) : FVec Ideal S1x16 .f32) = Terms.variance (Terms.layer1 (m ((c.tc : Thread nD τ).loc main_arg0)) (m ((c.tc : Thread nD τ).loc main_arg1)) (m ((c.tc : Thread nD τ).loc main_arg7))) (m ((c.tc : Thread nD τ).loc main_arg2)) := by
  rw [W5_v51_raw, W4_v45_1, W4_v45_0]; rfl
private theorem W5_v44 (c : Dev nD) :
    (W5 (F := Ideal) m ρ c (Proc.devRef .tc main_v44) : FVec Ideal S200000x16 .f32) = (Terms.layer1 (m ((c.tc : Thread nD τ).loc main_arg0)) (m ((c.tc : Thread nD τ).loc main_arg1)) (m ((c.tc : Thread nD τ).loc main_arg7))) :=
  (keep5 m ρ c main_v44 (by decide)).trans ((W4_v44 m ρ c).trans (W3_v44 m ρ c))
private theorem W5_v28 (c : Dev nD) :
    (W5 (F := Ideal) m ρ c (Proc.devRef .tc main_v28) : FVec Ideal S1x16 .f32) = Terms.rowH (m ((c.tc : Thread nD τ).loc main_arg2)) :=
  (keep5 m ρ c main_v28 (by decide)).trans ((W4_v28 m ρ c).trans (W3_v28 m ρ c))
private theorem W5_v29 (c : Dev nD) :
    (W5 (F := Ideal) m ρ c (Proc.devRef .tc main_v29) : FVec Ideal S1x16 .f32) = Terms.rowH (m ((c.tc : Thread nD τ).loc main_arg3)) :=
  (carry5 m ρ c main_v29 (by decide) (by decide) (by decide) (by decide)).trans (W1_v29 m ρ c)
private theorem W5_v30 (c : Dev nD) :
    (W5 (F := Ideal) m ρ c (Proc.devRef .tc main_v30) : FVec Ideal S1x16 .f32) = Terms.rowH (m ((c.tc : Thread nD τ).loc main_arg4)) :=
  (carry5 m ρ c main_v30 (by decide) (by decide) (by decide) (by decide)).trans (W1_v30 m ρ c)
private theorem W5_arg5 (c : Dev nD) : W5 (F := Ideal) m ρ c (Proc.devRef .tc main_arg5) = (m ((c.tc : Thread nD τ).loc main_arg5)) :=
  (carry5 m ρ c main_arg5 (by decide) (by decide) (by decide) (by decide)).trans (W1_arg5 m ρ c)

/-! ## Region 2's exit -/

/-- Region 2 leaves the second layer's dense transform of the normalised, rectified features. -/
private theorem W6_v52 (c : Dev nD) :
    (W6 (F := Ideal) m ρ c (Proc.devRef .tc main_v52) : S200000x3.Idx → EReal) = (Terms.hidden (Terms.layer1 (m ((c.tc : Thread nD τ).loc main_arg0)) (m ((c.tc : Thread nD τ).loc main_arg1)) (m ((c.tc : Thread nD τ).loc main_arg7))) (m ((c.tc : Thread nD τ).loc main_arg2)) (m ((c.tc : Thread nD τ).loc main_arg3)) (m ((c.tc : Thread nD τ).loc main_arg4)) (m ((c.tc : Thread nD τ).loc main_arg5))) := by
  refine (W6_arr (F := Ideal) m ρ c 7).trans ((region2_value (V5 (F := Ideal) m ρ) c).trans ?_)
  show Cert.Gcn.matProd (n := 200000) (k := 16) (h := 3)
      (Cert.Gcn.normRelu (n := 200000) (h := 16) (W5 (F := Ideal) m ρ c (Proc.devRef .tc main_v44)) (W5 (F := Ideal) m ρ c (Proc.devRef .tc main_v28)) (W5 (F := Ideal) m ρ c (Proc.devRef .tc main_v47))
        (W5 (F := Ideal) m ρ c (Proc.devRef .tc main_v51)) (W5 (F := Ideal) m ρ c (Proc.devRef .tc main_v29)) (W5 (F := Ideal) m ρ c (Proc.devRef .tc main_v30))) (W5 (F := Ideal) m ρ c (Proc.devRef .tc main_arg5)) = _
  rw [W5_v44, W5_v28, W5_v47, W5_v51, W5_v29, W5_v30, W5_arg5]
  rfl
private theorem W6_v5 (c : Dev nD) : (W6 (F := Ideal) m ρ c (Proc.devRef .tc main_v5) : IVec S6600000 32) = Terms.src (m ((c.tc : Thread nD τ).loc main_arg7)) :=
  (carry6 m ρ c main_v5 (by decide) (by decide) (by decide) (by decide) (by decide)).trans (W1_v5 m ρ c)
private theorem W6_v6 (c : Dev nD) : (W6 (F := Ideal) m ρ c (Proc.devRef .tc main_v6) : IVec S6600000 32) = Terms.dst (m ((c.tc : Thread nD τ).loc main_arg7)) :=
  (carry6 m ρ c main_v6 (by decide) (by decide) (by decide) (by decide) (by decide)).trans (W1_v6 m ρ c)
private theorem W6_v27 (c : Dev nD) : (W6 (F := Ideal) m ρ c (Proc.devRef .tc main_v27) : FVec Ideal S6600000x1 .f32) = Terms.edgeWeight (m ((c.tc : Thread nD τ).loc main_arg7)) :=
  (carry6 m ρ c main_v27 (by decide) (by decide) (by decide) (by decide) (by decide)).trans (W1_v27 m ρ c)
private theorem W6_v31 (c : Dev nD) : (W6 (F := Ideal) m ρ c (Proc.devRef .tc main_v31) : FVec Ideal S1x3 .f32) = Terms.rowO (m ((c.tc : Thread nD τ).loc main_arg6)) :=
  (carry6 m ρ c main_v31 (by decide) (by decide) (by decide) (by decide) (by decide)).trans (W1_v31 m ρ c)

/-! ## The fourth host stretch: the second neighbour aggregation -/

private theorem W7_v64' (c : Dev nD) :
    (W7 (F := Ideal) m ρ c (Proc.devRef .tc main_v64) : FVec Ideal S200000x3 .f32) = Terms.aggO (m ((c.tc : Thread nD τ).loc main_arg7)) (Terms.hidden (Terms.layer1 (m ((c.tc : Thread nD τ).loc main_arg0)) (m ((c.tc : Thread nD τ).loc main_arg1)) (m ((c.tc : Thread nD τ).loc main_arg7))) (m ((c.tc : Thread nD τ).loc main_arg2)) (m ((c.tc : Thread nD τ).loc main_arg3)) (m ((c.tc : Thread nD τ).loc main_arg4)) (m ((c.tc : Thread nD τ).loc main_arg5))) := by
  rw [W7_v64, W6_v6, W6_v52, W6_v5, W6_v27]
  rfl
private theorem W7_v31 (c : Dev nD) : (W7 (F := Ideal) m ρ c (Proc.devRef .tc main_v31) : FVec Ideal S1x3 .f32) = Terms.rowO (m ((c.tc : Thread nD τ).loc main_arg6)) :=
  (keep7 m ρ c main_v31 (by decide)).trans (W6_v31 m ρ c)

/-- The result array at the last boundary is the specification's term of the launch contents of the arguments. -/
theorem kernel_value (c : Dev nD) :
    (W8 (F := Ideal) m ρ c (Proc.devRef .tc main_v65) : S200000x3.Idx → EReal)
      = Cert.KernelIdeal.Terms.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  refine (W8_v65 m ρ c).trans ?_
  show Cert.Gcn.logSoftmax3 (n := 200000) (W7 (F := Ideal) m ρ c (Proc.devRef .tc main_v64)) (W7 (F := Ideal) m ρ c (Proc.devRef .tc main_v31)) = _
  rw [W7_v64', W7_v31]
  rfl

end Cert.KernelIdeal.Regions

end
-- ==== Proof.RTerms.lean ====
/-
  The value the whole-array program computes, as one term of its argument arrays: its operations composed, in the
  order and grouping in which they are printed.
-/
import proofs.«130263_j59150289600863_1_alg».proof.ReferenceIdeal
import proofs.«130263_j59150289600863_1_alg».proof.Proof.Gen.ReferenceIdeal
import Idealize.ShloMosaic.PureOps.Ideal

noncomputable section

namespace Cert.ReferenceIdeal.Terms

open Idealize.ShloMosaic Cert.ReferenceIdeal Cert.ReferenceIdeal.Facts₀ Cert.ReferenceIdeal.Facts

/-- The node ids 0 … 199999, the self-loops' endpoints. -/
def selfLoops : IVec S200000 32 := iotaInDim S200000 32 0
/-- Row r of the 2×E edge list, flattened. -/
def edgeRow0 (ei : IVec S2x6400000 32) : IVec S6400000 32 :=
  shapeCast S6400000 (extractStridedSlice S1x6400000 ![0, 0] ei slices_S2x6400000_S1x6400000_0_0) shapeCasts_S1x6400000_S6400000
def edgeRow1 (ei : IVec S2x6400000 32) : IVec S6400000 32 :=
  shapeCast S6400000 (extractStridedSlice S1x6400000 ![1, 0] ei slices_S2x6400000_S1x6400000_1_0) shapeCasts_S1x6400000_S6400000
/-- Sources and targets of all E + N edges: the given edges, then one self-loop per node. -/
def src (ei : IVec S2x6400000 32) : IVec S6600000 32 :=
  concatenate S6600000 0 [⟨S6400000, edgeRow0 ei⟩, ⟨S200000, selfLoops⟩] concatenates_S6400000_S200000_S6600000_d0
def dst (ei : IVec S2x6400000 32) : IVec S6600000 32 :=
  concatenate S6600000 0 [⟨S6400000, edgeRow1 ei⟩, ⟨S200000, selfLoops⟩] concatenates_S6400000_S200000_S6600000_d0
/-- An index vector as a column of start indices. -/
def asColumn (v : IVec S6600000 32) : IVec S6600000x1 32 := broadcastInDim S6600000x1 ![0] bcast_S6600000_S6600000x1_0 v
/-- Negative ids wrapped once by the node count (the gather's index normalisation), as a column of start indices. -/
def wrapped (v : IVec S6600000 32) : IVec S6600000x1 32 :=
  asColumn (select (cmpi .slt v (broadcastInDim S6600000 ![] bcast_S_S6600000 (constantI S_ 32 0#32)))
    (addi v (broadcastInDim S6600000 ![] bcast_S_S6600000 (constantI S_ 32 200000#32))) v)
/-- The in-degree of every node, self-loop included: one added per edge landing on it. -/
def deg (ei : IVec S2x6400000 32) : FVec Ideal S200000 .f32 :=
  Host.scatterAdd scatter_S200000_S6600000x1_S6600000_n_0_0_1
    (broadcastInDim S200000 ![] bcast_S_S200000 (constant S_ .f32 0x00000000#32)) (asColumn (dst ei))
    (broadcastInDim S6600000 ![] bcast_S_S6600000 (constant S_ .f32 0x3F800000#32))
/-- deg^(-1/2). -/
def dinv (ei : IVec S2x6400000 32) : FVec Ideal S200000 .f32 := Host.rsqrt (deg ei)
/-- The symmetric normalisation weight of every edge, dinv[src] · dinv[dst], as a column. -/
def edgeWeight (ei : IVec S2x6400000 32) : FVec Ideal S6600000x1 .f32 :=
  broadcastInDim S6600000x1 ![0] bcast_S6600000_S6600000x1_0
    (mulf (Host.gather gather_S200000_S6600000x1_S6600000_n_0_n_n_0_1_1 (dinv ei) (wrapped (src ei)))
      (Host.gather gather_S200000_S6600000x1_S6600000_n_0_n_n_0_1_1 (dinv ei) (wrapped (dst ei))))
/-- Neighbour aggregation of a 16-feature matrix: every edge carries its source's row, weighted, to its target. -/
def aggH (ei : IVec S2x6400000 32) (M : FVec Ideal S200000x16 .f32) : FVec Ideal S200000x16 .f32 :=
  Host.scatterAdd scatter_S200000x16_S6600000x1_S6600000x16_1_0_0_1
    (broadcastInDim S200000x16 ![] bcast_S_S200000x16 (constant S_ .f32 0x00000000#32)) (asColumn (dst ei))
    (mulf (Host.gather gather_S200000x16_S6600000x1_S6600000x16_1_0_n_n_0_1_116 M (wrapped (src ei)))
      (broadcastInDim S6600000x16 ![0, 1] bcast_S6600000x1_S6600000x16_0_1 (edgeWeight ei)))
/-- Neighbour aggregation of a 3-class matrix. -/
def aggO (ei : IVec S2x6400000 32) (M : FVec Ideal S200000x3 .f32) : FVec Ideal S200000x3 .f32 :=
  Host.scatterAdd scatter_S200000x3_S6600000x1_S6600000x3_1_0_0_1
    (broadcastInDim S200000x3 ![] bcast_S_S200000x3 (constant S_ .f32 0x00000000#32)) (asColumn (dst ei))
    (mulf (Host.gather gather_S200000x3_S6600000x1_S6600000x3_1_0_n_n_0_1_13 M (wrapped (src ei)))
      (broadcastInDim S6600000x3 ![0, 1] bcast_S6600000x1_S6600000x3_0_1 (edgeWeight ei)))

/-- A 16-vector repeated down the 200000 rows; a 3-vector likewise. -/
def downH (v : FVec Ideal S16 .f32) : FVec Ideal S200000x16 .f32 :=
  broadcastInDim S200000x16 ![0, 1] bcast_S1x16_S200000x16_0_1 (broadcastInDim S1x16 ![1] bcast_S16_S1x16_1 v)
def downO (v : FVec Ideal S3 .f32) : FVec Ideal S200000x3 .f32 :=
  broadcastInDim S200000x3 ![0, 1] bcast_S1x3_S200000x3_0_1 (broadcastInDim S1x3 ![1] bcast_S3_S1x3_1 v)

/-- The first layer: transform, aggregate, add the bias. -/
def layer1 (x : FVec Ideal S200000x256 .f32) (W1 : FVec Ideal S256x16 .f32) (b1 : FVec Ideal S16 .f32) (ei : IVec S2x6400000 32) :
    FVec Ideal S200000x16 .f32 :=
  addf (aggH ei (Host.dotGeneral dot_S200000x256_S256x16_S200000x16_1_0_0_1_n_n none x W1)) (downH b1)
/-- The batch mean per feature. -/
def mean (H : FVec Ideal S200000x16 .f32) : FVec Ideal S16 .f32 :=
  Host.divf (Host.reduceAdd H (constant S_ .f32 0x00000000#32) reducesTo_S200000x16_S16_d0 h_S_)
    (broadcastInDim S16 ![] bcast_S_S16 (constant S_ .f32 0x48435000#32))
/-- The centred features inside the variance: H minus its column means. -/
def centred (H : FVec Ideal S200000x16 .f32) : FVec Ideal S200000x16 .f32 :=
  subf H (broadcastInDim S200000x16 ![0, 1] bcast_S1x16_S200000x16_0_1
    (Host.divf (broadcastInDim S1x16 ![1] bcast_S16_S1x16_1 (Host.reduceAdd H (constant S_ .f32 0x00000000#32) reducesTo_S200000x16_S16_d0 h_S_))
      (broadcastInDim S1x16 ![] bcast_S_S1x16 (constant S_ .f32 0x48435000#32))))
/-- The divisor of the variance: the node count minus the degrees of freedom (zero here), as a scalar. -/
def varDivisor : FVec Ideal S_ .f32 :=
  subf (constant S_ .f32 0x48435000#32) (sitofp .f32 (constantI S_ 32 0#32))
/-- The batch variance, two passes, guarded by "the divisor is positive" (else the not-a-number word). -/
def variance (H : FVec Ideal S200000x16 .f32) : FVec Ideal S16 .f32 :=
  select (broadcastInDim S16 ![] bcast_S_S16 (cmpf .ogt varDivisor (constant S_ .f32 0x00000000#32)))
    (Host.divf (Host.reduceAdd (mulf (centred H) (centred H)) (constant S_ .f32 0x00000000#32) reducesTo_S200000x16_S16_d0 h_S_)
      (broadcastInDim S16 ![] bcast_S_S16 varDivisor))
    (broadcastInDim S16 ![] bcast_S_S16 (id (constant S_ .f32 0x7FC00000#32)))
/-- Normalise, scale, shift, rectify. -/
def activated (H : FVec Ideal S200000x16 .f32) (g be : FVec Ideal S16 .f32) : FVec Ideal S200000x16 .f32 :=
  maximumf
    (addf (mulf (mulf (subf H (downH (mean H)))
        (downH (Host.rsqrt (addf (variance H) (broadcastInDim S16 ![] bcast_S_S16 (constant S_ .f32 0x3727C5AC#32))))))
      (downH g)) (downH be))
    (broadcastInDim S200000x16 ![] bcast_S_S200000x16 (constant S_ .f32 0x00000000#32))
/-- The row maxima of a 3-class matrix, as the printed function computes them. -/
def rowMax (Z : FVec Ideal S200000x3 .f32) : FVec Ideal S200000 .f32 :=
  maximumf (broadcastInDim S200000 ![] bcast_S_S200000 (constant S_ .f32 0xFF800000#32))
    (Host.reduce FloatOps.maximumf Z (constant S_ .f32 0xFF800000#32) reducesTo_S200000x3_S200000_d1 h_S_)
/-- Z minus its row maxima. -/
def shifted (Z : FVec Ideal S200000x3 .f32) : FVec Ideal S200000x3 .f32 :=
  subf Z (broadcastInDim S200000x3 ![0, 1] bcast_S200000x1_S200000x3_0_1 (broadcastInDim S200000x1 ![0] bcast_S200000_S200000x1_0 (rowMax Z)))
/-- Row-wise log-softmax, as printed. -/
def logSoftmax (Z : FVec Ideal S200000x3 .f32) : FVec Ideal S200000x3 .f32 :=
  subf (shifted Z)
    (broadcastInDim S200000x3 ![0, 1] bcast_S200000x1_S200000x3_0_1
      (Host.log (broadcastInDim S200000x1 ![0] bcast_S200000_S200000x1_0
        (Host.reduceAdd (Host.exp (shifted Z)) (constant S_ .f32 0x00000000#32) reducesTo_S200000x3_S200000_d1 h_S_))))
/-- The program's result. -/
def value (x : FVec Ideal S200000x256 .f32) (W1 : FVec Ideal S256x16 .f32) (b1 g be : FVec Ideal S16 .f32)
    (W2 : FVec Ideal S16x3 .f32) (b2 : FVec Ideal S3 .f32) (ei : IVec S2x6400000 32) : FVec Ideal S200000x3 .f32 :=
  logSoftmax (addf (aggO ei (Host.dotGeneral dot_S200000x16_S16x3_S200000x3_1_0_0_1_n_n none
    (activated (layer1 x W1 b1 ei) g be) W2)) (downO b2))

end Cert.ReferenceIdeal.Terms

end
-- ==== Proof.RefRun.lean ====
/-
  The whole-array program's run: every weakly fair execution of its 98 host operations and three inlined calls
  terminates without a fault, the result array holding the operations' composed term of the argument arrays and the
  arguments unchanged (no operation writes an argument).
-/
import proofs.«130263_j59150289600863_1_alg».proof.ReferenceIdeal
import proofs.«130263_j59150289600863_1_alg».proof.Proof.Gen.ReferenceIdeal
import proofs.«130263_j59150289600863_1_alg».proof.Proof.RTerms
import Idealize.ShloMosaic.Lib.StableHlo.Run
import Idealize.ShloMosaic.Adequacy
import Idealize.ShloMosaic.Init

noncomputable section

namespace Cert.ReferenceIdeal.RefRun

open Idealize.ShloMosaic Idealize.ShloMosaic.TcCoe Idealize.SL.Sem
open Cert.ReferenceIdeal Cert.ReferenceIdeal.Facts₀ Cert.ReferenceIdeal.Facts
open Idealize.ShloMosaic.StableHlo (after)

/-! ## The program as a straight line -/

section Line

variable {F : FTy → Type} [FloatOps F]

/-- The program's 134 operations in order: its own 94, and at each of the three calls the callee's operations over that call's buffers (the variance's twenty-two, the last three of them its guard's; the rectifier's three; the log-softmax's fifteen). -/
abbrev ops : List (HloOp τ sig (Elt F)) :=
  [ StableHlo.nullary main_v0 (iotaInDim S200000 32 0),
    StableHlo.unary main_arg7 main_v1 ((extractStridedSlice S1x6400000 ![0, 0] · slices_S2x6400000_S1x6400000_0_0) : (⟨S2x6400000, .i32⟩ : BufTy).Contents (Elt F) → (⟨S1x6400000, .i32⟩ : BufTy).Contents (Elt F)),
    StableHlo.reshape main_v1 main_v2 rfl shapeCasts_S1x6400000_S6400000,
    StableHlo.binary main_v2 main_v0 main_v3 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    StableHlo.unary main_arg7 main_v4 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v4 main_v5 rfl shapeCasts_S1x6400000_S6400000,
    StableHlo.binary main_v5 main_v0 main_v6 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    StableHlo.nullary main_cst (constant S_ .f32 0x3F800000#32),
    StableHlo.unary main_cst main_v7 (broadcastInDim S6600000 ![] bcast_S_S6600000 : (⟨S_, .f32⟩ : BufTy).Contents (Elt F) → (⟨S6600000, .f32⟩ : BufTy).Contents (Elt F)),
    StableHlo.nullary main_cst_0 (constant S_ .f32 0x00000000#32),
    StableHlo.unary main_cst_0 main_v8 (broadcastInDim S200000 ![] bcast_S_S200000 : (⟨S_, .f32⟩ : BufTy).Contents (Elt F) → (⟨S200000, .f32⟩ : BufTy).Contents (Elt F)),
    StableHlo.unary main_v6 main_v9 (broadcastInDim S6600000x1 ![0] bcast_S6600000_S6600000x1_0 : (⟨S6600000, .i32⟩ : BufTy).Contents (Elt F) → (⟨S6600000x1, .i32⟩ : BufTy).Contents (Elt F)),
    StableHlo.ternary main_v8 main_v9 main_v7 main_v10 ((fun x i u => Host.scatterAdd scatter_S200000_S6600000x1_S6600000_n_0_0_1 x i u) : (⟨S200000, .f32⟩ : BufTy).Contents (Elt F) → (⟨S6600000x1, .i32⟩ : BufTy).Contents (Elt F) → (⟨S6600000, .f32⟩ : BufTy).Contents (Elt F) → (⟨S200000, .f32⟩ : BufTy).Contents (Elt F)),
    StableHlo.unary main_v10 main_v11 (Host.rsqrt : (⟨S200000, .f32⟩ : BufTy).Contents (Elt F) → (⟨S200000, .f32⟩ : BufTy).Contents (Elt F)),
    StableHlo.nullary main_c (constantI S_ 32 0#32),
    StableHlo.unary main_c main_v12 (broadcastInDim S6600000 ![] bcast_S_S6600000 : (⟨S_, .i32⟩ : BufTy).Contents (Elt F) → (⟨S6600000, .i32⟩ : BufTy).Contents (Elt F)),
    StableHlo.binary main_v3 main_v12 main_v13 (cmpi .slt : (⟨S6600000, .i32⟩ : BufTy).Contents (Elt F) → (⟨S6600000, .i32⟩ : BufTy).Contents (Elt F) → (⟨S6600000, .i1⟩ : BufTy).Contents (Elt F)),
    StableHlo.nullary main_c_1 (constantI S_ 32 200000#32),
    StableHlo.unary main_c_1 main_v14 (broadcastInDim S6600000 ![] bcast_S_S6600000 : (⟨S_, .i32⟩ : BufTy).Contents (Elt F) → (⟨S6600000, .i32⟩ : BufTy).Contents (Elt F)),
    StableHlo.binary main_v3 main_v14 main_v15 (addi : (⟨S6600000, .i32⟩ : BufTy).Contents (Elt F) → (⟨S6600000, .i32⟩ : BufTy).Contents (Elt F) → (⟨S6600000, .i32⟩ : BufTy).Contents (Elt F)),
    StableHlo.ternary main_v13 main_v15 main_v3 main_v16 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    StableHlo.unary main_v16 main_v17 (broadcastInDim S6600000x1 ![0] bcast_S6600000_S6600000x1_0 : (⟨S6600000, .i32⟩ : BufTy).Contents (Elt F) → (⟨S6600000x1, .i32⟩ : BufTy).Contents (Elt F)),
    StableHlo.binary main_v11 main_v17 main_v18 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    StableHlo.nullary main_c_2 (constantI S_ 32 0#32),
    StableHlo.unary main_c_2 main_v19 (broadcastInDim S6600000 ![] bcast_S_S6600000 : (⟨S_, .i32⟩ : BufTy).Contents (Elt F) → (⟨S6600000, .i32⟩ : BufTy).Contents (Elt F)),
    StableHlo.binary main_v6 main_v19 main_v20 (cmpi .slt : (⟨S6600000, .i32⟩ : BufTy).Contents (Elt F) → (⟨S6600000, .i32⟩ : BufTy).Contents (Elt F) → (⟨S6600000, .i1⟩ : BufTy).Contents (Elt F)),
    StableHlo.nullary main_c_3 (constantI S_ 32 200000#32),
    StableHlo.unary main_c_3 main_v21 (broadcastInDim S6600000 ![] bcast_S_S6600000 : (⟨S_, .i32⟩ : BufTy).Contents (Elt F) → (⟨S6600000, .i32⟩ : BufTy).Contents (Elt F)),
    StableHlo.binary main_v6 main_v21 main_v22 (addi : (⟨S6600000, .i32⟩ : BufTy).Contents (Elt F) → (⟨S6600000, .i32⟩ : BufTy).Contents (Elt F) → (⟨S6600000, .i32⟩ : BufTy).Contents (Elt F)),
    StableHlo.ternary main_v20 main_v22 main_v6 main_v23 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    StableHlo.unary main_v23 main_v24 (broadcastInDim S6600000x1 ![0] bcast_S6600000_S6600000x1_0 : (⟨S6600000, .i32⟩ : BufTy).Contents (Elt F) → (⟨S6600000x1, .i32⟩ : BufTy).Contents (Elt F)),
    StableHlo.binary main_v11 main_v24 main_v25 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    StableHlo.binary main_v18 main_v25 main_v26 (mulf : (⟨S6600000, .f32⟩ : BufTy).Contents (Elt F) → (⟨S6600000, .f32⟩ : BufTy).Contents (Elt F) → (⟨S6600000, .f32⟩ : BufTy).Contents (Elt F)),
    StableHlo.unary main_v26 main_v27 (broadcastInDim S6600000x1 ![0] bcast_S6600000_S6600000x1_0 : (⟨S6600000, .f32⟩ : BufTy).Contents (Elt F) → (⟨S6600000x1, .f32⟩ : BufTy).Contents (Elt F)),
    StableHlo.binary main_arg0 main_arg1 main_v28 ((fun l r => Host.dotGeneral dot_S200000x256_S256x16_S200000x16_1_0_0_1_n_n none l r) : (⟨S200000x256, .f32⟩ : BufTy).Contents (Elt F) → (⟨S256x16, .f32⟩ : BufTy).Contents (Elt F) → (⟨S200000x16, .f32⟩ : BufTy).Contents (Elt F)),
    StableHlo.nullary main_c_4 (constantI S_ 32 0#32),
    StableHlo.unary main_c_4 main_v29 (broadcastInDim S6600000 ![] bcast_S_S6600000 : (⟨S_, .i32⟩ : BufTy).Contents (Elt F) → (⟨S6600000, .i32⟩ : BufTy).Contents (Elt F)),
    StableHlo.binary main_v3 main_v29 main_v30 (cmpi .slt : (⟨S6600000, .i32⟩ : BufTy).Contents (Elt F) → (⟨S6600000, .i32⟩ : BufTy).Contents (Elt F) → (⟨S6600000, .i1⟩ : BufTy).Contents (Elt F)),
    StableHlo.nullary main_c_5 (constantI S_ 32 200000#32),
    StableHlo.unary main_c_5 main_v31 (broadcastInDim S6600000 ![] bcast_S_S6600000 : (⟨S_, .i32⟩ : BufTy).Contents (Elt F) → (⟨S6600000, .i32⟩ : BufTy).Contents (Elt F)),
    StableHlo.binary main_v3 main_v31 main_v32 (addi : (⟨S6600000, .i32⟩ : BufTy).Contents (Elt F) → (⟨S6600000, .i32⟩ : BufTy).Contents (Elt F) → (⟨S6600000, .i32⟩ : BufTy).Contents (Elt F)),
    StableHlo.ternary main_v30 main_v32 main_v3 main_v33 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    StableHlo.unary main_v33 main_v34 (broadcastInDim S6600000x1 ![0] bcast_S6600000_S6600000x1_0 : (⟨S6600000, .i32⟩ : BufTy).Contents (Elt F) → (⟨S6600000x1, .i32⟩ : BufTy).Contents (Elt F)),
    StableHlo.binary main_v28 main_v34 main_v35 ((fun x i => Host.gather gather_S200000x16_S6600000x1_S6600000x16_1_0_n_n_0_1_116 x i) : (⟨S200000x16, .f32⟩ : BufTy).Contents (Elt F) → (⟨S6600000x1, .i32⟩ : BufTy).Contents (Elt F) → (⟨S6600000x16, .f32⟩ : BufTy).Contents (Elt F)),
    StableHlo.unary main_v27 main_v36 (broadcastInDim S6600000x16 ![0, 1] bcast_S6600000x1_S6600000x16_0_1 : (⟨S6600000x1, .f32⟩ : BufTy).Contents (Elt F) → (⟨S6600000x16, .f32⟩ : BufTy).Contents (Elt F)),
    StableHlo.binary main_v35 main_v36 main_v37 (mulf : (⟨S6600000x16, .f32⟩ : BufTy).Contents (Elt F) → (⟨S6600000x16, .f32⟩ : BufTy).Contents (Elt F) → (⟨S6600000x16, .f32⟩ : BufTy).Contents (Elt F)),
    StableHlo.nullary main_cst_6 (constant S_ .f32 0x00000000#32),
    StableHlo.unary main_cst_6 main_v38 (broadcastInDim S200000x16 ![] bcast_S_S200000x16 : (⟨S_, .f32⟩ : BufTy).Contents (Elt F) → (⟨S200000x16, .f32⟩ : BufTy).Contents (Elt F)),
    StableHlo.unary main_v6 main_v39 (broadcastInDim S6600000x1 ![0] bcast_S6600000_S6600000x1_0 : (⟨S6600000, .i32⟩ : BufTy).Contents (Elt F) → (⟨S6600000x1, .i32⟩ : BufTy).Contents (Elt F)),
    StableHlo.ternary main_v38 main_v39 main_v37 main_v40 ((fun x i u => Host.scatterAdd scatter_S200000x16_S6600000x1_S6600000x16_1_0_0_1 x i u) : (⟨S200000x16, .f32⟩ : BufTy).Contents (Elt F) → (⟨S6600000x1, .i32⟩ : BufTy).Contents (Elt F) → (⟨S6600000x16, .f32⟩ : BufTy).Contents (Elt F) → (⟨S200000x16, .f32⟩ : BufTy).Contents (Elt F)),
    StableHlo.unary main_arg2 main_v41 (broadcastInDim S1x16 ![1] bcast_S16_S1x16_1 : (⟨S16, .f32⟩ : BufTy).Contents (Elt F) → (⟨S1x16, .f32⟩ : BufTy).Contents (Elt F)),
    StableHlo.unary main_v41 main_v42 (broadcastInDim S200000x16 ![0, 1] bcast_S1x16_S200000x16_0_1 : (⟨S1x16, .f32⟩ : BufTy).Contents (Elt F) → (⟨S200000x16, .f32⟩ : BufTy).Contents (Elt F)),
    StableHlo.binary main_v40 main_v42 main_v43 (addf : (⟨S200000x16, .f32⟩ : BufTy).Contents (Elt F) → (⟨S200000x16, .f32⟩ : BufTy).Contents (Elt F) → (⟨S200000x16, .f32⟩ : BufTy).Contents (Elt F)),
    StableHlo.nullary main_cst_7 (constant S_ .f32 0x00000000#32),
    StableHlo.binary main_v43 main_cst_7 main_v44 ((fun x v => Host.reduceAdd x v reducesTo_S200000x16_S16_d0 h_S_) : (⟨S200000x16, .f32⟩ : BufTy).Contents (Elt F) → (⟨S_, .f32⟩ : BufTy).Contents (Elt F) → (⟨S16, .f32⟩ : BufTy).Contents (Elt F)),
    StableHlo.nullary main_cst_8 (constant S_ .f32 0x48435000#32),
    StableHlo.unary main_cst_8 main_v45 (broadcastInDim S16 ![] bcast_S_S16 : (⟨S_, .f32⟩ : BufTy).Contents (Elt F) → (⟨S16, .f32⟩ : BufTy).Contents (Elt F)),
    StableHlo.binary main_v44 main_v45 main_v46 (Host.divf : (⟨S16, .f32⟩ : BufTy).Contents (Elt F) → (⟨S16, .f32⟩ : BufTy).Contents (Elt F) → (⟨S16, .f32⟩ : BufTy).Contents (Elt F)),
    StableHlo.nullary main_c_9 (constantI S_ 32 0#32),
    StableHlo.TRef.nullary main_call0.cst (constant S_ .f32 0x00000000#32),
    StableHlo.TRef.binary (.of main_v43 : StableHlo.TRef sig ⟨S200000x16, .f32⟩) main_call0.cst main_call0.v0 (fun x v => Host.reduceAdd x v reducesTo_S200000x16_S16_d0 h_S_),
    StableHlo.TRef.unary main_call0.v0 main_call0.v1 (broadcastInDim S1x16 ![1] bcast_S16_S1x16_1),
    StableHlo.TRef.nullary main_call0.cst_0 (constant S_ .f32 0x48435000#32),
    StableHlo.TRef.unary main_call0.cst_0 main_call0.v2 (broadcastInDim S1x16 ![] bcast_S_S1x16),
    StableHlo.TRef.binary main_call0.v1 main_call0.v2 main_call0.v3 Host.divf,
    StableHlo.TRef.unary main_call0.v3 main_call0.v4 (broadcastInDim S200000x16 ![0, 1] bcast_S1x16_S200000x16_0_1),
    StableHlo.TRef.binary (.of main_v43 : StableHlo.TRef sig ⟨S200000x16, .f32⟩) main_call0.v4 main_call0.v5 subf,
    StableHlo.TRef.binary main_call0.v5 main_call0.v5 main_call0.v6 mulf,
    StableHlo.TRef.unary (.of main_c_9 : StableHlo.TRef sig ⟨S_, .i32⟩) main_call0.v7 (sitofp .f32),
    StableHlo.TRef.nullary main_call0.cst_1 (constant S_ .f32 0x48435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S200000x16_S16_d0 h_S_),
    StableHlo.TRef.unary main_call0.v8 main_call0.v10 (broadcastInDim S16 ![] bcast_S_S16),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16 ![] bcast_S_S16),
    StableHlo.TRef.ternary main_call0.v12 main_call0.v11 main_call0.call0.v1 main_call0.call0.v2 (fun p a b => select (broadcastInDim S16 ![] bcast_S_S16 p) a b),
    StableHlo.unary main_v46 main_v48 (broadcastInDim S1x16 ![1] bcast_S16_S1x16_1 : (⟨S16, .f32⟩ : BufTy).Contents (Elt F) → (⟨S1x16, .f32⟩ : BufTy).Contents (Elt F)),
    StableHlo.unary main_v48 main_v49 (broadcastInDim S200000x16 ![0, 1] bcast_S1x16_S200000x16_0_1 : (⟨S1x16, .f32⟩ : BufTy).Contents (Elt F) → (⟨S200000x16, .f32⟩ : BufTy).Contents (Elt F)),
    StableHlo.binary main_v43 main_v49 main_v50 (subf : (⟨S200000x16, .f32⟩ : BufTy).Contents (Elt F) → (⟨S200000x16, .f32⟩ : BufTy).Contents (Elt F) → (⟨S200000x16, .f32⟩ : BufTy).Contents (Elt F)),
    StableHlo.nullary main_cst_10 (constant S_ .f32 0x3727C5AC#32),
    StableHlo.unary main_cst_10 main_v51 (broadcastInDim S16 ![] bcast_S_S16 : (⟨S_, .f32⟩ : BufTy).Contents (Elt F) → (⟨S16, .f32⟩ : BufTy).Contents (Elt F)),
    StableHlo.binary main_v47 main_v51 main_v52 (addf : (⟨S16, .f32⟩ : BufTy).Contents (Elt F) → (⟨S16, .f32⟩ : BufTy).Contents (Elt F) → (⟨S16, .f32⟩ : BufTy).Contents (Elt F)),
    StableHlo.unary main_v52 main_v53 (Host.rsqrt : (⟨S16, .f32⟩ : BufTy).Contents (Elt F) → (⟨S16, .f32⟩ : BufTy).Contents (Elt F)),
    StableHlo.unary main_v53 main_v54 (broadcastInDim S1x16 ![1] bcast_S16_S1x16_1 : (⟨S16, .f32⟩ : BufTy).Contents (Elt F) → (⟨S1x16, .f32⟩ : BufTy).Contents (Elt F)),
    StableHlo.unary main_v54 main_v55 (broadcastInDim S200000x16 ![0, 1] bcast_S1x16_S200000x16_0_1 : (⟨S1x16, .f32⟩ : BufTy).Contents (Elt F) → (⟨S200000x16, .f32⟩ : BufTy).Contents (Elt F)),
    StableHlo.binary main_v50 main_v55 main_v56 (mulf : (⟨S200000x16, .f32⟩ : BufTy).Contents (Elt F) → (⟨S200000x16, .f32⟩ : BufTy).Contents (Elt F) → (⟨S200000x16, .f32⟩ : BufTy).Contents (Elt F)),
    StableHlo.unary main_arg3 main_v57 (broadcastInDim S1x16 ![1] bcast_S16_S1x16_1 : (⟨S16, .f32⟩ : BufTy).Contents (Elt F) → (⟨S1x16, .f32⟩ : BufTy).Contents (Elt F)),
    StableHlo.unary main_v57 main_v58 (broadcastInDim S200000x16 ![0, 1] bcast_S1x16_S200000x16_0_1 : (⟨S1x16, .f32⟩ : BufTy).Contents (Elt F) → (⟨S200000x16, .f32⟩ : BufTy).Contents (Elt F)),
    StableHlo.binary main_v56 main_v58 main_v59 (mulf : (⟨S200000x16, .f32⟩ : BufTy).Contents (Elt F) → (⟨S200000x16, .f32⟩ : BufTy).Contents (Elt F) → (⟨S200000x16, .f32⟩ : BufTy).Contents (Elt F)),
    StableHlo.unary main_arg4 main_v60 (broadcastInDim S1x16 ![1] bcast_S16_S1x16_1 : (⟨S16, .f32⟩ : BufTy).Contents (Elt F) → (⟨S1x16, .f32⟩ : BufTy).Contents (Elt F)),
    StableHlo.unary main_v60 main_v61 (broadcastInDim S200000x16 ![0, 1] bcast_S1x16_S200000x16_0_1 : (⟨S1x16, .f32⟩ : BufTy).Contents (Elt F) → (⟨S200000x16, .f32⟩ : BufTy).Contents (Elt F)),
    StableHlo.binary main_v59 main_v61 main_v62 (addf : (⟨S200000x16, .f32⟩ : BufTy).Contents (Elt F) → (⟨S200000x16, .f32⟩ : BufTy).Contents (Elt F) → (⟨S200000x16, .f32⟩ : BufTy).Contents (Elt F)),
    StableHlo.TRef.nullary main_call1.cst (constant S_ .f32 0x00000000#32),
    StableHlo.TRef.unary main_call1.cst main_call1.v0 (broadcastInDim S200000x16 ![] bcast_S_S200000x16),
    StableHlo.TRef.binary (.of main_v62 : StableHlo.TRef sig ⟨S200000x16, .f32⟩) main_call1.v0 main_call1.v1 maximumf,
    StableHlo.binary main_v63 main_arg5 main_v64 ((fun l r => Host.dotGeneral dot_S200000x16_S16x3_S200000x3_1_0_0_1_n_n none l r) : (⟨S200000x16, .f32⟩ : BufTy).Contents (Elt F) → (⟨S16x3, .f32⟩ : BufTy).Contents (Elt F) → (⟨S200000x3, .f32⟩ : BufTy).Contents (Elt F)),
    StableHlo.nullary main_c_11 (constantI S_ 32 0#32),
    StableHlo.unary main_c_11 main_v65 (broadcastInDim S6600000 ![] bcast_S_S6600000 : (⟨S_, .i32⟩ : BufTy).Contents (Elt F) → (⟨S6600000, .i32⟩ : BufTy).Contents (Elt F)),
    StableHlo.binary main_v3 main_v65 main_v66 (cmpi .slt : (⟨S6600000, .i32⟩ : BufTy).Contents (Elt F) → (⟨S6600000, .i32⟩ : BufTy).Contents (Elt F) → (⟨S6600000, .i1⟩ : BufTy).Contents (Elt F)),
    StableHlo.nullary main_c_12 (constantI S_ 32 200000#32),
    StableHlo.unary main_c_12 main_v67 (broadcastInDim S6600000 ![] bcast_S_S6600000 : (⟨S_, .i32⟩ : BufTy).Contents (Elt F) → (⟨S6600000, .i32⟩ : BufTy).Contents (Elt F)),
    StableHlo.binary main_v3 main_v67 main_v68 (addi : (⟨S6600000, .i32⟩ : BufTy).Contents (Elt F) → (⟨S6600000, .i32⟩ : BufTy).Contents (Elt F) → (⟨S6600000, .i32⟩ : BufTy).Contents (Elt F)),
    StableHlo.ternary main_v66 main_v68 main_v3 main_v69 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    StableHlo.unary main_v69 main_v70 (broadcastInDim S6600000x1 ![0] bcast_S6600000_S6600000x1_0 : (⟨S6600000, .i32⟩ : BufTy).Contents (Elt F) → (⟨S6600000x1, .i32⟩ : BufTy).Contents (Elt F)),
    StableHlo.binary main_v64 main_v70 main_v71 ((fun x i => Host.gather gather_S200000x3_S6600000x1_S6600000x3_1_0_n_n_0_1_13 x i) : (⟨S200000x3, .f32⟩ : BufTy).Contents (Elt F) → (⟨S6600000x1, .i32⟩ : BufTy).Contents (Elt F) → (⟨S6600000x3, .f32⟩ : BufTy).Contents (Elt F)),
    StableHlo.unary main_v27 main_v72 (broadcastInDim S6600000x3 ![0, 1] bcast_S6600000x1_S6600000x3_0_1 : (⟨S6600000x1, .f32⟩ : BufTy).Contents (Elt F) → (⟨S6600000x3, .f32⟩ : BufTy).Contents (Elt F)),
    StableHlo.binary main_v71 main_v72 main_v73 (mulf : (⟨S6600000x3, .f32⟩ : BufTy).Contents (Elt F) → (⟨S6600000x3, .f32⟩ : BufTy).Contents (Elt F) → (⟨S6600000x3, .f32⟩ : BufTy).Contents (Elt F)),
    StableHlo.nullary main_cst_13 (constant S_ .f32 0x00000000#32),
    StableHlo.unary main_cst_13 main_v74 (broadcastInDim S200000x3 ![] bcast_S_S200000x3 : (⟨S_, .f32⟩ : BufTy).Contents (Elt F) → (⟨S200000x3, .f32⟩ : BufTy).Contents (Elt F)),
    StableHlo.unary main_v6 main_v75 (broadcastInDim S6600000x1 ![0] bcast_S6600000_S6600000x1_0 : (⟨S6600000, .i32⟩ : BufTy).Contents (Elt F) → (⟨S6600000x1, .i32⟩ : BufTy).Contents (Elt F)),
    StableHlo.ternary main_v74 main_v75 main_v73 main_v76 ((fun x i u => Host.scatterAdd scatter_S200000x3_S6600000x1_S6600000x3_1_0_0_1 x i u) : (⟨S200000x3, .f32⟩ : BufTy).Contents (Elt F) → (⟨S6600000x1, .i32⟩ : BufTy).Contents (Elt F) → (⟨S6600000x3, .f32⟩ : BufTy).Contents (Elt F) → (⟨S200000x3, .f32⟩ : BufTy).Contents (Elt F)),
    StableHlo.unary main_arg6 main_v77 (broadcastInDim S1x3 ![1] bcast_S3_S1x3_1 : (⟨S3, .f32⟩ : BufTy).Contents (Elt F) → (⟨S1x3, .f32⟩ : BufTy).Contents (Elt F)),
    StableHlo.unary main_v77 main_v78 (broadcastInDim S200000x3 ![0, 1] bcast_S1x3_S200000x3_0_1 : (⟨S1x3, .f32⟩ : BufTy).Contents (Elt F) → (⟨S200000x3, .f32⟩ : BufTy).Contents (Elt F)),
    StableHlo.binary main_v76 main_v78 main_v79 (addf : (⟨S200000x3, .f32⟩ : BufTy).Contents (Elt F) → (⟨S200000x3, .f32⟩ : BufTy).Contents (Elt F) → (⟨S200000x3, .f32⟩ : BufTy).Contents (Elt F)),
    StableHlo.TRef.nullary main_call2.cst (constant S_ .f32 0xFF800000#32),
    StableHlo.TRef.binary (.of main_v79 : StableHlo.TRef sig ⟨S200000x3, .f32⟩) main_call2.cst main_call2.v0 (fun x v => Host.reduce FloatOps.maximumf x v reducesTo_S200000x3_S200000_d1 h_S_),
    StableHlo.TRef.nullary main_call2.cst_0 (constant S_ .f32 0xFF800000#32),
    StableHlo.TRef.unary main_call2.cst_0 main_call2.v1 (broadcastInDim S200000 ![] bcast_S_S200000),
    StableHlo.TRef.binary main_call2.v1 main_call2.v0 main_call2.v2 maximumf,
    StableHlo.TRef.unary main_call2.v2 main_call2.v3 (broadcastInDim S200000x1 ![0] bcast_S200000_S200000x1_0),
    StableHlo.TRef.unary main_call2.v3 main_call2.v4 (broadcastInDim S200000x3 ![0, 1] bcast_S200000x1_S200000x3_0_1),
    StableHlo.TRef.binary (.of main_v79 : StableHlo.TRef sig ⟨S200000x3, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S200000x3_S200000_d1 h_S_),
    StableHlo.TRef.unary main_call2.v7 main_call2.v8 (broadcastInDim S200000x1 ![0] bcast_S200000_S200000x1_0),
    StableHlo.TRef.unary main_call2.v8 main_call2.v9 Host.log,
    StableHlo.TRef.unary main_call2.v9 main_call2.v10 (broadcastInDim S200000x3 ![0, 1] bcast_S200000x1_S200000x3_0_1),
    StableHlo.TRef.binary main_call2.v5 main_call2.v10 main_call2.v11 subf ]

set_option maxRecDepth 8192 in
set_option maxHeartbeats 4000000 in
/-- The program is that straight line: the two halves and the callees unfolded at their calls, the records at their
    fields, sequencing reassociated. -/
theorem main_eq (c : Dev nD) : main (F := F) c = StableHlo.seq ops := by
  simp only [main, main_part0, main_part1, fn_var.body, fn_where.body, fn_relu.body, fn_log_softmax.body, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

/-! ## The line in seven stretches

The same operations again, cut where few arrays cross: each stretch is short enough to read its results off directly. -/

/-- Operations 1–7: the node ids, the two rows of the edge list, and sources and targets with the self-loops appended. -/
abbrev opsA : List (HloOp τ sig (Elt F)) :=
  [ StableHlo.nullary main_v0 (iotaInDim S200000 32 0),
    StableHlo.unary main_arg7 main_v1 ((extractStridedSlice S1x6400000 ![0, 0] · slices_S2x6400000_S1x6400000_0_0) : (⟨S2x6400000, .i32⟩ : BufTy).Contents (Elt F) → (⟨S1x6400000, .i32⟩ : BufTy).Contents (Elt F)),
    StableHlo.reshape main_v1 main_v2 rfl shapeCasts_S1x6400000_S6400000,
    StableHlo.binary main_v2 main_v0 main_v3 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    StableHlo.unary main_arg7 main_v4 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v4 main_v5 rfl shapeCasts_S1x6400000_S6400000,
    StableHlo.binary main_v5 main_v0 main_v6 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)) ]

/-- Operations 8–34: the degrees, their inverse square roots, the wrapped endpoints and the edge weights. -/
abbrev opsB : List (HloOp τ sig (Elt F)) :=
  [ StableHlo.nullary main_cst (constant S_ .f32 0x3F800000#32),
    StableHlo.unary main_cst main_v7 (broadcastInDim S6600000 ![] bcast_S_S6600000 : (⟨S_, .f32⟩ : BufTy).Contents (Elt F) → (⟨S6600000, .f32⟩ : BufTy).Contents (Elt F)),
    StableHlo.nullary main_cst_0 (constant S_ .f32 0x00000000#32),
    StableHlo.unary main_cst_0 main_v8 (broadcastInDim S200000 ![] bcast_S_S200000 : (⟨S_, .f32⟩ : BufTy).Contents (Elt F) → (⟨S200000, .f32⟩ : BufTy).Contents (Elt F)),
    StableHlo.unary main_v6 main_v9 (broadcastInDim S6600000x1 ![0] bcast_S6600000_S6600000x1_0 : (⟨S6600000, .i32⟩ : BufTy).Contents (Elt F) → (⟨S6600000x1, .i32⟩ : BufTy).Contents (Elt F)),
    StableHlo.ternary main_v8 main_v9 main_v7 main_v10 ((fun x i u => Host.scatterAdd scatter_S200000_S6600000x1_S6600000_n_0_0_1 x i u) : (⟨S200000, .f32⟩ : BufTy).Contents (Elt F) → (⟨S6600000x1, .i32⟩ : BufTy).Contents (Elt F) → (⟨S6600000, .f32⟩ : BufTy).Contents (Elt F) → (⟨S200000, .f32⟩ : BufTy).Contents (Elt F)),
    StableHlo.unary main_v10 main_v11 (Host.rsqrt : (⟨S200000, .f32⟩ : BufTy).Contents (Elt F) → (⟨S200000, .f32⟩ : BufTy).Contents (Elt F)),
    StableHlo.nullary main_c (constantI S_ 32 0#32),
    StableHlo.unary main_c main_v12 (broadcastInDim S6600000 ![] bcast_S_S6600000 : (⟨S_, .i32⟩ : BufTy).Contents (Elt F) → (⟨S6600000, .i32⟩ : BufTy).Contents (Elt F)),
    StableHlo.binary main_v3 main_v12 main_v13 (cmpi .slt : (⟨S6600000, .i32⟩ : BufTy).Contents (Elt F) → (⟨S6600000, .i32⟩ : BufTy).Contents (Elt F) → (⟨S6600000, .i1⟩ : BufTy).Contents (Elt F)),
    StableHlo.nullary main_c_1 (constantI S_ 32 200000#32),
    StableHlo.unary main_c_1 main_v14 (broadcastInDim S6600000 ![] bcast_S_S6600000 : (⟨S_, .i32⟩ : BufTy).Contents (Elt F) → (⟨S6600000, .i32⟩ : BufTy).Contents (Elt F)),
    StableHlo.binary main_v3 main_v14 main_v15 (addi : (⟨S6600000, .i32⟩ : BufTy).Contents (Elt F) → (⟨S6600000, .i32⟩ : BufTy).Contents (Elt F) → (⟨S6600000, .i32⟩ : BufTy).Contents (Elt F)),
    StableHlo.ternary main_v13 main_v15 main_v3 main_v16 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    StableHlo.unary main_v16 main_v17 (broadcastInDim S6600000x1 ![0] bcast_S6600000_S6600000x1_0 : (⟨S6600000, .i32⟩ : BufTy).Contents (Elt F) → (⟨S6600000x1, .i32⟩ : BufTy).Contents (Elt F)),
    StableHlo.binary main_v11 main_v17 main_v18 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    StableHlo.nullary main_c_2 (constantI S_ 32 0#32),
    StableHlo.unary main_c_2 main_v19 (broadcastInDim S6600000 ![] bcast_S_S6600000 : (⟨S_, .i32⟩ : BufTy).Contents (Elt F) → (⟨S6600000, .i32⟩ : BufTy).Contents (Elt F)),
    StableHlo.binary main_v6 main_v19 main_v20 (cmpi .slt : (⟨S6600000, .i32⟩ : BufTy).Contents (Elt F) → (⟨S6600000, .i32⟩ : BufTy).Contents (Elt F) → (⟨S6600000, .i1⟩ : BufTy).Contents (Elt F)),
    StableHlo.nullary main_c_3 (constantI S_ 32 200000#32),
    StableHlo.unary main_c_3 main_v21 (broadcastInDim S6600000 ![] bcast_S_S6600000 : (⟨S_, .i32⟩ : BufTy).Contents (Elt F) → (⟨S6600000, .i32⟩ : BufTy).Contents (Elt F)),
    StableHlo.binary main_v6 main_v21 main_v22 (addi : (⟨S6600000, .i32⟩ : BufTy).Contents (Elt F) → (⟨S6600000, .i32⟩ : BufTy).Contents (Elt F) → (⟨S6600000, .i32⟩ : BufTy).Contents (Elt F)),
    StableHlo.ternary main_v20 main_v22 main_v6 main_v23 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    StableHlo.unary main_v23 main_v24 (broadcastInDim S6600000x1 ![0] bcast_S6600000_S6600000x1_0 : (⟨S6600000, .i32⟩ : BufTy).Contents (Elt F) → (⟨S6600000x1, .i32⟩ : BufTy).Contents (Elt F)),
    StableHlo.binary main_v11 main_v24 main_v25 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    StableHlo.binary main_v18 main_v25 main_v26 (mulf : (⟨S6600000, .f32⟩ : BufTy).Contents (Elt F) → (⟨S6600000, .f32⟩ : BufTy).Contents (Elt F) → (⟨S6600000, .f32⟩ : BufTy).Contents (Elt F)),
    StableHlo.unary main_v26 main_v27 (broadcastInDim S6600000x1 ![0] bcast_S6600000_S6600000x1_0 : (⟨S6600000, .f32⟩ : BufTy).Contents (Elt F) → (⟨S6600000x1, .f32⟩ : BufTy).Contents (Elt F)) ]

/-- Operations 35–53: the first layer (transform, gather, weight, scatter, bias). -/
abbrev opsC : List (HloOp τ sig (Elt F)) :=
  [ StableHlo.binary main_arg0 main_arg1 main_v28 ((fun l r => Host.dotGeneral dot_S200000x256_S256x16_S200000x16_1_0_0_1_n_n none l r) : (⟨S200000x256, .f32⟩ : BufTy).Contents (Elt F) → (⟨S256x16, .f32⟩ : BufTy).Contents (Elt F) → (⟨S200000x16, .f32⟩ : BufTy).Contents (Elt F)),
    StableHlo.nullary main_c_4 (constantI S_ 32 0#32),
    StableHlo.unary main_c_4 main_v29 (broadcastInDim S6600000 ![] bcast_S_S6600000 : (⟨S_, .i32⟩ : BufTy).Contents (Elt F) → (⟨S6600000, .i32⟩ : BufTy).Contents (Elt F)),
    StableHlo.binary main_v3 main_v29 main_v30 (cmpi .slt : (⟨S6600000, .i32⟩ : BufTy).Contents (Elt F) → (⟨S6600000, .i32⟩ : BufTy).Contents (Elt F) → (⟨S6600000, .i1⟩ : BufTy).Contents (Elt F)),
    StableHlo.nullary main_c_5 (constantI S_ 32 200000#32),
    StableHlo.unary main_c_5 main_v31 (broadcastInDim S6600000 ![] bcast_S_S6600000 : (⟨S_, .i32⟩ : BufTy).Contents (Elt F) → (⟨S6600000, .i32⟩ : BufTy).Contents (Elt F)),
    StableHlo.binary main_v3 main_v31 main_v32 (addi : (⟨S6600000, .i32⟩ : BufTy).Contents (Elt F) → (⟨S6600000, .i32⟩ : BufTy).Contents (Elt F) → (⟨S6600000, .i32⟩ : BufTy).Contents (Elt F)),
    StableHlo.ternary main_v30 main_v32 main_v3 main_v33 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    StableHlo.unary main_v33 main_v34 (broadcastInDim S6600000x1 ![0] bcast_S6600000_S6600000x1_0 : (⟨S6600000, .i32⟩ : BufTy).Contents (Elt F) → (⟨S6600000x1, .i32⟩ : BufTy).Contents (Elt F)),
    StableHlo.binary main_v28 main_v34 main_v35 ((fun x i => Host.gather gather_S200000x16_S6600000x1_S6600000x16_1_0_n_n_0_1_116 x i) : (⟨S200000x16, .f32⟩ : BufTy).Contents (Elt F) → (⟨S6600000x1, .i32⟩ : BufTy).Contents (Elt F) → (⟨S6600000x16, .f32⟩ : BufTy).Contents (Elt F)),
    StableHlo.unary main_v27 main_v36 (broadcastInDim S6600000x16 ![0, 1] bcast_S6600000x1_S6600000x16_0_1 : (⟨S6600000x1, .f32⟩ : BufTy).Contents (Elt F) → (⟨S6600000x16, .f32⟩ : BufTy).Contents (Elt F)),
    StableHlo.binary main_v35 main_v36 main_v37 (mulf : (⟨S6600000x16, .f32⟩ : BufTy).Contents (Elt F) → (⟨S6600000x16, .f32⟩ : BufTy).Contents (Elt F) → (⟨S6600000x16, .f32⟩ : BufTy).Contents (Elt F)),
    StableHlo.nullary main_cst_6 (constant S_ .f32 0x00000000#32),
    StableHlo.unary main_cst_6 main_v38 (broadcastInDim S200000x16 ![] bcast_S_S200000x16 : (⟨S_, .f32⟩ : BufTy).Contents (Elt F) → (⟨S200000x16, .f32⟩ : BufTy).Contents (Elt F)),
    StableHlo.unary main_v6 main_v39 (broadcastInDim S6600000x1 ![0] bcast_S6600000_S6600000x1_0 : (⟨S6600000, .i32⟩ : BufTy).Contents (Elt F) → (⟨S6600000x1, .i32⟩ : BufTy).Contents (Elt F)),
    StableHlo.ternary main_v38 main_v39 main_v37 main_v40 ((fun x i u => Host.scatterAdd scatter_S200000x16_S6600000x1_S6600000x16_1_0_0_1 x i u) : (⟨S200000x16, .f32⟩ : BufTy).Contents (Elt F) → (⟨S6600000x1, .i32⟩ : BufTy).Contents (Elt F) → (⟨S6600000x16, .f32⟩ : BufTy).Contents (Elt F) → (⟨S200000x16, .f32⟩ : BufTy).Contents (Elt F)),
    StableHlo.unary main_arg2 main_v41 (broadcastInDim S1x16 ![1] bcast_S16_S1x16_1 : (⟨S16, .f32⟩ : BufTy).Contents (Elt F) → (⟨S1x16, .f32⟩ : BufTy).Contents (Elt F)),
    StableHlo.unary main_v41 main_v42 (broadcastInDim S200000x16 ![0, 1] bcast_S1x16_S200000x16_0_1 : (⟨S1x16, .f32⟩ : BufTy).Contents (Elt F) → (⟨S200000x16, .f32⟩ : BufTy).Contents (Elt F)),
    StableHlo.binary main_v40 main_v42 main_v43 (addf : (⟨S200000x16, .f32⟩ : BufTy).Contents (Elt F) → (⟨S200000x16, .f32⟩ : BufTy).Contents (Elt F) → (⟨S200000x16, .f32⟩ : BufTy).Contents (Elt F)) ]

/-- Operations 54–81: the batch mean, and the variance function's twenty-two operations. -/
abbrev opsD : List (HloOp τ sig (Elt F)) :=
  [ StableHlo.nullary main_cst_7 (constant S_ .f32 0x00000000#32),
    StableHlo.binary main_v43 main_cst_7 main_v44 ((fun x v => Host.reduceAdd x v reducesTo_S200000x16_S16_d0 h_S_) : (⟨S200000x16, .f32⟩ : BufTy).Contents (Elt F) → (⟨S_, .f32⟩ : BufTy).Contents (Elt F) → (⟨S16, .f32⟩ : BufTy).Contents (Elt F)),
    StableHlo.nullary main_cst_8 (constant S_ .f32 0x48435000#32),
    StableHlo.unary main_cst_8 main_v45 (broadcastInDim S16 ![] bcast_S_S16 : (⟨S_, .f32⟩ : BufTy).Contents (Elt F) → (⟨S16, .f32⟩ : BufTy).Contents (Elt F)),
    StableHlo.binary main_v44 main_v45 main_v46 (Host.divf : (⟨S16, .f32⟩ : BufTy).Contents (Elt F) → (⟨S16, .f32⟩ : BufTy).Contents (Elt F) → (⟨S16, .f32⟩ : BufTy).Contents (Elt F)),
    StableHlo.nullary main_c_9 (constantI S_ 32 0#32),
    StableHlo.TRef.nullary main_call0.cst (constant S_ .f32 0x00000000#32),
    StableHlo.TRef.binary (.of main_v43 : StableHlo.TRef sig ⟨S200000x16, .f32⟩) main_call0.cst main_call0.v0 (fun x v => Host.reduceAdd x v reducesTo_S200000x16_S16_d0 h_S_),
    StableHlo.TRef.unary main_call0.v0 main_call0.v1 (broadcastInDim S1x16 ![1] bcast_S16_S1x16_1),
    StableHlo.TRef.nullary main_call0.cst_0 (constant S_ .f32 0x48435000#32),
    StableHlo.TRef.unary main_call0.cst_0 main_call0.v2 (broadcastInDim S1x16 ![] bcast_S_S1x16),
    StableHlo.TRef.binary main_call0.v1 main_call0.v2 main_call0.v3 Host.divf,
    StableHlo.TRef.unary main_call0.v3 main_call0.v4 (broadcastInDim S200000x16 ![0, 1] bcast_S1x16_S200000x16_0_1),
    StableHlo.TRef.binary (.of main_v43 : StableHlo.TRef sig ⟨S200000x16, .f32⟩) main_call0.v4 main_call0.v5 subf,
    StableHlo.TRef.binary main_call0.v5 main_call0.v5 main_call0.v6 mulf,
    StableHlo.TRef.unary (.of main_c_9 : StableHlo.TRef sig ⟨S_, .i32⟩) main_call0.v7 (sitofp .f32),
    StableHlo.TRef.nullary main_call0.cst_1 (constant S_ .f32 0x48435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S200000x16_S16_d0 h_S_),
    StableHlo.TRef.unary main_call0.v8 main_call0.v10 (broadcastInDim S16 ![] bcast_S_S16),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16 ![] bcast_S_S16),
    StableHlo.TRef.ternary main_call0.v12 main_call0.v11 main_call0.call0.v1 main_call0.call0.v2 (fun p a b => select (broadcastInDim S16 ![] bcast_S_S16 p) a b) ]

/-- Operations 82–100: normalise, scale, shift, and the rectifier's three operations. -/
abbrev opsE : List (HloOp τ sig (Elt F)) :=
  [ StableHlo.unary main_v46 main_v48 (broadcastInDim S1x16 ![1] bcast_S16_S1x16_1 : (⟨S16, .f32⟩ : BufTy).Contents (Elt F) → (⟨S1x16, .f32⟩ : BufTy).Contents (Elt F)),
    StableHlo.unary main_v48 main_v49 (broadcastInDim S200000x16 ![0, 1] bcast_S1x16_S200000x16_0_1 : (⟨S1x16, .f32⟩ : BufTy).Contents (Elt F) → (⟨S200000x16, .f32⟩ : BufTy).Contents (Elt F)),
    StableHlo.binary main_v43 main_v49 main_v50 (subf : (⟨S200000x16, .f32⟩ : BufTy).Contents (Elt F) → (⟨S200000x16, .f32⟩ : BufTy).Contents (Elt F) → (⟨S200000x16, .f32⟩ : BufTy).Contents (Elt F)),
    StableHlo.nullary main_cst_10 (constant S_ .f32 0x3727C5AC#32),
    StableHlo.unary main_cst_10 main_v51 (broadcastInDim S16 ![] bcast_S_S16 : (⟨S_, .f32⟩ : BufTy).Contents (Elt F) → (⟨S16, .f32⟩ : BufTy).Contents (Elt F)),
    StableHlo.binary main_v47 main_v51 main_v52 (addf : (⟨S16, .f32⟩ : BufTy).Contents (Elt F) → (⟨S16, .f32⟩ : BufTy).Contents (Elt F) → (⟨S16, .f32⟩ : BufTy).Contents (Elt F)),
    StableHlo.unary main_v52 main_v53 (Host.rsqrt : (⟨S16, .f32⟩ : BufTy).Contents (Elt F) → (⟨S16, .f32⟩ : BufTy).Contents (Elt F)),
    StableHlo.unary main_v53 main_v54 (broadcastInDim S1x16 ![1] bcast_S16_S1x16_1 : (⟨S16, .f32⟩ : BufTy).Contents (Elt F) → (⟨S1x16, .f32⟩ : BufTy).Contents (Elt F)),
    StableHlo.unary main_v54 main_v55 (broadcastInDim S200000x16 ![0, 1] bcast_S1x16_S200000x16_0_1 : (⟨S1x16, .f32⟩ : BufTy).Contents (Elt F) → (⟨S200000x16, .f32⟩ : BufTy).Contents (Elt F)),
    StableHlo.binary main_v50 main_v55 main_v56 (mulf : (⟨S200000x16, .f32⟩ : BufTy).Contents (Elt F) → (⟨S200000x16, .f32⟩ : BufTy).Contents (Elt F) → (⟨S200000x16, .f32⟩ : BufTy).Contents (Elt F)),
    StableHlo.unary main_arg3 main_v57 (broadcastInDim S1x16 ![1] bcast_S16_S1x16_1 : (⟨S16, .f32⟩ : BufTy).Contents (Elt F) → (⟨S1x16, .f32⟩ : BufTy).Contents (Elt F)),
    StableHlo.unary main_v57 main_v58 (broadcastInDim S200000x16 ![0, 1] bcast_S1x16_S200000x16_0_1 : (⟨S1x16, .f32⟩ : BufTy).Contents (Elt F) → (⟨S200000x16, .f32⟩ : BufTy).Contents (Elt F)),
    StableHlo.binary main_v56 main_v58 main_v59 (mulf : (⟨S200000x16, .f32⟩ : BufTy).Contents (Elt F) → (⟨S200000x16, .f32⟩ : BufTy).Contents (Elt F) → (⟨S200000x16, .f32⟩ : BufTy).Contents (Elt F)),
    StableHlo.unary main_arg4 main_v60 (broadcastInDim S1x16 ![1] bcast_S16_S1x16_1 : (⟨S16, .f32⟩ : BufTy).Contents (Elt F) → (⟨S1x16, .f32⟩ : BufTy).Contents (Elt F)),
    StableHlo.unary main_v60 main_v61 (broadcastInDim S200000x16 ![0, 1] bcast_S1x16_S200000x16_0_1 : (⟨S1x16, .f32⟩ : BufTy).Contents (Elt F) → (⟨S200000x16, .f32⟩ : BufTy).Contents (Elt F)),
    StableHlo.binary main_v59 main_v61 main_v62 (addf : (⟨S200000x16, .f32⟩ : BufTy).Contents (Elt F) → (⟨S200000x16, .f32⟩ : BufTy).Contents (Elt F) → (⟨S200000x16, .f32⟩ : BufTy).Contents (Elt F)),
    StableHlo.TRef.nullary main_call1.cst (constant S_ .f32 0x00000000#32),
    StableHlo.TRef.unary main_call1.cst main_call1.v0 (broadcastInDim S200000x16 ![] bcast_S_S200000x16),
    StableHlo.TRef.binary (.of main_v62 : StableHlo.TRef sig ⟨S200000x16, .f32⟩) main_call1.v0 main_call1.v1 maximumf ]

/-- Operations 101–119: the second layer (transform, gather, weight, scatter, bias). -/
abbrev opsF : List (HloOp τ sig (Elt F)) :=
  [ StableHlo.binary main_v63 main_arg5 main_v64 ((fun l r => Host.dotGeneral dot_S200000x16_S16x3_S200000x3_1_0_0_1_n_n none l r) : (⟨S200000x16, .f32⟩ : BufTy).Contents (Elt F) → (⟨S16x3, .f32⟩ : BufTy).Contents (Elt F) → (⟨S200000x3, .f32⟩ : BufTy).Contents (Elt F)),
    StableHlo.nullary main_c_11 (constantI S_ 32 0#32),
    StableHlo.unary main_c_11 main_v65 (broadcastInDim S6600000 ![] bcast_S_S6600000 : (⟨S_, .i32⟩ : BufTy).Contents (Elt F) → (⟨S6600000, .i32⟩ : BufTy).Contents (Elt F)),
    StableHlo.binary main_v3 main_v65 main_v66 (cmpi .slt : (⟨S6600000, .i32⟩ : BufTy).Contents (Elt F) → (⟨S6600000, .i32⟩ : BufTy).Contents (Elt F) → (⟨S6600000, .i1⟩ : BufTy).Contents (Elt F)),
    StableHlo.nullary main_c_12 (constantI S_ 32 200000#32),
    StableHlo.unary main_c_12 main_v67 (broadcastInDim S6600000 ![] bcast_S_S6600000 : (⟨S_, .i32⟩ : BufTy).Contents (Elt F) → (⟨S6600000, .i32⟩ : BufTy).Contents (Elt F)),
    StableHlo.binary main_v3 main_v67 main_v68 (addi : (⟨S6600000, .i32⟩ : BufTy).Contents (Elt F) → (⟨S6600000, .i32⟩ : BufTy).Contents (Elt F) → (⟨S6600000, .i32⟩ : BufTy).Contents (Elt F)),
    StableHlo.ternary main_v66 main_v68 main_v3 main_v69 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    StableHlo.unary main_v69 main_v70 (broadcastInDim S6600000x1 ![0] bcast_S6600000_S6600000x1_0 : (⟨S6600000, .i32⟩ : BufTy).Contents (Elt F) → (⟨S6600000x1, .i32⟩ : BufTy).Contents (Elt F)),
    StableHlo.binary main_v64 main_v70 main_v71 ((fun x i => Host.gather gather_S200000x3_S6600000x1_S6600000x3_1_0_n_n_0_1_13 x i) : (⟨S200000x3, .f32⟩ : BufTy).Contents (Elt F) → (⟨S6600000x1, .i32⟩ : BufTy).Contents (Elt F) → (⟨S6600000x3, .f32⟩ : BufTy).Contents (Elt F)),
    StableHlo.unary main_v27 main_v72 (broadcastInDim S6600000x3 ![0, 1] bcast_S6600000x1_S6600000x3_0_1 : (⟨S6600000x1, .f32⟩ : BufTy).Contents (Elt F) → (⟨S6600000x3, .f32⟩ : BufTy).Contents (Elt F)),
    StableHlo.binary main_v71 main_v72 main_v73 (mulf : (⟨S6600000x3, .f32⟩ : BufTy).Contents (Elt F) → (⟨S6600000x3, .f32⟩ : BufTy).Contents (Elt F) → (⟨S6600000x3, .f32⟩ : BufTy).Contents (Elt F)),
    StableHlo.nullary main_cst_13 (constant S_ .f32 0x00000000#32),
    StableHlo.unary main_cst_13 main_v74 (broadcastInDim S200000x3 ![] bcast_S_S200000x3 : (⟨S_, .f32⟩ : BufTy).Contents (Elt F) → (⟨S200000x3, .f32⟩ : BufTy).Contents (Elt F)),
    StableHlo.unary main_v6 main_v75 (broadcastInDim S6600000x1 ![0] bcast_S6600000_S6600000x1_0 : (⟨S6600000, .i32⟩ : BufTy).Contents (Elt F) → (⟨S6600000x1, .i32⟩ : BufTy).Contents (Elt F)),
    StableHlo.ternary main_v74 main_v75 main_v73 main_v76 ((fun x i u => Host.scatterAdd scatter_S200000x3_S6600000x1_S6600000x3_1_0_0_1 x i u) : (⟨S200000x3, .f32⟩ : BufTy).Contents (Elt F) → (⟨S6600000x1, .i32⟩ : BufTy).Contents (Elt F) → (⟨S6600000x3, .f32⟩ : BufTy).Contents (Elt F) → (⟨S200000x3, .f32⟩ : BufTy).Contents (Elt F)),
    StableHlo.unary main_arg6 main_v77 (broadcastInDim S1x3 ![1] bcast_S3_S1x3_1 : (⟨S3, .f32⟩ : BufTy).Contents (Elt F) → (⟨S1x3, .f32⟩ : BufTy).Contents (Elt F)),
    StableHlo.unary main_v77 main_v78 (broadcastInDim S200000x3 ![0, 1] bcast_S1x3_S200000x3_0_1 : (⟨S1x3, .f32⟩ : BufTy).Contents (Elt F) → (⟨S200000x3, .f32⟩ : BufTy).Contents (Elt F)),
    StableHlo.binary main_v76 main_v78 main_v79 (addf : (⟨S200000x3, .f32⟩ : BufTy).Contents (Elt F) → (⟨S200000x3, .f32⟩ : BufTy).Contents (Elt F) → (⟨S200000x3, .f32⟩ : BufTy).Contents (Elt F)) ]

/-- Operations 120–134: the log-softmax function's fifteen operations. -/
abbrev opsG : List (HloOp τ sig (Elt F)) :=
  [ StableHlo.TRef.nullary main_call2.cst (constant S_ .f32 0xFF800000#32),
    StableHlo.TRef.binary (.of main_v79 : StableHlo.TRef sig ⟨S200000x3, .f32⟩) main_call2.cst main_call2.v0 (fun x v => Host.reduce FloatOps.maximumf x v reducesTo_S200000x3_S200000_d1 h_S_),
    StableHlo.TRef.nullary main_call2.cst_0 (constant S_ .f32 0xFF800000#32),
    StableHlo.TRef.unary main_call2.cst_0 main_call2.v1 (broadcastInDim S200000 ![] bcast_S_S200000),
    StableHlo.TRef.binary main_call2.v1 main_call2.v0 main_call2.v2 maximumf,
    StableHlo.TRef.unary main_call2.v2 main_call2.v3 (broadcastInDim S200000x1 ![0] bcast_S200000_S200000x1_0),
    StableHlo.TRef.unary main_call2.v3 main_call2.v4 (broadcastInDim S200000x3 ![0, 1] bcast_S200000x1_S200000x3_0_1),
    StableHlo.TRef.binary (.of main_v79 : StableHlo.TRef sig ⟨S200000x3, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S200000x3_S200000_d1 h_S_),
    StableHlo.TRef.unary main_call2.v7 main_call2.v8 (broadcastInDim S200000x1 ![0] bcast_S200000_S200000x1_0),
    StableHlo.TRef.unary main_call2.v8 main_call2.v9 Host.log,
    StableHlo.TRef.unary main_call2.v9 main_call2.v10 (broadcastInDim S200000x3 ![0, 1] bcast_S200000x1_S200000x3_0_1),
    StableHlo.TRef.binary main_call2.v5 main_call2.v10 main_call2.v11 subf ]

/-- The references stretch A writes. -/
abbrev opsA_W : List (Ref sig .tc) := [main_v0, main_v1, main_v2, main_v3, main_v4, main_v5, main_v6]
theorem opsA_writes : (opsA : List (HloOp τ sig (Elt F))).Forall fun op => op.writes ⊆ (opsA_W.map (Proc.devRef (τ := τ) .tc)).toFinset := by
  simp only [List.Forall]
  repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
/-- Stretch A leaves every reference it does not write as it was. -/
theorem opsA_frame (W : Valuation τ sig (Elt F)) (r : Ref sig .tc) (h : r ∉ opsA_W) :
    StableHlo.after opsA W (Proc.devRef .tc r) = W (Proc.devRef .tc r) :=
  StableHlo.after_of_writes_sub opsA W opsA_writes h

/-- The references stretch B writes. -/
abbrev opsB_W : List (Ref sig .tc) := [main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27]
theorem opsB_writes : (opsB : List (HloOp τ sig (Elt F))).Forall fun op => op.writes ⊆ (opsB_W.map (Proc.devRef (τ := τ) .tc)).toFinset := by
  simp only [List.Forall]
  repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
/-- Stretch B leaves every reference it does not write as it was. -/
theorem opsB_frame (W : Valuation τ sig (Elt F)) (r : Ref sig .tc) (h : r ∉ opsB_W) :
    StableHlo.after opsB W (Proc.devRef .tc r) = W (Proc.devRef .tc r) :=
  StableHlo.after_of_writes_sub opsB W opsB_writes h

/-- The references stretch C writes. -/
abbrev opsC_W : List (Ref sig .tc) := [main_v28, main_c_4, main_v29, main_v30, main_c_5, main_v31, main_v32, main_v33, main_v34, main_v35, main_v36, main_v37, main_cst_6, main_v38, main_v39, main_v40, main_v41, main_v42, main_v43]
theorem opsC_writes : (opsC : List (HloOp τ sig (Elt F))).Forall fun op => op.writes ⊆ (opsC_W.map (Proc.devRef (τ := τ) .tc)).toFinset := by
  simp only [List.Forall]
  repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
/-- Stretch C leaves every reference it does not write as it was. -/
theorem opsC_frame (W : Valuation τ sig (Elt F)) (r : Ref sig .tc) (h : r ∉ opsC_W) :
    StableHlo.after opsC W (Proc.devRef .tc r) = W (Proc.devRef .tc r) :=
  StableHlo.after_of_writes_sub opsC W opsC_writes h

/-- The references stretch D writes. -/
abbrev opsD_W : List (Ref sig .tc) := [main_cst_7, main_v44, main_cst_8, main_v45, main_v46, main_c_9, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
theorem opsD_writes : (opsD : List (HloOp τ sig (Elt F))).Forall fun op => op.writes ⊆ (opsD_W.map (Proc.devRef (τ := τ) .tc)).toFinset := by
  simp only [List.Forall]
  repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
/-- Stretch D leaves every reference it does not write as it was. -/
theorem opsD_frame (W : Valuation τ sig (Elt F)) (r : Ref sig .tc) (h : r ∉ opsD_W) :
    StableHlo.after opsD W (Proc.devRef .tc r) = W (Proc.devRef .tc r) :=
  StableHlo.after_of_writes_sub opsD W opsD_writes h

/-- The references stretch E writes. -/
abbrev opsE_W : List (Ref sig .tc) := [main_v48, main_v49, main_v50, main_cst_10, main_v51, main_v52, main_v53, main_v54, main_v55, main_v56, main_v57, main_v58, main_v59, main_v60, main_v61, main_v62, main_call1.cst.ref, main_call1.v0.ref, main_call1.v1.ref]
theorem opsE_writes : (opsE : List (HloOp τ sig (Elt F))).Forall fun op => op.writes ⊆ (opsE_W.map (Proc.devRef (τ := τ) .tc)).toFinset := by
  simp only [List.Forall]
  repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
/-- Stretch E leaves every reference it does not write as it was. -/
theorem opsE_frame (W : Valuation τ sig (Elt F)) (r : Ref sig .tc) (h : r ∉ opsE_W) :
    StableHlo.after opsE W (Proc.devRef .tc r) = W (Proc.devRef .tc r) :=
  StableHlo.after_of_writes_sub opsE W opsE_writes h

/-- The references stretch F writes. -/
abbrev opsF_W : List (Ref sig .tc) := [main_v64, main_c_11, main_v65, main_v66, main_c_12, main_v67, main_v68, main_v69, main_v70, main_v71, main_v72, main_v73, main_cst_13, main_v74, main_v75, main_v76, main_v77, main_v78, main_v79]
theorem opsF_writes : (opsF : List (HloOp τ sig (Elt F))).Forall fun op => op.writes ⊆ (opsF_W.map (Proc.devRef (τ := τ) .tc)).toFinset := by
  simp only [List.Forall]
  repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
/-- Stretch F leaves every reference it does not write as it was. -/
theorem opsF_frame (W : Valuation τ sig (Elt F)) (r : Ref sig .tc) (h : r ∉ opsF_W) :
    StableHlo.after opsF W (Proc.devRef .tc r) = W (Proc.devRef .tc r) :=
  StableHlo.after_of_writes_sub opsF W opsF_writes h

/-- The references stretch G writes. -/
abbrev opsG_W : List (Ref sig .tc) := [main_call2.cst.ref, main_call2.v0.ref, main_call2.cst_0.ref, main_call2.v1.ref, main_call2.v2.ref, main_call2.v3.ref, main_call2.v4.ref, main_call2.v5.ref, main_call2.v6.ref, main_call2.cst_1.ref, main_call2.v7.ref, main_call2.v8.ref, main_call2.v9.ref, main_call2.v10.ref, main_call2.v11.ref]
theorem opsG_writes : (opsG : List (HloOp τ sig (Elt F))).Forall fun op => op.writes ⊆ (opsG_W.map (Proc.devRef (τ := τ) .tc)).toFinset := by
  simp only [List.Forall]
  repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
/-- Stretch G leaves every reference it does not write as it was. -/
theorem opsG_frame (W : Valuation τ sig (Elt F)) (r : Ref sig .tc) (h : r ∉ opsG_W) :
    StableHlo.after opsG W (Proc.devRef .tc r) = W (Proc.devRef .tc r) :=
  StableHlo.after_of_writes_sub opsG W opsG_writes h

/-- Two lines run one after the other: the second from what the first leaves. -/
private theorem after_append : ∀ (l₁ l₂ : List (HloOp τ sig (Elt F))) (V : Valuation τ sig (Elt F)),
    after (l₁ ++ l₂) V = after l₂ (after l₁ V)
  | [], _, _ => rfl
  | op :: l₁, l₂, V => by
    rw [List.cons_append, StableHlo.after_cons, StableHlo.after_cons, after_append l₁ l₂]

/-- The line is its seven stretches in a row. -/
theorem ops_split : (ops : List (HloOp τ sig (Elt F))) = opsA ++ (opsB ++ (opsC ++ (opsD ++ (opsE ++ (opsF ++ opsG))))) := rfl

/-- The contents after the whole line: the stretches' folds composed. -/
theorem after_ops (V : Valuation τ sig (Elt F)) :
    after ops V = after opsG (after opsF (after opsE (after opsD (after opsC (after opsB (after opsA V)))))) := by
  rw [ops_split]
  simp only [after_append]

/-- A reference no stretch writes ends as it started. -/
theorem ops_frame (V : Valuation τ sig (Elt F)) (r : Ref sig .tc)
    (hA : r ∉ opsA_W) (hB : r ∉ opsB_W) (hC : r ∉ opsC_W) (hD : r ∉ opsD_W) (hE : r ∉ opsE_W) (hF : r ∉ opsF_W) (hG : r ∉ opsG_W) :
    after ops V (Proc.devRef .tc r) = V (Proc.devRef .tc r) := by
  rw [after_ops]
  exact (opsG_frame _ r hG).trans <| (opsF_frame _ r hF).trans <| (opsE_frame _ r hE).trans <| (opsD_frame _ r hD).trans <|
    (opsC_frame _ r hC).trans <| (opsB_frame _ r hB).trans (opsA_frame _ r hA)

/-- Contents moved to a typed reference's own buffer type and back are the contents. -/
private theorem ofBuf_toBuf {Val : EltTy → Type} {T : BufTy} (x : StableHlo.TRef sig T) (v : T.Contents Val) :
    x.ofBuf (x.toBuf v) = v := by
  simp only [StableHlo.TRef.ofBuf, StableHlo.TRef.toBuf, cast_cast, cast_eq]

end Line

/-! ## What each stretch computes

Each stretch's results as terms of the few arrays it reads, over any contents `W` of the buffers at its start. -/

section Values

open Cert.ReferenceIdeal.Terms

variable (W : Valuation τ sig (Elt Ideal))

/-- Sources with the self-loops appended: row 0 of the edge list, then the node ids. -/
theorem A_v3 : after opsA W (main_v3 : DevRef τ sig) = src (W (main_arg7 : DevRef τ sig)) := by
  after_results
  rfl

/-- Targets with the self-loops appended: row 1 of the edge list, then the node ids. -/
theorem A_v6 : after opsA W (main_v6 : DevRef τ sig) = dst (W (main_arg7 : DevRef τ sig)) := by
  after_results
  rfl

/-- The edge weights dinv[src] · dinv[dst], as a column. -/
theorem B_v27 (ei : IVec S2x6400000 32) (h3 : W (main_v3 : DevRef τ sig) = src ei) (h6 : W (main_v6 : DevRef τ sig) = dst ei) :
    after opsB W (main_v27 : DevRef τ sig) = edgeWeight ei := by
  after_results_simp
  rw [h3, h6]
  rfl

/-- The first layer: transform, aggregate over the edges, add the bias. -/
theorem C_v43 (ei : IVec S2x6400000 32) (h3 : W (main_v3 : DevRef τ sig) = src ei) (h6 : W (main_v6 : DevRef τ sig) = dst ei)
    (h27 : W (main_v27 : DevRef τ sig) = edgeWeight ei) :
    after opsC W (main_v43 : DevRef τ sig)
      = layer1 (W (main_arg0 : DevRef τ sig)) (W (main_arg1 : DevRef τ sig)) (W (main_arg2 : DevRef τ sig)) ei := by
  after_results_simp
  rw [h3, h6, h27]
  rfl

/-- The batch mean per feature. -/
theorem D_v46 : after opsD W (main_v46 : DevRef τ sig) = mean (W (main_v43 : DevRef τ sig)) := by
  after_results_simp
  rfl

/-- The batch variance per feature, two passes, under its guard. -/
theorem D_v47 : after opsD W (main_v47 : DevRef τ sig) = variance (W (main_v43 : DevRef τ sig)) := by
  after_results_simp
  rfl

/-- Normalise, scale, shift, rectify. -/
theorem E_v63 (h46 : W (main_v46 : DevRef τ sig) = mean (W (main_v43 : DevRef τ sig)))
    (h47 : W (main_v47 : DevRef τ sig) = variance (W (main_v43 : DevRef τ sig))) :
    after opsE W (main_v63 : DevRef τ sig)
      = activated (W (main_v43 : DevRef τ sig)) (W (main_arg3 : DevRef τ sig)) (W (main_arg4 : DevRef τ sig)) := by
  after_results_simp
  rw [h46, h47]
  rfl

/-- The second layer: transform, aggregate over the edges, add the bias. -/
theorem F_v79 (ei : IVec S2x6400000 32) (h3 : W (main_v3 : DevRef τ sig) = src ei) (h6 : W (main_v6 : DevRef τ sig) = dst ei)
    (h27 : W (main_v27 : DevRef τ sig) = edgeWeight ei) :
    after opsF W (main_v79 : DevRef τ sig)
      = addf (aggO ei (Host.dotGeneral (φ₁ := .f32) (φ₂ := .f32) dot_S200000x16_S16x3_S200000x3_1_0_0_1_n_n none
            (W (main_v63 : DevRef τ sig)) (W (main_arg5 : DevRef τ sig))))
          (downO (W (main_arg6 : DevRef τ sig))) := by
  after_results_simp
  rw [h3, h6, h27]
  rfl

/-- Row-wise log-softmax. -/
theorem G_v80 : after opsG W (main_v80 : DevRef τ sig) = logSoftmax (W (main_v79 : DevRef τ sig)) := by
  after_results_simp
  simp only [ofBuf_toBuf]
  rfl

end Values

/-! ## The result -/

section Result

open Cert.ReferenceIdeal.Terms

variable (V : Valuation τ sig (Elt Ideal))

/-- The contents after stretches A, A–B, … , A–F. -/
abbrev W1 : Valuation τ sig (Elt Ideal) := after opsA V
abbrev W2 : Valuation τ sig (Elt Ideal) := after opsB (W1 V)
abbrev W3 : Valuation τ sig (Elt Ideal) := after opsC (W2 V)
abbrev W4 : Valuation τ sig (Elt Ideal) := after opsD (W3 V)
abbrev W5 : Valuation τ sig (Elt Ideal) := after opsE (W4 V)
abbrev W6 : Valuation τ sig (Elt Ideal) := after opsF (W5 V)

/-- The result buffer after the whole line is the operations' composed term of the arguments: each stretch's value
    lemma fed the values the stretches before it left, the references in between carried by the frame lemmas. -/
theorem out_eq : after ops V (main_v80 : DevRef τ sig) = value (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  -- sources, targets and edge weights, carried to where they are read
  have a3 : W1 V (main_v3 : DevRef τ sig) = src (V (main_arg7 : DevRef τ sig)) := A_v3 V
  have a6 : W1 V (main_v6 : DevRef τ sig) = dst (V (main_arg7 : DevRef τ sig)) := A_v6 V
  have b3 : W2 V (main_v3 : DevRef τ sig) = src (V (main_arg7 : DevRef τ sig)) := (opsB_frame _ main_v3 (by decide)).trans a3
  have b6 : W2 V (main_v6 : DevRef τ sig) = dst (V (main_arg7 : DevRef τ sig)) := (opsB_frame _ main_v6 (by decide)).trans a6
  have b27 : W2 V (main_v27 : DevRef τ sig) = edgeWeight (V (main_arg7 : DevRef τ sig)) := B_v27 (W1 V) _ a3 a6
  have e3 : W5 V (main_v3 : DevRef τ sig) = src (V (main_arg7 : DevRef τ sig)) :=
    (opsE_frame _ main_v3 (by decide)).trans <| (opsD_frame _ main_v3 (by decide)).trans <| (opsC_frame _ main_v3 (by decide)).trans b3
  have e6 : W5 V (main_v6 : DevRef τ sig) = dst (V (main_arg7 : DevRef τ sig)) :=
    (opsE_frame _ main_v6 (by decide)).trans <| (opsD_frame _ main_v6 (by decide)).trans <| (opsC_frame _ main_v6 (by decide)).trans b6
  have e27 : W5 V (main_v27 : DevRef τ sig) = edgeWeight (V (main_arg7 : DevRef τ sig)) :=
    (opsE_frame _ main_v27 (by decide)).trans <| (opsD_frame _ main_v27 (by decide)).trans <| (opsC_frame _ main_v27 (by decide)).trans b27
  -- the arguments where they are read
  have x0 : W2 V (main_arg0 : DevRef τ sig) = V (main_arg0 : DevRef τ sig) := (opsB_frame _ main_arg0 (by decide)).trans (opsA_frame _ main_arg0 (by decide))
  have x1 : W2 V (main_arg1 : DevRef τ sig) = V (main_arg1 : DevRef τ sig) := (opsB_frame _ main_arg1 (by decide)).trans (opsA_frame _ main_arg1 (by decide))
  have x2 : W2 V (main_arg2 : DevRef τ sig) = V (main_arg2 : DevRef τ sig) := (opsB_frame _ main_arg2 (by decide)).trans (opsA_frame _ main_arg2 (by decide))
  have x3 : W4 V (main_arg3 : DevRef τ sig) = V (main_arg3 : DevRef τ sig) :=
    (opsD_frame _ main_arg3 (by decide)).trans <| (opsC_frame _ main_arg3 (by decide)).trans <| (opsB_frame _ main_arg3 (by decide)).trans (opsA_frame _ main_arg3 (by decide))
  have x4 : W4 V (main_arg4 : DevRef τ sig) = V (main_arg4 : DevRef τ sig) :=
    (opsD_frame _ main_arg4 (by decide)).trans <| (opsC_frame _ main_arg4 (by decide)).trans <| (opsB_frame _ main_arg4 (by decide)).trans (opsA_frame _ main_arg4 (by decide))
  have x5 : W5 V (main_arg5 : DevRef τ sig) = V (main_arg5 : DevRef τ sig) :=
    (opsE_frame _ main_arg5 (by decide)).trans <| (opsD_frame _ main_arg5 (by decide)).trans <| (opsC_frame _ main_arg5 (by decide)).trans <| (opsB_frame _ main_arg5 (by decide)).trans (opsA_frame _ main_arg5 (by decide))
  have x6 : W5 V (main_arg6 : DevRef τ sig) = V (main_arg6 : DevRef τ sig) :=
    (opsE_frame _ main_arg6 (by decide)).trans <| (opsD_frame _ main_arg6 (by decide)).trans <| (opsC_frame _ main_arg6 (by decide)).trans <| (opsB_frame _ main_arg6 (by decide)).trans (opsA_frame _ main_arg6 (by decide))
  -- the first layer, its statistics, the activation, the second layer
  have c43 : W3 V (main_v43 : DevRef τ sig) = layer1 (V (main_arg0 : DevRef τ sig)) (V (main_arg1 : DevRef τ sig)) (V (main_arg2 : DevRef τ sig)) (V (main_arg7 : DevRef τ sig)) := by
    have h := C_v43 (W2 V) _ b3 b6 b27
    rw [x0, x1, x2] at h
    exact h
  have d43 : W4 V (main_v43 : DevRef τ sig) = W3 V (main_v43 : DevRef τ sig) := opsD_frame _ main_v43 (by decide)
  have d46 : W4 V (main_v46 : DevRef τ sig) = mean (W4 V (main_v43 : DevRef τ sig)) := by rw [d43]; exact D_v46 (W3 V)
  have d47 : W4 V (main_v47 : DevRef τ sig) = variance (W4 V (main_v43 : DevRef τ sig)) := by rw [d43]; exact D_v47 (W3 V)
  have e63 : W5 V (main_v63 : DevRef τ sig)
      = activated (layer1 (V (main_arg0 : DevRef τ sig)) (V (main_arg1 : DevRef τ sig)) (V (main_arg2 : DevRef τ sig)) (V (main_arg7 : DevRef τ sig))) (V (main_arg3 : DevRef τ sig)) (V (main_arg4 : DevRef τ sig)) := by
    have h := E_v63 (W4 V) d46 d47
    rw [d43, c43, x3, x4] at h
    exact h
  have f79 := F_v79 (W5 V) _ e3 e6 e27
  rw [e63, x5, x6] at f79
  have g80 : after opsG (W6 V) (main_v80 : DevRef τ sig) = logSoftmax (after opsF (W5 V) (main_v79 : DevRef τ sig)) := G_v80 (W6 V)
  rw [f79] at g80
  rw [after_ops]
  exact g80

end Result

variable (m : (ℓ : Loc nD τ sig) → Buf (Elt Ideal) ℓ) (ρ : Dev nD → PrngReg)

/-- The run: it terminates, nothing faults, the result is the composed term and the arguments end as launched. -/
theorem run : θ_run (defs (F := Ideal)) (onTc (τ := τ) (main (F := Ideal))) ⟨m, fun _ => 0, ρ⟩ (fun r => ∀ c : Dev nD,
      (r.2.mem ((c.tc : Thread nD τ).loc main_v80) : S200000x3.Idx → EReal)
        = Cert.ReferenceIdeal.Terms.value (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c => ⟨(h c main_v80).trans (out_eq _),
      (h c main_arg0).trans (ops_frame _ main_arg0 (by decide) (by decide) (by decide) (by decide) (by decide) (by decide) (by decide)),
      (h c main_arg1).trans (ops_frame _ main_arg1 (by decide) (by decide) (by decide) (by decide) (by decide) (by decide) (by decide)),
      (h c main_arg2).trans (ops_frame _ main_arg2 (by decide) (by decide) (by decide) (by decide) (by decide) (by decide) (by decide)),
      (h c main_arg3).trans (ops_frame _ main_arg3 (by decide) (by decide) (by decide) (by decide) (by decide) (by decide) (by decide)),
      (h c main_arg4).trans (ops_frame _ main_arg4 (by decide) (by decide) (by decide) (by decide) (by decide) (by decide) (by decide)),
      (h c main_arg5).trans (ops_frame _ main_arg5 (by decide) (by decide) (by decide) (by decide) (by decide) (by decide) (by decide)),
      (h c main_arg6).trans (ops_frame _ main_arg6 (by decide) (by decide) (by decide) (by decide) (by decide) (by decide) (by decide)),
      (h c main_arg7).trans (ops_frame _ main_arg7 (by decide) (by decide) (by decide) (by decide) (by decide) (by decide) (by decide))⟩)
    (StableHlo.run_seq scopedRefs_eq scopedSems_eq defs main (fun _ => ops) main_eq (fun _ => ops_sub) m ρ)

end Cert.ReferenceIdeal.RefRun

end
-- ==== Proof.LibRealArith.lean ====
/-
  Extended reals that are real numbers, and the variance identity over them.

  An extended real is REAL when it is the image of a real number. Sums, differences, products and finite sums of real
  extended reals are real, and so are a quotient by a nonzero real and the reciprocal square root of a positive real.
  On a finite family of real extended reals the two-pass variance, the mean of the squared deviations from the mean, is
  the one-pass variance, the mean of the squares minus the square of the mean: the identity needs every entry real,
  because distributivity fails at the infinities.
-/
import Idealize.ShloMosaic.PureOps.Ideal

noncomputable section

open scoped BigOperators

namespace Idealize.ShloMosaic.RealArith

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))
/-- A quotient by a nonzero real. -/
theorem IsReal.div_coe {x : EReal} (hx : IsReal x) {y : ℝ} (hy : y ≠ 0) : IsReal (Ideal.div x (y : EReal)) := by
  rw [Ideal.div_coe hy]
  exact hx.mul (IsReal.coe _)
/-- The reciprocal square root of a positive real. -/
theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact IsReal.coe _
/-- The coercion of the reals into the extended reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A natural number, as an extended real: the sum of that many ones. -/
theorem sum_one_eq_card {ι : Type*} (s : Finset ι) : (∑ _i ∈ s, (1 : EReal)) = ((s.card : ℝ) : EReal) := by
  have h := coe_sum s (fun _ => (1 : ℝ))
  rw [Finset.sum_const, nsmul_eq_mul, mul_one] at h
  rw [h]
  simp
/-- The float word of one is one; of zero, zero; of 200000.0, 200000. -/
theorem ofBits_one : Ideal.ofBits .f32 0x3F800000#32 = 1 := by
  simp [Ideal.ofBits, Ideal.ieee, -EReal.coe_mul]
  norm_num
theorem ofBits_zero : Ideal.ofBits .f32 0x00000000#32 = 0 := by
  simp [Ideal.ofBits, Ideal.ieee]
theorem ofBits_200000 : Ideal.ofBits .f32 0x48435000#32 = ((200000 : ℝ) : EReal) := by
  simp [Ideal.ofBits, Ideal.ieee, -EReal.coe_mul]
  norm_num

/-- THE VARIANCE IDENTITY. For a finite family of real extended reals and a nonzero real divisor n (any n: the
    identity holds as soon as n is the family's cardinality), with μ = (Σ h) / n:
    (Σ (h − μ)·(h − μ)) / n = (Σ h·h) / n − μ·μ. -/
theorem variance_two_pass_eq {ι : Type*} [Fintype ι] (h : ι → EReal) (hr : ∀ i, IsReal (h i)) (n : ℝ) (hn : n ≠ 0)
    (hcard : (Fintype.card ι : ℝ) = n) :
    Ideal.div (∑ i, (h i - Ideal.div (∑ j, h j) (n : EReal)) * (h i - Ideal.div (∑ j, h j) (n : EReal))) (n : EReal)
      = Ideal.div (∑ i, h i * h i) (n : EReal) - Ideal.div (∑ j, h j) (n : EReal) * Ideal.div (∑ j, h j) (n : EReal) := by
  -- every entry is the image of a real number
  choose g hg using hr
  obtain rfl : h = fun i => (g i : EReal) := funext hg
  -- a quotient by n is the product with 1/n; then both sides are images of real numbers
  simp only [Ideal.div_coe hn]
  simp only [← coe_sum, ← EReal.coe_mul, ← EReal.coe_sub]
  congr 1
  -- the identity among the reals: Σ (g − μ)² = Σ g² − 2 μ Σ g + n μ²
  have hexp : ∀ μ : ℝ, ∑ i, (g i - μ) * (g i - μ)
      = (∑ i, g i * g i) - 2 * μ * (∑ i, g i) + n * (μ * μ) := by
    intro μ
    have hsq : ∀ i, (g i - μ) * (g i - μ) = g i * g i - 2 * μ * g i + μ * μ := fun i => by ring
    simp only [hsq, Finset.sum_add_distrib, Finset.sum_sub_distrib, ← Finset.mul_sum, Finset.sum_const,
      Finset.card_univ, nsmul_eq_mul, hcard]
    ring
  rw [hexp]
  field_simp
  ring

end Idealize.ShloMosaic.RealArith

end
-- ==== Proof.PreReal.lean ====
/-
  Under the precondition the float arguments are real.

  The precondition says, of every float argument, that all its entries have absolute value below +∞ (a conjunction
  of seven "all" reductions). An extended real whose absolute value is below +∞ is neither +∞ nor −∞: it is a real
  number. Only the three arrays the variance identity needs are stated: the features, the first weights, the first bias.
-/
import proofs.«130263_j59150289600863_1_alg».proof.Defs
import proofs.«130263_j59150289600863_1_alg».proof.Proof.Gen.Pre_finite_inputs
import proofs.«130263_j59150289600863_1_alg».proof.Proof.LibRealArith
import Idealize.ShloMosaic.Lib.ReduceAll
import Idealize.ShloMosaic.Lib.ValueIdx

noncomputable section

namespace Cert.Bridge

open Idealize.ShloMosaic Idealize.ShloMosaic.ValueIdx Idealize.ShloMosaic.RealArith Idealize.SL.Sem

/-- An extended real whose absolute value is below +∞ is neither infinity: it is a real number. -/
private theorem isReal_of_abs_lt_inf {x : EReal}
    (hx : Ideal.cmp .olt (max x (-x)) (Ideal.ofBits .f32 0x7F800000#32) = 1#1) : IsReal x := by
  have hinf : Ideal.ofBits .f32 0x7F800000#32 = (⊤ : EReal) := by simp [Ideal.ofBits, Ideal.ieee]
  rw [hinf] at hx
  induction x using EReal.rec with
  | bot => simp [Ideal.cmp] at hx
  | coe r => exact IsReal.coe r
  | top => simp [Ideal.cmp] at hx

/-- One "all" reduction of the precondition: if every entry's absolute value compares below +∞, every entry is real. -/
private theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1) (i : s.Idx) : IsReal (x i) := by
  haveI : Subsingleton Cert.Pre_finite_inputs.S_.Idx := ⟨fun a b => funext fun d => d.elim0⟩
  exact isReal_of_abs_lt_inf (Host.reduce_andi_all _ _ hr hu ix0 e i)

/-- Under the precondition, the features, the first layer's weights and its bias hold real numbers. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0) : Cert.KernelIdeal.S200000x256.Idx → EReal) i))
    ∧ (∀ i, IsReal ((m ((c.tc : Thread Cert.KernelIdeal.nD Cert.KernelIdeal.τ).loc Cert.KernelIdeal.main_arg1) : Cert.KernelIdeal.S256x16.Idx → EReal) i))
    ∧ (∀ i, IsReal ((m ((c.tc : Thread Cert.KernelIdeal.nD Cert.KernelIdeal.τ).loc Cert.KernelIdeal.main_arg2) : Cert.KernelIdeal.S16.Idx → EReal) i)) := by
  -- the precondition at the one index of its rank-0 result, its chain of operations in view
  have h0 := congrFun (h c) ValueIdx.ix0
  dsimp only [Cert.Pre_finite_inputs.fn, Cert.Pre_finite_inputs.fn_part1] at h0
  -- the conjunction of the seven reductions, left-nested: peel the last four, keep the first three
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, a2⟩ := IntOp.andi_eq_one.1 h4
  obtain ⟨a0, a1⟩ := IntOp.andi_eq_one.1 h5
  exact ⟨real_of_all _ _ _ _ a0, real_of_all _ _ _ _ a1, real_of_all _ _ _ _ a2⟩

end Cert.Bridge

end
-- ==== Proof.BridgeAgg.lean ====
/-
  The sparse part is shared, and it keeps real numbers real.

  Degrees, edge weights and the two neighbour aggregations are the same host operations in both programs, so the two
  transcriptions are one function. Every node's degree is a positive natural number: the self-loop of node v is the
  edge at position E + v, whose target is v itself (an in-range index, never dropped), so at least one update lands on
  v, and every update is 1. Hence deg^(-1/2) is a positive real, every edge weight is real, and the aggregation of a
  real matrix — at each entry zero plus a finite sum of (gathered entry × edge weight) over the edges landing there, a
  gathered entry being an entry of the operand whatever the start index (it is clamped) — is real.
-/
import proofs.«130263_j59150289600863_1_alg».proof.Proof.KTerms
import proofs.«130263_j59150289600863_1_alg».proof.Proof.RTerms
import proofs.«130263_j59150289600863_1_alg».proof.Proof.LibRealArith
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx Idealize.ShloMosaic.RealArith

/-- A broadcast reads an entry of its operand: it keeps real numbers real. -/
private theorem real_broadcastInDim {s t : Shape} (dims : Fin s.rank → Fin t.rank) (h : s.BroadcastsInDim t dims)
    (x : FVec Ideal s .f32) (hx : ∀ k, IsReal (x k)) (j : t.Idx) : IsReal (broadcastInDim t dims h x j) := by
  unfold broadcastInDim
  exact hx _

/-- The float word of zero, broadcast from a scalar, is the real number zero everywhere. -/
private theorem real_zeros {t : Shape} (h : Cert.ReferenceIdeal.S_.BroadcastsInDim t ![]) (j : t.Idx) :
    IsReal (broadcastInDim t ![] h (constant (F := Ideal) Cert.ReferenceIdeal.S_ .f32 0x00000000#32) j) := by
  refine real_broadcastInDim _ _ _ (fun k => ?_) j
  show IsReal (Ideal.ofBits .f32 0x00000000#32)
  rw [ofBits_zero]
  exact IsReal.zero

/-- A product of real arrays is real. -/
private theorem real_mulf {s : Shape} (a b : FVec Ideal s .f32) (ha : ∀ i, IsReal (a i)) (hb : ∀ i, IsReal (b i))
    (i : s.Idx) : IsReal (mulf a b i) :=
  IsReal.mul (ha i) (hb i)

/-- A gathered entry is an entry of the operand, whatever the start index. -/
private theorem real_gather {s si t : Shape} {w : Nat} (d : GatherDims s si t) (x : FVec Ideal s .f32) (idx : IVec si w)
    (hx : ∀ i, IsReal (x i)) (j : t.Idx) : IsReal (Host.gather d x idx j) :=
  hx _

/-- The reciprocal square root of a positive real array is real. -/
private theorem real_rsqrt {s : Shape} (x : FVec Ideal s .f32) (hx : ∀ i, IsReal (x i) ∧ 0 < x i) (i : s.Idx) :
    IsReal (Host.rsqrt x i) :=
  IsReal.rsqrt_of_pos (hx i).1 (hx i).2

/-- An accumulating scatter of real updates into a real operand is real: at each entry the operand's entry plus a
    finite sum of updates. -/
private theorem real_scatterAdd {s si su : Shape} {w : Nat} (d : ScatterDims s si su) (x : FVec Ideal s .f32)
    (idx : IVec si w) (upd : FVec Ideal su .f32) (hx : ∀ i, IsReal (x i)) (hu : ∀ j, IsReal (upd j)) (i : s.Idx) :
    IsReal (Host.scatterAdd d x idx upd i) := by
  change IsReal (Ideal.hostScatterAdd d x idx upd i)
  unfold Ideal.hostScatterAdd
  exact (hx i).add (IsReal.sum _ _ fun j _ => hu j)

/-- An accumulating scatter of ones into zeros counts, at each entry, the updates landing there: a natural number,
    positive as soon as one update lands. -/
private theorem scatterAdd_count {s si su : Shape} {w : Nat} (d : ScatterDims s si su) (x : FVec Ideal s .f32)
    (idx : IVec si w) (upd : FVec Ideal su .f32) (hx : ∀ i, x i = 0) (hu : ∀ j, upd j = 1) (i : s.Idx) (j₀ : su.Idx)
    (hj₀ : d.resultIdx? j₀ idx = some i) :
    IsReal (Host.scatterAdd d x idx upd i) ∧ 0 < Host.scatterAdd d x idx upd i := by
  change IsReal (Ideal.hostScatterAdd d x idx upd i) ∧ 0 < Ideal.hostScatterAdd d x idx upd i
  unfold Ideal.hostScatterAdd
  rw [hx i, zero_add, Finset.sum_congr rfl (fun j _ => hu j), sum_one_eq_card]
  exact ⟨IsReal.coe _, EReal.coe_pos.2 (Nat.cast_pos.2 (Finset.card_pos.2
    ⟨j₀, Finset.mem_filter.2 ⟨Finset.mem_univ _, hj₀⟩⟩))⟩

/-- The 16-feature aggregation is the same function in both programs. -/
theorem aggH_eq (ei : IVec Cert.ReferenceIdeal.S2x6400000 32) (M : FVec Ideal Cert.ReferenceIdeal.S200000x16 .f32) :
    Cert.KernelIdeal.Terms.aggH ei M = Cert.ReferenceIdeal.Terms.aggH ei M := by
  rfl

/-- The 3-class aggregation is the same function in both programs. -/
theorem aggO_eq (ei : IVec Cert.ReferenceIdeal.S2x6400000 32) (M : FVec Ideal Cert.ReferenceIdeal.S200000x3 .f32) :
    Cert.KernelIdeal.Terms.aggO ei M = Cert.ReferenceIdeal.Terms.aggO ei M := by
  rfl

section Degree

open Cert.ReferenceIdeal Cert.ReferenceIdeal.Facts₀ Cert.ReferenceIdeal.Facts Cert.ReferenceIdeal.Terms

/-- The degree scatter has no window: the operand's one axis is inserted. -/
private theorem deg_window (j : S6600000.Idx) (a : Fin S200000.rank) :
    scatter_S200000_S6600000x1_S6600000_n_0_0_1.window j a = 0 := by
  unfold ScatterDims.window
  rw [dif_neg]
  intro h
  revert h
  have : scatter_S200000_S6600000x1_S6600000_n_0_0_1.sKept = [] := by decide
  rw [this]
  simp

/-- The start of update j on the operand's one axis is the signed reading of the index column at row j. -/
private theorem deg_start (j : S6600000.Idx) (idx : IVec S6600000x1 32) (a : Fin S200000.rank) :
    scatter_S200000_S6600000x1_S6600000_n_0_0_1.start j idx a = (idx (ix2 (j 0) 0)).toInt := by
  obtain rfl : a = 0 := Subsingleton.elim _ _
  unfold ScatterDims.start
  rw [dif_pos (by decide)]
  congr 2
  funext b
  match b with
  | ⟨0, _⟩ => rfl
  | ⟨1, _⟩ => rfl

/-- An update whose index word reads, signed, as the node v lands on v: the index is in range, so nothing is dropped. -/
private theorem deg_lands (j : S6600000.Idx) (idx : IVec S6600000x1 32) (v : S200000.Idx)
    (h : (idx (ix2 (j 0) 0)).toInt = ((v 0).val : Int)) :
    scatter_S200000_S6600000x1_S6600000_n_0_0_1.resultIdx? j idx = some v := by
  have hv : (v 0).val < 200000 := (v 0).isLt
  have key : ∀ a, scatter_S200000_S6600000x1_S6600000_n_0_0_1.start j idx a
      + scatter_S200000_S6600000x1_S6600000_n_0_0_1.window j a = ((v 0).val : Int) := fun a => by
    rw [deg_start, deg_window, h]; simp
  unfold ScatterDims.resultIdx?
  rw [dif_pos (fun a => by
    obtain rfl : a = 0 := Subsingleton.elim _ _
    rw [key]
    show (0 : Int) ≤ ((v 0).val : Int) ∧ ((v 0).val : Int) < ((200000 : Nat) : Int)
    omega)]
  congr 1
  funext a
  obtain rfl : a = 0 := Subsingleton.elim _ _
  apply Fin.ext
  show (scatter_S200000_S6600000x1_S6600000_n_0_0_1.start j idx 0
      + scatter_S200000_S6600000x1_S6600000_n_0_0_1.window j 0).toNat = (v 0).val
  rw [key]
  simp

/-- A node id below 200000, as a 32-bit word, reads signed as itself. -/
private theorem toInt_node (n : Nat) (h : n < 200000) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- The target of the self-loop of node v, the edge at position E + v, is v. -/
private theorem dst_selfLoop (ei : IVec S2x6400000 32) (v : S200000.Idx) (hj : (v 0).val + 6400000 < 6600000) :
    asColumn (dst ei) (ix2 (⟨(v 0).val + 6400000, hj⟩ : Fin 6600000) (0 : Fin 1)) = BitVec.ofNat 32 (v 0).val := by
  unfold asColumn
  refine (broadcastInDim_apply ![0] bcast_S6600000_S6600000x1_0 (dst ei) _
    (ix1 (⟨(v 0).val + 6400000, hj⟩ : Fin 6600000)) (fun a => ?_)).trans ?_
  · obtain rfl : a = 0 := Subsingleton.elim _ _
    show (v 0).val + 6400000 = if (6600000 : Nat) = 1 then 0 else (v 0).val + 6400000
    rw [if_neg (by omega)]
  · unfold dst
    refine (concatenate_pair_apply_right (0 : Fin S6600000.rank) (edgeRow1 ei) selfLoops
      concatenates_S6400000_S200000_S6600000_d0 _ rfl rfl v (fun b hb => ?_) ?_).trans ?_
    · exact absurd (Subsingleton.elim _ _) hb
    · rfl
    · rfl

/-- The float word of zero, broadcast from a scalar, reads zero everywhere; the word of one reads one. -/
private theorem zeros_apply {t : Shape} (h : S_.BroadcastsInDim t ![]) (j : t.Idx) :
    broadcastInDim t ![] h (constant (F := Ideal) S_ .f32 0x00000000#32) j = 0 := by
  unfold broadcastInDim
  exact ofBits_zero
private theorem ones_apply {t : Shape} (h : S_.BroadcastsInDim t ![]) (j : t.Idx) :
    broadcastInDim t ![] h (constant (F := Ideal) S_ .f32 0x3F800000#32) j = 1 := by
  unfold broadcastInDim
  exact ofBits_one

/-- The self-loop of node v, the edge at position E + v, lands on v. -/
private theorem selfLoop_lands (ei : IVec S2x6400000 32) (v : S200000.Idx) (hj : (v 0).val + 6400000 < 6600000) :
    scatter_S200000_S6600000x1_S6600000_n_0_0_1.resultIdx? (ix1 (⟨(v 0).val + 6400000, hj⟩ : Fin 6600000))
      (asColumn (dst ei)) = some v := by
  have hv : (v 0).val < 200000 := (v 0).isLt
  refine deg_lands _ _ v ?_
  show (asColumn (dst ei) (ix2 (⟨(v 0).val + 6400000, hj⟩ : Fin 6600000) (0 : Fin 1))).toInt = _
  rw [dst_selfLoop ei v hj]
  exact toInt_node _ hv

end Degree

/-- Every node's degree is a real number, at least one. -/
theorem deg_pos (ei : IVec Cert.ReferenceIdeal.S2x6400000 32) (v : Cert.ReferenceIdeal.S200000.Idx) :
    IsReal (Cert.ReferenceIdeal.Terms.deg ei v) ∧ 0 < Cert.ReferenceIdeal.Terms.deg ei v := by
  have hv : (v 0).val < 200000 := (v 0).isLt
  have hj : (v 0).val + 6400000 < 6600000 := by omega
  -- the degree of v counts the updates landing on v, and the self-loop of v, the edge at position E + v, is one
  unfold Cert.ReferenceIdeal.Terms.deg
  exact scatterAdd_count _ _ _ _ (zeros_apply _) (ones_apply _) v _ (selfLoop_lands ei v hj)

/-- deg^(-1/2) is real at every node. -/
private theorem dinv_real (ei : IVec Cert.ReferenceIdeal.S2x6400000 32) (v : Cert.ReferenceIdeal.S200000.Idx) :
    IsReal (Cert.ReferenceIdeal.Terms.dinv ei v) := by
  unfold Cert.ReferenceIdeal.Terms.dinv
  exact real_rsqrt _ (deg_pos ei) v

/-- Every edge weight is real. -/
theorem edgeWeight_real (ei : IVec Cert.ReferenceIdeal.S2x6400000 32) (j : Cert.ReferenceIdeal.S6600000x1.Idx) :
    IsReal (Cert.ReferenceIdeal.Terms.edgeWeight ei j) := by
  unfold Cert.ReferenceIdeal.Terms.edgeWeight
  refine real_broadcastInDim _ _ _ (fun k => ?_) j
  exact real_mulf _ _ (real_gather _ _ _ (dinv_real ei)) (real_gather _ _ _ (dinv_real ei)) k

/-- The aggregation of a real matrix is real. -/
theorem aggH_real (ei : IVec Cert.ReferenceIdeal.S2x6400000 32) (M : FVec Ideal Cert.ReferenceIdeal.S200000x16 .f32)
    (hM : ∀ i, IsReal (M i)) (i : Cert.ReferenceIdeal.S200000x16.Idx) : IsReal (Cert.ReferenceIdeal.Terms.aggH ei M i) := by
  unfold Cert.ReferenceIdeal.Terms.aggH
  refine real_scatterAdd _ _ _ _ (fun k => real_zeros _ k) (fun j => ?_) i
  exact real_mulf _ _ (real_gather _ _ _ hM) (real_broadcastInDim _ _ _ (edgeWeight_real ei)) j

end Cert.Bridge

end
-- ==== Proof.BridgeLayer1.lean ====
/-
  The first layer and the batch statistics agree.

  The host's product of x and W1 is the matrix product entry by entry. With A the aggregated features and b the bias,
  H = A + b (the bias repeated down the rows). The mean is the column sum over the node count on both sides. The
  variance is where the two programs differ: one takes the mean of the squared deviations from the mean (guarded by
  "node count minus zero is positive", which holds: 200000 > 0), the other the mean of the squares minus the squared
  mean; on REAL entries the two are equal (the variance identity), and H's entries are real.
-/
import proofs.«130263_j59150289600863_1_alg».proof.Proof.KTerms
import proofs.«130263_j59150289600863_1_alg».proof.Proof.RTerms
import proofs.«130263_j59150289600863_1_alg».proof.Proof.LibRealArith
import proofs.«130263_j59150289600863_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx Idealize.ShloMosaic.RealArith

/-- The host's product is the matrix product. -/
theorem dot1_eq (x : FVec Ideal Cert.ReferenceIdeal.S200000x256 .f32) (W1 : FVec Ideal Cert.ReferenceIdeal.S256x16 .f32) :
    (Host.dotGeneral (F := Ideal) Cert.ReferenceIdeal.dot_S200000x256_S256x16_S200000x16_1_0_0_1_n_n none x W1 : Cert.ReferenceIdeal.S200000x16.Idx → EReal)
      = Cert.Gcn.matProd (n := 200000) (k := 256) (h := 16) x W1 := by
  funext i
  obtain ⟨p, q, rfl⟩ : ∃ p q, i = ix2 p q := ⟨i 0, i 1, eq_ix2 i⟩
  -- the printed dimension numbers are the plain M×K by K×N ones; the host's product has no accumulator, which is
  -- the product accumulated into the zero array
  exact (Ideal.dotGeneral_apply (DotDims.plain 200000 256 16) none .single x W1 (ix2 p q)).trans
    ((Ideal.matmul_constant_zero_apply (DotDims.plain 200000 256 16) none x W1 (ix2 p q)).symm.trans
      (PlainDot.matmul_zero_apply 200000 256 16 x W1 p q))

/-- A product of real matrices is real. -/
theorem matProd_real {n k h : Nat} (a : (⟨2, ![n, k]⟩ : Shape).Idx → EReal) (b : (⟨2, ![k, h]⟩ : Shape).Idx → EReal)
    (ha : ∀ i, IsReal (a i)) (hb : ∀ i, IsReal (b i)) (i : (⟨2, ![n, h]⟩ : Shape).Idx) : IsReal (Cert.Gcn.matProd a b i) := by
  unfold Cert.Gcn.matProd
  exact IsReal.sum _ _ fun j _ => (ha _).mul (hb _)

/-! ## The layout operations of the two programs, read at an entry -/

/-- The host's quotient at an index is the quotient of the elements. -/
private theorem hostDivf_apply {s : Shape} (a b : FVec Ideal s .f32) (i : s.Idx) : Host.divf a b i = Ideal.div (a i) (b i) := rfl

/-- A 16-vector as a 1×16 row, at an entry. -/
theorem rowH_apply (v : FVec Ideal Cert.ReferenceIdeal.S16 .f32) (q : Fin 16) :
    Cert.KernelIdeal.Terms.rowH v (ix2 0 q) = v (ix1 q) :=
  shapeCast_a_1a_apply v _ 0 q

/-- A 16-vector broadcast to a 1×16 row reads, at (0, q), the vector at q. -/
private theorem asRow_apply {α : Type} (v : Cert.ReferenceIdeal.S16.Idx → α)
    (h : Cert.ReferenceIdeal.S16.BroadcastsInDim Cert.ReferenceIdeal.S1x16 ![1]) (q : Fin 16) :
    broadcastInDim Cert.ReferenceIdeal.S1x16 ![1] h v (ix2 0 q) = v (ix1 q) :=
  broadcastInDim_apply _ h v (ix2 (0 : Fin 1) q) (ix1 q) fun a => by
    match a with
    | ⟨0, _⟩ => rfl

/-- A 1×16 row repeated down the 200000 rows reads, at (p, q), the row at (0, q). -/
private theorem down_apply {α : Type} (w : Cert.ReferenceIdeal.S1x16.Idx → α)
    (h : Cert.ReferenceIdeal.S1x16.BroadcastsInDim Cert.ReferenceIdeal.S200000x16 ![0, 1]) (p : Fin 200000) (q : Fin 16) :
    broadcastInDim Cert.ReferenceIdeal.S200000x16 ![0, 1] h w (ix2 p q) = w (ix2 0 q) :=
  broadcastInDim_apply _ h w (ix2 p q) (ix2 (0 : Fin 1) q) fun a => by
    match a with
    | ⟨0, _⟩ => rfl
    | ⟨1, _⟩ => rfl

/-- A scalar repeated along a 16-vector reads the scalar everywhere. -/
private theorem splat16_apply {α : Type} (c : Cert.ReferenceIdeal.S_.Idx → α)
    (h : Cert.ReferenceIdeal.S_.BroadcastsInDim Cert.ReferenceIdeal.S16 ![]) (q : Fin 16) :
    broadcastInDim Cert.ReferenceIdeal.S16 ![] h c (ix1 q) = c ix0 :=
  broadcastInDim_apply _ h c (ix1 q) ix0 fun a => a.elim0

/-- A scalar repeated along a 1×16 row reads the scalar everywhere. -/
private theorem splat1x16_apply {α : Type} (c : Cert.ReferenceIdeal.S_.Idx → α)
    (h : Cert.ReferenceIdeal.S_.BroadcastsInDim Cert.ReferenceIdeal.S1x16 ![]) (q : Fin 16) :
    broadcastInDim Cert.ReferenceIdeal.S1x16 ![] h c (ix2 0 q) = c ix0 :=
  broadcastInDim_apply _ h c (ix2 (0 : Fin 1) q) ix0 fun a => a.elim0

/-- A 16-vector repeated down the rows, at an entry. -/
private theorem downH_apply (v : FVec Ideal Cert.ReferenceIdeal.S16 .f32) (p : Fin 200000) (q : Fin 16) :
    Cert.ReferenceIdeal.Terms.downH v (ix2 p q) = v (ix1 q) := by
  unfold Cert.ReferenceIdeal.Terms.downH
  rw [down_apply, asRow_apply]

/-- H = A + b at an entry, with the bias read either as a vector repeated down the rows or as a 1×16 row. -/
theorem biased_apply (A : FVec Ideal Cert.ReferenceIdeal.S200000x16 .f32) (b1 : FVec Ideal Cert.ReferenceIdeal.S16 .f32)
    (p : Fin 200000) (q : Fin 16) :
    (addf A (Cert.ReferenceIdeal.Terms.downH b1) : Cert.ReferenceIdeal.S200000x16.Idx → EReal) (ix2 p q)
      = A (ix2 p q) + Cert.KernelIdeal.Terms.rowH b1 (ix2 0 q) := by
  rw [addf_apply, downH_apply, rowH_apply]

/-! ## The column sums and the means -/

/-- Summing down the rows drops the row axis. -/
private theorem reduces0 : Cert.ReferenceIdeal.S200000x16.Reduces [0] Cert.ReferenceIdeal.S16 := by decide

/-- The host's sum down the rows, started from the zero word, at feature q: the sum over the rows of the entries (r, q). -/
private theorem colReduce_apply (H : FVec Ideal Cert.ReferenceIdeal.S200000x16 .f32)
    (h' : Cert.ReferenceIdeal.S200000x16.ReducesTo [0] Cert.ReferenceIdeal.S16) (hu : 0 < Cert.ReferenceIdeal.S_.numel) (q : Fin 16) :
    Host.reduceAdd H (constant Cert.ReferenceIdeal.S_ .f32 0x00000000#32) h' hu (ix1 q) = ∑ r : Fin 200000, H (ix2 r q) := by
  have h0 : (constant (F := Ideal) Cert.ReferenceIdeal.S_ .f32 0x00000000#32) (Shape.Idx.first hu) = 0 := ofBits_zero
  refine (Ideal.hostReduceAdd_single h' reduces0 H _ (ix1 q)).trans ?_
  rw [h0, zero_add]
  refine Finset.sum_congr rfl fun r _ => congrArg H (funext fun c => ?_)
  match c with
  | ⟨0, _⟩ => rfl
  | ⟨1, _⟩ => rfl

/-- The reference's mean at feature q: the column sum of H over 200000. -/
private theorem refMean_apply (H : FVec Ideal Cert.ReferenceIdeal.S200000x16 .f32) (q : Fin 16) :
    Cert.ReferenceIdeal.Terms.mean H (ix1 q) = Ideal.div (∑ r : Fin 200000, H (ix2 r q)) ((200000 : ℝ) : EReal) := by
  unfold Cert.ReferenceIdeal.Terms.mean
  rw [hostDivf_apply, colReduce_apply, splat16_apply, constant_apply, ofBits_200000]

/-- The node count row reads 200000 everywhere. -/
private theorem nodeCount_apply (q : Fin 16) : Cert.KernelIdeal.Terms.nodeCount (ix2 0 q) = ((200000 : ℝ) : EReal) := by
  unfold Cert.KernelIdeal.Terms.nodeCount
  rw [splat1x16_apply, constant_apply, ofBits_200000]

/-- The kernel side's mean at (0, q): the column sum of A + b over 200000. -/
private theorem kerMean_apply (A : FVec Ideal Cert.ReferenceIdeal.S200000x16 .f32) (b1 : FVec Ideal Cert.ReferenceIdeal.S16 .f32) (q : Fin 16) :
    Cert.KernelIdeal.Terms.mean A b1 (ix2 0 q)
      = Ideal.div (∑ r : Fin 200000, (A (ix2 r q) + Cert.KernelIdeal.Terms.rowH b1 (ix2 0 q))) ((200000 : ℝ) : EReal) := by
  unfold Cert.KernelIdeal.Terms.mean
  rw [hostDivf_apply, nodeCount_apply]
  rfl

/-- The two means agree, feature by feature. -/
theorem mean_eq (A : FVec Ideal Cert.ReferenceIdeal.S200000x16 .f32) (b1 : FVec Ideal Cert.ReferenceIdeal.S16 .f32) (q : Fin 16) :
    Cert.ReferenceIdeal.Terms.mean (addf A (Cert.ReferenceIdeal.Terms.downH b1)) (ix1 q)
      = Cert.KernelIdeal.Terms.mean A b1 (ix2 0 q) := by
  rw [refMean_apply, kerMean_apply]
  exact congrArg (fun s => Ideal.div s ((200000 : ℝ) : EReal)) (Finset.sum_congr rfl fun r _ => biased_apply A b1 r q)

/-! ## The variances -/

/-- The variance's divisor: 200000 − 0 = 200000. -/
private theorem varDivisor_apply : Cert.ReferenceIdeal.Terms.varDivisor ix0 = ((200000 : ℝ) : EReal) := by
  unfold Cert.ReferenceIdeal.Terms.varDivisor
  show Ideal.ofBits .f32 0x48435000#32 - (((0#32 : BitVec 32).toInt : ℝ) : EReal) = _
  rw [ofBits_200000]
  simp

/-- The guard "the divisor is positive" holds: 200000 > 0. -/
private theorem guard_apply (h : Cert.ReferenceIdeal.S_.BroadcastsInDim Cert.ReferenceIdeal.S16 ![]) (q : Fin 16) :
    broadcastInDim Cert.ReferenceIdeal.S16 ![] h
      (cmpf .ogt Cert.ReferenceIdeal.Terms.varDivisor (constant (F := Ideal) Cert.ReferenceIdeal.S_ .f32 0x00000000#32)) (ix1 q) = 1#1 := by
  rw [splat16_apply, cmpf_apply, Ideal.cmpf_def, varDivisor_apply, constant_apply, ofBits_zero]
  unfold Ideal.cmp
  simp

/-- The centred features at an entry: H minus its column mean. -/
private theorem centred_apply (H : FVec Ideal Cert.ReferenceIdeal.S200000x16 .f32) (r : Fin 200000) (q : Fin 16) :
    Cert.ReferenceIdeal.Terms.centred H (ix2 r q)
      = H (ix2 r q) - Ideal.div (∑ r' : Fin 200000, H (ix2 r' q)) ((200000 : ℝ) : EReal) := by
  unfold Cert.ReferenceIdeal.Terms.centred
  rw [subf_apply, down_apply, hostDivf_apply, asRow_apply, colReduce_apply, splat1x16_apply, constant_apply, ofBits_200000]

/-- The reference's variance at feature q: the guard passes, and what is left is the mean of the squared deviations. -/
private theorem refVariance_apply (H : FVec Ideal Cert.ReferenceIdeal.S200000x16 .f32) (q : Fin 16) :
    Cert.ReferenceIdeal.Terms.variance H (ix1 q)
      = Ideal.div (∑ r : Fin 200000,
          (H (ix2 r q) - Ideal.div (∑ r' : Fin 200000, H (ix2 r' q)) ((200000 : ℝ) : EReal))
            * (H (ix2 r q) - Ideal.div (∑ r' : Fin 200000, H (ix2 r' q)) ((200000 : ℝ) : EReal))) ((200000 : ℝ) : EReal) := by
  unfold Cert.ReferenceIdeal.Terms.variance
  rw [select_apply, guard_apply, select_one, hostDivf_apply, colReduce_apply, splat16_apply, varDivisor_apply]
  simp only [mulf_apply, centred_apply]

/-- The kernel side's variance at (0, q): the mean of the squares minus the squared mean. -/
private theorem kerVariance_apply (A : FVec Ideal Cert.ReferenceIdeal.S200000x16 .f32) (b1 : FVec Ideal Cert.ReferenceIdeal.S16 .f32) (q : Fin 16) :
    Cert.KernelIdeal.Terms.variance A b1 (ix2 0 q)
      = Ideal.div (∑ r : Fin 200000, (A (ix2 r q) + Cert.KernelIdeal.Terms.rowH b1 (ix2 0 q))
            * (A (ix2 r q) + Cert.KernelIdeal.Terms.rowH b1 (ix2 0 q))) ((200000 : ℝ) : EReal)
          - Cert.KernelIdeal.Terms.mean A b1 (ix2 0 q) * Cert.KernelIdeal.Terms.mean A b1 (ix2 0 q) := by
  unfold Cert.KernelIdeal.Terms.variance
  rw [subf_apply, mulf_apply, hostDivf_apply, nodeCount_apply]
  rfl

/-- The two variances agree on real entries, feature by feature. -/
theorem variance_eq (A : FVec Ideal Cert.ReferenceIdeal.S200000x16 .f32) (b1 : FVec Ideal Cert.ReferenceIdeal.S16 .f32)
    (hA : ∀ i, IsReal (A i)) (hb : ∀ i, IsReal (b1 i)) (q : Fin 16) :
    Cert.ReferenceIdeal.Terms.variance (addf A (Cert.ReferenceIdeal.Terms.downH b1)) (ix1 q)
      = Cert.KernelIdeal.Terms.variance A b1 (ix2 0 q) := by
  have hH : ∀ r : Fin 200000, (addf A (Cert.ReferenceIdeal.Terms.downH b1)) (ix2 r q)
      = A (ix2 r q) + Cert.KernelIdeal.Terms.rowH b1 (ix2 0 q) := fun r => biased_apply A b1 r q
  rw [refVariance_apply, kerVariance_apply, kerMean_apply]
  simp only [hH]
  -- the variance identity on the real column h(r) = A(r, q) + b(q)
  exact variance_two_pass_eq (fun r : Fin 200000 => A (ix2 r q) + Cert.KernelIdeal.Terms.rowH b1 (ix2 0 q))
    (fun r => (hA _).add (by rw [rowH_apply]; exact hb _)) 200000 (by norm_num) (by simp)

end Cert.Bridge

end
-- ==== Proof.BridgeLayer2.lean ====
/-
  Normalisation, rectification, the second product and the closing log-softmax agree.

  Given that the two means and the two variances agree feature by feature, the normalised and rectified features are
  the same array: both sides apply, entry by entry and in the same grouping, ((H − μ) · rsqrt(σ² + ε)) · γ + β and then
  the maximum with zero. The host's second product is the matrix product. The printed log-softmax — row maximum as a
  maximum with −∞ of a maximum-reduction started at −∞, then (z − m) − log Σ exp(z − m) — is the row-wise log-softmax of
  the specification, the bias read as a vector repeated down the rows or as a 1×3 row.
-/
import proofs.«130263_j59150289600863_1_alg».proof.Proof.KTerms
import proofs.«130263_j59150289600863_1_alg».proof.Proof.RTerms
import proofs.«130263_j59150289600863_1_alg».proof.Proof.LibRealArith
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«130263_j59150289600863_1_alg».proof.Proof.LibPlainDot

noncomputable section

open scoped BigOperators

namespace Cert.Bridge

open Idealize.ShloMosaic Idealize.ShloMosaic.ValueIdx Idealize.ShloMosaic.RealArith

/-! ## The host's elementwise functions at an index -/

/-- The host's reciprocal square root at an index is the extended reals' own. -/
private theorem hostRsqrt_apply {s : Shape} (x : FVec Ideal s .f32) (i : s.Idx) : Host.rsqrt x i = Ideal.rsqrt (x i) := rfl
/-- The host's exponential at an index is the extended reals' own. -/
private theorem hostExp_apply {s : Shape} (x : FVec Ideal s .f32) (i : s.Idx) : Host.exp x i = Ideal.exp (x i) := rfl
/-- The host's logarithm at an index is the extended reals' own. -/
private theorem hostLog_apply {s : Shape} (x : FVec Ideal s .f32) (i : s.Idx) : Host.log x i = Ideal.log (x i) := rfl

/-! ## A vector read as a row, and a vector repeated down the rows -/

/-- A 16-vector repeated down the rows, read at (p, q), is the vector at q. -/
private theorem downH_apply (v : FVec Ideal Cert.ReferenceIdeal.S16 .f32) (p : Fin 200000) (q : Fin 16) :
    Cert.ReferenceIdeal.Terms.downH v (ix2 p q) = v (ix1 q) := by
  unfold Cert.ReferenceIdeal.Terms.downH
  refine (broadcastInDim_apply _ _ _ (ix2 p q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

/-- A 3-vector repeated down the rows, read at (p, q), is the vector at q. -/
private theorem downO_apply (v : FVec Ideal Cert.ReferenceIdeal.S3 .f32) (p : Fin 200000) (q : Fin 3) :
    Cert.ReferenceIdeal.Terms.downO v (ix2 p q) = v (ix1 q) := by
  unfold Cert.ReferenceIdeal.Terms.downO
  refine (broadcastInDim_apply _ _ _ (ix2 p q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

/-- A 16-vector as a 1×16 row, read at (0, q), is the vector at q. -/
private theorem rowH_apply (v : FVec Ideal Cert.KernelIdeal.S16 .f32) (q : Fin 16) :
    Cert.KernelIdeal.Terms.rowH v (ix2 (0 : Fin 1) q) = v (ix1 q) := by
  unfold Cert.KernelIdeal.Terms.rowH
  exact shapeCast_apply _ _ (ix2 (0 : Fin 1) q) (ix1 q) (by
    rw [Shape.rowMajor_val_one, Shape.rowMajor_val_two]; show q.val = 0 * 16 + q.val; omega)

/-- A 3-vector as a 1×3 row, read at (0, q), is the vector at q. -/
private theorem rowO_apply (v : FVec Ideal Cert.KernelIdeal.S3 .f32) (q : Fin 3) :
    Cert.KernelIdeal.Terms.rowO v (ix2 (0 : Fin 1) q) = v (ix1 q) := by
  unfold Cert.KernelIdeal.Terms.rowO
  exact shapeCast_apply _ _ (ix2 (0 : Fin 1) q) (ix1 q) (by
    rw [Shape.rowMajor_val_one, Shape.rowMajor_val_two]; show q.val = 0 * 3 + q.val; omega)

/-- The activated features are the specification's, once means and variances agree. -/
theorem activated_eq (A : FVec Ideal Cert.ReferenceIdeal.S200000x16 .f32) (b1 g be : FVec Ideal Cert.ReferenceIdeal.S16 .f32)
    (mu var : FVec Ideal Cert.KernelIdeal.S1x16 .f32)
    (hmu : ∀ q : Fin 16, Cert.ReferenceIdeal.Terms.mean (addf A (Cert.ReferenceIdeal.Terms.downH b1)) (ix1 q) = mu (ix2 0 q))
    (hvar : ∀ q : Fin 16, Cert.ReferenceIdeal.Terms.variance (addf A (Cert.ReferenceIdeal.Terms.downH b1)) (ix1 q) = var (ix2 0 q)) :
    (Cert.ReferenceIdeal.Terms.activated (addf A (Cert.ReferenceIdeal.Terms.downH b1)) g be : Cert.ReferenceIdeal.S200000x16.Idx → EReal)
      = Cert.Gcn.normRelu (n := 200000) (h := 16) A (Cert.KernelIdeal.Terms.rowH b1) mu var
          (Cert.KernelIdeal.Terms.rowH g) (Cert.KernelIdeal.Terms.rowH be) := by
  funext i
  obtain ⟨p, q, rfl⟩ : ∃ p q, i = ix2 p q := ⟨i 0, i 1, eq_ix2 i⟩
  have hc : Cert.Gcn.col (n := 200000) (h := 16) (ix2 p q) = q := rfl
  unfold Cert.ReferenceIdeal.Terms.activated Cert.Gcn.normRelu
  simp only [maximumf_apply, addf_apply, mulf_apply, subf_apply, downH_apply, hc, rowH_apply, hmu q,
    hostRsqrt_apply, hvar q, Cert.Gcn.eps]
  refine congrArg₂ max ?_ ?_
  · rfl
  · exact (broadcastInDim_scalar_apply _ _ _).trans Ideal.ofBits_zero_f32

/-- The host's second product is the matrix product. -/
theorem dot2_eq (hh : FVec Ideal Cert.ReferenceIdeal.S200000x16 .f32) (W2 : FVec Ideal Cert.ReferenceIdeal.S16x3 .f32) :
    (Host.dotGeneral (F := Ideal) Cert.ReferenceIdeal.dot_S200000x16_S16x3_S200000x3_1_0_0_1_n_n none hh W2 : Cert.ReferenceIdeal.S200000x3.Idx → EReal)
      = Cert.Gcn.matProd (n := 200000) (k := 16) (h := 3) hh W2 := by
  funext i
  obtain ⟨p, q, rfl⟩ : ∃ p q, i = ix2 p q := ⟨i 0, i 1, eq_ix2 i⟩
  have hd : Cert.ReferenceIdeal.dot_S200000x16_S16x3_S200000x3_1_0_0_1_n_n = DotDims.plain 200000 16 3 := rfl
  show FloatOps.dotGeneral Cert.ReferenceIdeal.dot_S200000x16_S16x3_S200000x3_1_0_0_1_n_n none .single hh W2 (ix2 p q) = _
  rw [hd, Ideal.dotGeneral_apply, ← Ideal.matmul_constant_zero_apply (DotDims.plain 200000 16 3) none hh W2 (ix2 p q)]
  exact PlainDot.matmul_zero_apply 200000 16 3 hh W2 p q

/-! ## The closing log-softmax: a column repeated along the classes, and the two reductions along a row -/

/-- A 200000×1 column repeated along the three classes, read at (p, q), is the column at (p, 0). -/
private theorem alongO_apply (h2 : Cert.ReferenceIdeal.S200000x1.BroadcastsInDim Cert.ReferenceIdeal.S200000x3 ![0, 1])
    (w : FVec Ideal Cert.ReferenceIdeal.S200000x1 .f32) (p : Fin 200000) (q : Fin 3) :
    broadcastInDim Cert.ReferenceIdeal.S200000x3 ![0, 1] h2 w (ix2 p q) = w (ix2 p (0 : Fin 1)) := by
  refine broadcastInDim_apply _ _ _ (ix2 p q) (ix2 p (0 : Fin 1)) ?_
  intro a
  match a with
  | ⟨0, _⟩ => rfl
  | ⟨1, _⟩ => rfl

/-- A 200000-vector as a column, read at (p, 0), is the vector at p. -/
private theorem asCol_apply (h1 : Cert.ReferenceIdeal.S200000.BroadcastsInDim Cert.ReferenceIdeal.S200000x1 ![0])
    (v : FVec Ideal Cert.ReferenceIdeal.S200000 .f32) (p : Fin 200000) :
    broadcastInDim Cert.ReferenceIdeal.S200000x1 ![0] h1 v (ix2 p (0 : Fin 1)) = v (ix1 p) := by
  refine broadcastInDim_apply _ _ _ (ix2 p (0 : Fin 1)) (ix1 p) ?_
  intro a
  match a with
  | ⟨0, _⟩ => rfl

/-- The row index p with class k put back is (p, k). -/
private theorem lift_row (h : Cert.ReferenceIdeal.S200000x3.Reduces [1] Cert.ReferenceIdeal.S200000) (p : Fin 200000)
    (k : Fin (Cert.ReferenceIdeal.S200000x3.size 1)) : h.lift (ix1 p) k = ix2 p (⟨k.val, k.isLt⟩ : Fin 3) := by
  funext c; apply Fin.ext
  fin_cases c <;> rfl

/-- A fold of the maximum over three lanes from b is b joined to the largest of the three. -/
private theorem fold_max_fin3 (b : EReal) (f : Fin 3 → EReal) :
    (Finset.univ : Finset (Fin 3)).fold max b f = max b (Cert.Gcn.max3 f) := by
  have hu : (Finset.univ : Finset (Fin 3)) = insert 0 (insert 1 {2}) := by decide
  rw [hu, Finset.fold_insert (by decide), Finset.fold_insert (by decide), Finset.fold_singleton]
  unfold Cert.Gcn.max3
  ac_rfl

/-- The −∞ word is the least extended real: joined to anything it leaves it. -/
private theorem max_negInf (y : EReal) : max (Ideal.ofBits .f32 0xFF800000#32) y = y := by
  simp [Ideal.ofBits, Ideal.ieee]

/-- The host's maximum-reduction along a row, started at −∞, is the largest of the row's three entries. -/
private theorem hostReduceMax_row (X : FVec Ideal Cert.ReferenceIdeal.S200000x3 .f32)
    (h' : Cert.ReferenceIdeal.S200000x3.ReducesTo [1] Cert.ReferenceIdeal.S200000) (hu : 0 < Cert.ReferenceIdeal.S_.numel) (p : Fin 200000) :
    Host.reduce FloatOps.maximumf X (constant Cert.ReferenceIdeal.S_ .f32 0xFF800000#32) h' hu (ix1 p)
      = Cert.Gcn.max3 (fun o : Fin 3 => X (ix2 p o)) := by
  have h : Cert.ReferenceIdeal.S200000x3.Reduces [1] Cert.ReferenceIdeal.S200000 := by decide
  have hf : (X ∘ h.lift (ix1 p)) = fun o : Fin 3 => X (ix2 p o) := funext fun k => congrArg X (lift_row h p k)
  refine (Host.reduce_eq_fold_single FloatOps.maximumf X _ h' h hu (ix1 p)).trans ?_
  refine (congrArg (fun f => Finset.fold max (Ideal.ofBits .f32 0xFF800000#32) f (Finset.univ : Finset (Fin 3))) hf).trans ?_
  rw [fold_max_fin3, max_negInf]

/-- The host's sum along a row, started at zero, is the sum of the row's three entries. -/
private theorem hostReduceAdd_row (X : FVec Ideal Cert.ReferenceIdeal.S200000x3 .f32)
    (h' : Cert.ReferenceIdeal.S200000x3.ReducesTo [1] Cert.ReferenceIdeal.S200000) (hu : 0 < Cert.ReferenceIdeal.S_.numel) (p : Fin 200000) :
    Host.reduceAdd X (constant Cert.ReferenceIdeal.S_ .f32 0x00000000#32) h' hu (ix1 p) = ∑ o : Fin 3, X (ix2 p o) := by
  have h : Cert.ReferenceIdeal.S200000x3.Reduces [1] Cert.ReferenceIdeal.S200000 := by decide
  show Ideal.hostReduceAdd h' X (Ideal.ofBits .f32 0x00000000#32) (ix1 p) = _
  rw [Ideal.hostReduceAdd_single h' h, Ideal.ofBits_zero_f32, zero_add]
  exact Finset.sum_congr rfl fun k _ => congrArg X (lift_row h p k)

/-- The printed row maximum is the largest of the row's three entries. -/
private theorem rowMax_apply (X : FVec Ideal Cert.ReferenceIdeal.S200000x3 .f32) (p : Fin 200000) :
    Cert.ReferenceIdeal.Terms.rowMax X (ix1 p) = Cert.Gcn.max3 (fun o : Fin 3 => X (ix2 p o)) := by
  unfold Cert.ReferenceIdeal.Terms.rowMax
  rw [maximumf_apply, hostReduceMax_row]
  exact max_negInf _

/-- The printed log-softmax of Z + b is the row-wise log-softmax of the specification. -/
theorem logSoftmax_eq (Z : FVec Ideal Cert.ReferenceIdeal.S200000x3 .f32) (b2 : FVec Ideal Cert.ReferenceIdeal.S3 .f32) :
    (Cert.ReferenceIdeal.Terms.logSoftmax (addf Z (Cert.ReferenceIdeal.Terms.downO b2)) : Cert.ReferenceIdeal.S200000x3.Idx → EReal)
      = Cert.Gcn.logSoftmax3 (n := 200000) Z (Cert.KernelIdeal.Terms.rowO b2) := by
  funext i
  obtain ⟨p, q, rfl⟩ : ∃ p q, i = ix2 p q := ⟨i 0, i 1, eq_ix2 i⟩
  have hr : Cert.Gcn.row (n := 200000) (h := 3) (ix2 p q) = p := rfl
  have hc : Cert.Gcn.col (n := 200000) (h := 3) (ix2 p q) = q := rfl
  -- the biased row, entry by entry
  have hz : ∀ o : Fin 3, addf Z (Cert.ReferenceIdeal.Terms.downO b2) (ix2 p o)
      = Cert.Gcn.biased Z (Cert.KernelIdeal.Terms.rowO b2) p o := fun o => by
    rw [addf_apply, downO_apply]
    unfold Cert.Gcn.biased
    rw [rowO_apply]
  -- its maximum
  have hm : Cert.ReferenceIdeal.Terms.rowMax (addf Z (Cert.ReferenceIdeal.Terms.downO b2)) (ix1 p)
      = Cert.Gcn.max3 (Cert.Gcn.biased Z (Cert.KernelIdeal.Terms.rowO b2) p) := by
    rw [rowMax_apply]
    exact congrArg Cert.Gcn.max3 (funext hz)
  -- the shifted row
  have hs : ∀ o : Fin 3, Cert.ReferenceIdeal.Terms.shifted (addf Z (Cert.ReferenceIdeal.Terms.downO b2)) (ix2 p o)
      = Cert.Gcn.biased Z (Cert.KernelIdeal.Terms.rowO b2) p o
        - Cert.Gcn.max3 (Cert.Gcn.biased Z (Cert.KernelIdeal.Terms.rowO b2) p) := fun o => by
    unfold Cert.ReferenceIdeal.Terms.shifted
    rw [subf_apply, alongO_apply, asCol_apply, hz, hm]
  unfold Cert.ReferenceIdeal.Terms.logSoftmax Cert.Gcn.logSoftmax3
  rw [subf_apply, alongO_apply, hostLog_apply, asCol_apply, hostReduceAdd_row, hs q, hr, hc]
  simp only [hostExp_apply, hs]

end Cert.Bridge

end
-- ==== Proof.Bridge.lean ====
/-
  The two programs compute one function of real features.

  Layer by layer: the first product is the matrix product on both sides and the aggregation is shared, so the
  aggregated features agree; their entries are real, so the means and the variances agree (the variance identity);
  hence the activated features, their product with the second weights, the second aggregation and the closing
  log-softmax agree.
-/
import proofs.«130263_j59150289600863_1_alg».proof.Proof.BridgeAgg
import proofs.«130263_j59150289600863_1_alg».proof.Proof.BridgeLayer1
import proofs.«130263_j59150289600863_1_alg».proof.Proof.BridgeLayer2

noncomputable section

namespace Cert.Bridge

open Idealize.ShloMosaic Idealize.ShloMosaic.ValueIdx Idealize.ShloMosaic.RealArith

/-- On real features, first weights and first bias the tiled program's term is the whole-array program's term. -/
theorem value_eq (x : FVec Ideal Cert.ReferenceIdeal.S200000x256 .f32) (W1 : FVec Ideal Cert.ReferenceIdeal.S256x16 .f32)
    (b1 g be : FVec Ideal Cert.ReferenceIdeal.S16 .f32) (W2 : FVec Ideal Cert.ReferenceIdeal.S16x3 .f32)
    (b2 : FVec Ideal Cert.ReferenceIdeal.S3 .f32) (ei : IVec Cert.ReferenceIdeal.S2x6400000 32)
    (hx : ∀ i, IsReal (x i)) (hW1 : ∀ i, IsReal (W1 i)) (hb1 : ∀ i, IsReal (b1 i)) :
    Cert.KernelIdeal.Terms.value x W1 b1 g be W2 b2 ei = Cert.ReferenceIdeal.Terms.value x W1 b1 g be W2 b2 ei := by
  -- the reference's first layer is the shared aggregation of the matrix product, plus the bias
  have e1 : Cert.ReferenceIdeal.Terms.layer1 x W1 b1 ei
      = addf (Cert.KernelIdeal.Terms.layer1 x W1 ei) (Cert.ReferenceIdeal.Terms.downH b1) := by
    unfold Cert.ReferenceIdeal.Terms.layer1 Cert.KernelIdeal.Terms.layer1
    rw [dot1_eq, aggH_eq]
  -- the aggregated features are real: a product of real matrices, aggregated with real edge weights
  have hA1 : ∀ i, IsReal (Cert.KernelIdeal.Terms.layer1 x W1 ei i) := by
    intro i
    unfold Cert.KernelIdeal.Terms.layer1
    rw [aggH_eq]
    exact aggH_real ei _ (matProd_real x W1 hx hW1) i
  unfold Cert.KernelIdeal.Terms.value Cert.ReferenceIdeal.Terms.value
  rw [logSoftmax_eq, ← aggO_eq, dot2_eq, e1,
    activated_eq (Cert.KernelIdeal.Terms.layer1 x W1 ei) b1 g be _ _
      (mean_eq (Cert.KernelIdeal.Terms.layer1 x W1 ei) b1) (variance_eq (Cert.KernelIdeal.Terms.layer1 x W1 ei) b1 hA1 hb1)]
  rfl

end Cert.Bridge

end
-- ==== Proof.lean ====
/-
  A two-layer graph convolution with batch normalisation, tiled over the node axis, against its whole-array reference.

  Both programs compute log_softmax(Â · relu(BN(Â · (x W1) + b1)) W2 + b2) with Â the symmetrically normalised adjacency
  with self-loops, applied as a gather along the edges and a scatter-add onto the targets. The tiled program runs the
  two dense transforms, the batch statistics and the log-softmax as four grids of 20 tiles of 10000 nodes and leaves
  the sparse aggregation to the same host operations the reference uses. On the extended reals a change of float
  format is the identity and a sum does not depend on its grouping, so the tiles' results are the whole-array
  functions; the one algebraic difference is the variance — mean of squares minus squared mean against the mean of
  squared deviations — and the two agree because every aggregated feature is a real number: the inputs are finite,
  every node's degree is at least one (its self-loop), and sums and products of reals are real.
-/
import proofs.«130263_j59150289600863_1_alg».proof.Defs
import proofs.«130263_j59150289600863_1_alg».proof.Proof.Gen.Kernel
import proofs.«130263_j59150289600863_1_alg».proof.Proof.Gen.Kernel.Frame
import proofs.«130263_j59150289600863_1_alg».proof.Proof.Gen.KernelIdeal
import proofs.«130263_j59150289600863_1_alg».proof.Proof.Gen.KernelIdeal.Frame
import proofs.«130263_j59150289600863_1_alg».proof.Proof.Gen.ReferenceIdeal
import proofs.«130263_j59150289600863_1_alg».proof.Proof.Gen.Pre_finite_inputs
import proofs.«130263_j59150289600863_1_alg».proof.Proof.KernelRun
import proofs.«130263_j59150289600863_1_alg».proof.Proof.KernelValue
import proofs.«130263_j59150289600863_1_alg».proof.Proof.RefRun
import proofs.«130263_j59150289600863_1_alg».proof.Proof.PreReal
import proofs.«130263_j59150289600863_1_alg».proof.Proof.Bridge
import Idealize.ShloMosaic.Adequacy
import Idealize.ShloMosaic.Init

noncomputable section

namespace Cert.Proof

open Idealize.ShloMosaic Idealize.SL.Sem

/-- The word-level program runs and keeps its arguments: its generated frame. -/
theorem frame_k : Cert.frame_Kernel := fun m ρ _ => Cert.Kernel.Gen.frame m ρ

/-- The idealized program runs and keeps its arguments: its generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run m ρ)

/-- From memories agreeing on the arguments both programs end with the same result: the tiled program's run ends at its
    term of the arguments, the reference's at its own, and on real features the two terms are one function. -/
theorem algebraic : Cert.algebraic_KernelIdeal_ReferenceIdeal := by
  intro m ρ m' ρ' hpre hagree
  refine ⟨fun c => Cert.KernelIdeal.Terms.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Regions.kernel_value m ρ c), (h c).2⟩)
      (Cert.KernelIdeal.Gen.run_main (F := Ideal) m ρ)
  · refine (θ_run Cert.ReferenceIdeal.defs _ _).mono (fun _ h c => ⟨(h c).1.trans ?_, (h c).2⟩)
      (Cert.ReferenceIdeal.RefRun.run m' ρ')
    obtain ⟨hx, hW1, hb1⟩ := Cert.Bridge.real_of_pre m hpre c
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.Bridge.value_eq _ _ _ _ _ _ _ _ hx hW1 hb1).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
